-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S256 .f32) (main_arg10 : FVec F S256x2 .f32) (main_arg11 : FVec F S2 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x2 .f32 := Host.absf main_arg10
  let main_cst_14 : FVec F S_ .f32 := constant S_ .f32 0x7F800000#32
  let main_v40 : FVec F S256x2 .f32 := broadcastInDim S256x2 ![] bcast_S_S256x2 main_cst_14
  let main_v41 : IVec S256x2 1 := cmpf .olt main_v39 main_v40
  let main_c_15 : IVec S_ 1 := constantI S_ 1 1#1
  let main_v42 : IVec S_ 1 := (fun x v => Host.reduce IntOp.andi x v reducesTo_S256x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S256x256 .f32) (main_arg7 : FVec F S256 .f32) (main_arg8 : FVec F S256x256 .f32) (main_arg9 : FVec F S256 .f32) (main_arg10 : FVec F S256x2 .f32) (main_arg11 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S50000x128 .f32) (main_arg2 : IVec S2x800000 32) (main_arg3 : IVec S800000 32) (main_arg4 : FVec F S128x256 .f32) (main_arg5 : FVec F S256 .f32) (main_arg6 : FVec F S256x256 .f32) (main_arg7 : FVec F S256 .f32) (main_arg8 : FVec F S256x256 .f32) (main_arg9 : FVec F S256 .f32) (main_arg10 : FVec F S256x2 .f32) (main_arg11 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x256 : Shape := ⟨2, ![1, 256]⟩
abbrev S50000x256 : Shape := ⟨2, ![50000, 256]⟩
abbrev S1000x128 : Shape := ⟨2, ![1000, 128]⟩
abbrev S1000x256 : Shape := ⟨2, ![1000, 256]⟩
abbrev S850000x256 : Shape := ⟨2, ![850000, 256]⟩
abbrev S1x2 : Shape := ⟨2, ![1, 2]⟩
abbrev S50000x2 : Shape := ⟨2, ![50000, 2]⟩
abbrev S1000x2 : Shape := ⟨2, ![1000, 2]⟩

abbrev nBuf : Space → Nat
  | .hbm => 96
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S800000, .i32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x2, .f32⟩
  | .hbm, ⟨11, _⟩ => ⟨S2, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S128x256, .bf16⟩
  | .hbm, ⟨52, _⟩ => ⟨S1x256, .f32⟩
  | .hbm, ⟨53, _⟩ => ⟨S50000x256, .f32⟩
  | .hbm, ⟨54, _⟩ => ⟨S50000x256, .f32⟩
  | .hbm, ⟨55, _⟩ => ⟨S256x256, .bf16⟩
  | .hbm, ⟨56, _⟩ => ⟨S50000x256, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x256, .f32⟩
  | .hbm, ⟨66, _⟩ => ⟨S850000x1, .f32⟩
  | .hbm, ⟨67, _⟩ => ⟨S850000x256, .f32⟩
  | .hbm, ⟨68, _⟩ => ⟨S850000x256, .f32⟩
  | .hbm, ⟨69, _⟩ => ⟨S_, .f32⟩
  | .hbm, ⟨70, _⟩ => ⟨S50000x256, .f32⟩
  | .hbm, ⟨71, _⟩ => ⟨S850000x1, .i32⟩
  | .hbm, ⟨72, _⟩ => ⟨S50000x256, .f32⟩
  | .hbm, ⟨73, _⟩ => ⟨S1x256, .f32⟩
  | .hbm, ⟨74, _⟩ => ⟨S256x256, .bf16⟩
  | .hbm, ⟨75, _⟩ => ⟨S50000x256, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x256, .f32⟩
  | .hbm, ⟨85, _⟩ => ⟨S850000x1, .f32⟩
  | .hbm, ⟨86, _⟩ => ⟨S850000x256, .f32⟩
  | .hbm, ⟨87, _⟩ => ⟨S850000x256, .f32⟩
  | .hbm, ⟨88, _⟩ => ⟨S_, .f32⟩
  | .hbm, ⟨89, _⟩ => ⟨S50000x256, .f32⟩
  | .hbm, ⟨90, _⟩ => ⟨S850000x1, .i32⟩
  | .hbm, ⟨91, _⟩ => ⟨S50000x256, .f32⟩
  | .hbm, ⟨92, _⟩ => ⟨S1x256, .f32⟩
  | .hbm, ⟨93, _⟩ => ⟨S256x2, .bf16⟩
  | .hbm, ⟨94, _⟩ => ⟨S1x2, .f32⟩
  | .hbm, ⟨95, _⟩ => ⟨S50000x2, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x256, .bf16⟩
  | .local _ .vmem, ⟨5, _⟩ => ⟨S1x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S256x256, .bf16⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1x256, .f32⟩
  | .local _ .vmem, ⟨18, _⟩ => ⟨S256x256, .bf16⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S1000x256, .f32⟩
  | .local _ .vmem, ⟨23, _⟩ => ⟨S1x256, .f32⟩
  | .local _ .vmem, ⟨24, _⟩ => ⟨S1000x256, .f32⟩
  | .local _ .vmem, ⟨25, _⟩ => ⟨S1000x256, .f32⟩
  | .local _ .vmem, ⟨26, _⟩ => ⟨S256x2, .bf16⟩
  | .local _ .vmem, ⟨27, _⟩ => ⟨S1x2, .f32⟩
  | .local _ .vmem, ⟨28, _⟩ => ⟨S1000x2, .f32⟩
  | .local _ .vmem, ⟨29, _⟩ => ⟨S1000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33_0 : Ref sig .tc := ⟨.hbm, 53, rfl⟩
abbrev main_v33_1 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x2 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  shapeCasts_S256_S1x256 : S256.ShapeCasts S1x256
  inb_S1000x128_S1000x128_0_0 : ∀ a, (![0, 0] : Fin 2 → Nat) a + S1000x128.size a ≤ S1000x128.size a
  h_S1000x128 : 0 < S1000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S2_S1x2 : S2.ShapeCasts S1x2
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x128_S128x256_S1000x256_1_0_0_1_n_n_wf : DotDims.WF S1000x128 S128x256 S1000x256 [1] [0] [0] [1] [] []
  dot_S1000x256_S256x256_S1000x256_1_0_0_1_n_n_wf : DotDims.WF S1000x256 S256x256 S1000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S1000x256_S256x2_S1000x2_1_0_0_1_n_n_wf : DotDims.WF S1000x256 S256x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S50000x256.size a
  hwx0_4 : ∀ i : grid0.Coords, EltTy.bits .f32 = 32 ∨ (Rect.block (s := S50000x256) S1000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S50000x256.size a
  hwx0_5 : ∀ i : grid0.Coords, EltTy.bits .f32 = 32 ∨ (Rect.block (s := S50000x256) S1000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x256.size a ≤ S50000x256.size a
  hwx2_3 : ∀ i : grid2.Coords, EltTy.bits .f32 = 32 ∨ (Rect.block (s := S50000x256) S1000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S50000x256.size a
  hwx3_0 : ∀ i : grid3.Coords, EltTy.bits .f32 = 32 ∨ (Rect.block (s := S50000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x256.size a ≤ S50000x256.size a
  hwx3_2 : ∀ i : grid3.Coords, EltTy.bits .f32 = 32 ∨ (Rect.block (s := S50000x256) S1000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x2.size a ≤ S256x2.size a
  hwx3_3 : ∀ i : grid3.Coords, EltTy.bits .bf16 = 32 ∨ (Rect.block (s := S256x2) S256x2.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x2.size a ≤ S50000x2.size a
  hwx3_5 : ∀ i : grid3.Coords, EltTy.bits .f32 = 32 ∨ (Rect.block (s := S50000x2) S1000x2.size (cc3_transform_5 i) (hinb3_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S1000x256_S256x2_S1000x2_1_0_0_1_n_n : DotDims S1000x256 S256x2 S1000x2 where
  lhsContracting := [1]
  rhsContracting := [0]
  lhsNonContracting := [0]
  rhsNonContracting := [1]
  lhsBatch := []
  rhsBatch := []
  wf := dot_S1000x256_S256x2_S1000x2_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33_0) S1000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33_1) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33_0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v64) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33_1) S1000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v66) S256x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S1000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S50000x256 : Shape := ⟨2, ![50000, 256]⟩
abbrev S1x256 : Shape := ⟨2, ![1, 256]⟩
abbrev S_ : Shape := ⟨0, ![]⟩
abbrev S50000 : Shape := ⟨1, ![50000]⟩
abbrev S850000 : Shape := ⟨1, ![850000]⟩
abbrev S850000x1 : Shape := ⟨2, ![850000, 1]⟩
abbrev S850000x256 : Shape := ⟨2, ![850000, 256]⟩
abbrev S50000x2 : Shape := ⟨2, ![50000, 2]⟩
abbrev S1x2 : Shape := ⟨2, ![1, 2]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S800000, .i32⟩
  | 4 => ⟨S128x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x2, .f32⟩
  | 11 => ⟨S2, .f32⟩
  | 12 => ⟨S1x800000, .i32⟩
  | 13 => ⟨S800000, .i32⟩
  | 14 => ⟨S1x800000, .i32⟩
  | 15 => ⟨S800000, .i32⟩
  | 16 => ⟨S50000x256, .f32⟩
  | 17 => ⟨S1x256, .f32⟩
  | 18 => ⟨S50000x256, .f32⟩
  | 19 => ⟨S50000x256, .f32⟩
  | 20 => ⟨S_, .f32⟩
  | 21 => ⟨S_, .f32⟩
  | 22 => ⟨S50000x256, .f32⟩
  | 23 => ⟨S50000x256, .i1⟩
  | 24 => ⟨S_, .f32⟩
  | 25 => ⟨S50000x256, .f32⟩
  | 26 => ⟨S50000x256, .f32⟩
  | 27 => ⟨S50000x256, .f32⟩
  | 28 => ⟨S50000x256, .f32⟩
  | 29 => ⟨S50000, .i32⟩
  | 30 => ⟨S850000, .i32⟩
  | 31 => ⟨S850000, .i32⟩
  | 32 => ⟨S_, .f32⟩
  | 33 => ⟨S850000, .f32⟩
  | 34 => ⟨S_, .f32⟩
  | 35 => ⟨S50000, .f32⟩
  | 36 => ⟨S850000x1, .i32⟩
  | 37 => ⟨S50000, .f32⟩
  | 38 => ⟨S_, .f32⟩
  | 39 => ⟨S50000, .f32⟩
  | 40 => ⟨S50000, .i1⟩
  | 41 => ⟨S50000, .f32⟩
  | 42 => ⟨S_, .f32⟩
  | 43 => ⟨S50000, .f32⟩
  | 44 => ⟨S50000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x256, .f32⟩
  | 73 => ⟨S850000x1, .f32⟩
  | 74 => ⟨S850000x256, .f32⟩
  | 75 => ⟨S850000x256, .f32⟩
  | 76 => ⟨S_, .f32⟩
  | 77 => ⟨S50000x256, .f32⟩
  | 78 => ⟨S850000x1, .i32⟩
  | 79 => ⟨S50000x256, .f32⟩
  | 80 => ⟨S1x256, .f32⟩
  | 81 => ⟨S50000x256, .f32⟩
  | 82 => ⟨S50000x256, .f32⟩
  | 83 => ⟨S50000x256, .f32⟩
  | 84 => ⟨S50000, .i32⟩
  | 85 => ⟨S850000, .i32⟩
  | 86 => ⟨S850000, .i32⟩
  | 87 => ⟨S_, .f32⟩
  | 88 => ⟨S850000, .f32⟩
  | 89 => ⟨S_, .f32⟩
  | 90 => ⟨S50000, .f32⟩
  | 91 => ⟨S850000x1, .i32⟩
  | 92 => ⟨S50000, .f32⟩
  | 93 => ⟨S_, .f32⟩
  | 94 => ⟨S50000, .f32⟩
  | 95 => ⟨S50000, .i1⟩
  | 96 => ⟨S50000, .f32⟩
  | 97 => ⟨S_, .f32⟩
  | 98 => ⟨S50000, .f32⟩
  | 99 => ⟨S50000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x256, .f32⟩
  | _ => ⟨S50000x128, .f32⟩

abbrev hbmTy0_1 (i : Nat) : BufTy := match i % 128 with
  | 0 => ⟨S850000x1, .f32⟩
  | 1 => ⟨S850000x256, .f32⟩
  | 2 => ⟨S850000x256, .f32⟩
  | 3 => ⟨S_, .f32⟩
  | 4 => ⟨S50000x256, .f32⟩
  | 5 => ⟨S850000x1, .i32⟩
  | 6 => ⟨S50000x256, .f32⟩
  | 7 => ⟨S1x256, .f32⟩
  | 8 => ⟨S50000x256, .f32⟩
  | 9 => ⟨S50000x256, .f32⟩
  | 10 => ⟨S50000x2, .f32⟩
  | 11 => ⟨S1x2, .f32⟩
  | 12 => ⟨S50000x2, .f32⟩
  | 13 => ⟨S50000x2, .f32⟩
  | 14 => ⟨S50000x128, .f32⟩
  | 15 => ⟨S50000x256, .f32⟩
  | 16 => ⟨S1x256, .f32⟩
  | 17 => ⟨S50000x256, .f32⟩
  | 18 => ⟨S50000x256, .f32⟩
  | 19 => ⟨S_, .f32⟩
  | 20 => ⟨S_, .f32⟩
  | 21 => ⟨S50000x256, .f32⟩
  | 22 => ⟨S50000x256, .i1⟩
  | 23 => ⟨S_, .f32⟩
  | 24 => ⟨S50000x256, .f32⟩
  | 25 => ⟨S50000x256, .f32⟩
  | 26 => ⟨S50000x256, .f32⟩
  | 27 => ⟨S50000x2, .f32⟩
  | 28 => ⟨S1x2, .f32⟩
  | 29 => ⟨S50000x2, .f32⟩
  | 30 => ⟨S50000x2, .f32⟩
  | 31 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_c_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_c_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_16 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_c_19 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_20 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_21 : Ref sig .tc := ⟨.hbm, 147, rfl⟩
abbrev main_call3_cst : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x2_S50000x2_1_0_0_1_n_n_wf : DotDims.WF S50000x256 S256x2 S50000x2 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KAgg.lean ====
/-
  The graph aggregation, in this program's own vocabulary. From the edge list e : i32[2, 800000]: the source and
  target node of each of the 850000 edges (the given ones followed by one self-loop per node), the degree of each
  node (a scatter-add of ones at the targets), its inverse square root where the degree is positive and zero
  elsewhere, the edge weight (the product of that at the edge's two ends, each index first wrapped: a negative
  index has 50000 added), and the aggregation of a node-feature matrix h: gather the source rows, scale each by
  the edge's weight, scatter-add into the target rows.
-/
import proofs.«180160_j43533788512795_1_alg».proof.Proof.Gen.KernelIdeal
import Idealize.ShloMosaic.PureOps.Ideal

noncomputable section

namespace Cert.KernelIdeal.KAgg

open Idealize.ShloMosaic Cert.KernelIdeal
open Cert.KernelIdeal.Facts₀

/-- Row `r` of the edge list with the node numbers 0 … 49999 appended. -/
def ends (r : Fin 2 → Nat) (hr : S2x800000.Slices r S1x800000) (e : IVec S2x800000 32) : IVec S850000 32 :=
  concatenate S850000 0 [⟨S800000, shapeCast S800000 (extractStridedSlice S1x800000 r e hr) shapeCasts_S1x800000_S800000⟩, ⟨S50000, iotaInDim S50000 32 0⟩] concatenates_S800000_S50000_S850000_d0

/-- The edges' source nodes. -/
def src (e : IVec S2x800000 32) : IVec S850000 32 := ends ![0, 0] slices_S2x800000_S1x800000_0_0 e
/-- The edges' target nodes. -/
def dst (e : IVec S2x800000 32) : IVec S850000 32 := ends ![1, 0] slices_S2x800000_S1x800000_1_0 e

/-- An index vector wrapped (a negative entry has 50000 added) and given a trailing unit axis. -/
def wrap (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- Each node's degree: ones added at the edges' targets. -/
def deg (e : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 (dst e))
    (broadcastInDim S850000 ![] bcast_S_S850000 (constant (F := Ideal) S_ .f32 0x3F800000#32))

/-- The inverse square root of the degree where it is positive, zero elsewhere. -/
def dis (e : IVec S2x800000 32) : FVec Ideal S50000 .f32 :=
  select (cmpf (F := Ideal) .ogt (deg e) (broadcastInDim S50000 ![] bcast_S_S50000 (constant (F := Ideal) S_ .f32 0x00000000#32)))
    (Host.rsqrt (F := Ideal) (deg e)) (broadcastInDim S50000 ![] bcast_S_S50000 (constant (F := Ideal) S_ .f32 0x00000000#32))

/-- An edge weight vector from the nodes' factors `ds` and the edges' two ends. -/
def normOf (ds : FVec Ideal S50000 .f32) (s d : IVec S850000 32) : FVec Ideal S850000 .f32 :=
  mulf (F := Ideal) (Host.gather gather_S50000_S850000x1_S850000_n_0_n_n_0_1_1 ds (wrap s))
    (Host.gather gather_S50000_S850000x1_S850000_n_0_n_n_0_1_1 ds (wrap d))

/-- Each edge's weight. -/
def norm (e : IVec S2x800000 32) : FVec Ideal S850000 .f32 := normOf (dis e) (src e) (dst e)

/-- The aggregation over given sources `s`, targets `d` and edge weights `n`: gather the source rows of `h`, scale
    each by its edge's weight, add into the target rows. -/
def aggOf (s d : IVec S850000 32) (n : FVec Ideal S850000 .f32) (h : FVec Ideal S50000x256 .f32) : FVec Ideal S50000x256 .f32 :=
  Host.scatterAdd (F := Ideal) scatter_S50000x256_S850000x1_S850000x256_1_0_0_1
    (broadcastInDim S50000x256 ![] bcast_S_S50000x256 (constant (F := Ideal) S_ .f32 0x00000000#32))
    (broadcastInDim S850000x1 ![0] bcast_S850000_S850000x1_0 d)
    (mulf (F := Ideal) (Host.gather gather_S50000x256_S850000x1_S850000x256_1_0_n_n_0_1_1256 h (wrap s))
      (broadcastInDim S850000x256 ![0, 1] bcast_S850000x1_S850000x256_0_1 (broadcastInDim S850000x1 ![0] bcast_S850000_S850000x1_0 n)))

/-- The aggregation of a node-feature matrix over the graph. -/
def agg (e : IVec S2x800000 32) (h : FVec Ideal S50000x256 .f32) : FVec Ideal S50000x256 .f32 :=
  aggOf (src e) (dst e) (norm e) h

end Cert.KernelIdeal.KAgg

end
-- ==== Proof.KHost.lean ====
/-
  The host operations between the four pallas_calls, read as values. Each stretch is first read from ARBITRARY
  contents W (which buffer it writes with which operation of which buffers, and which buffers it leaves alone);
  then the stretches and the regions are chained from the launch memory: the edge list's source, target and
  weight vectors are computed once before the first region and only read afterwards, each weight matrix is the
  launched one rounded to bf16 (the identity on the extended reals), each bias the launched one reshaped to one
  row, the second and third regions are entered with the graph aggregation of the previous region's output, and
  the last region also reads the first region's second output, which nothing in between writes.
-/
import proofs.«180160_j43533788512795_1_alg».proof.Proof.Gen.KernelIdeal.Frame
import proofs.«180160_j43533788512795_1_alg».proof.Proof.KAgg
import Idealize.ShloMosaic.Lib.StableHlo.Run

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen

/-! ## Each stretch of host operations, from ANY contents `W` -/

section Stretches

variable (W : Valuation τ sig (Elt Ideal))

/-- the edge list, read from given contents -/
abbrev eOf : IVec S2x800000 32 := W (Proc.devRef .tc main_arg2)

theorem s0_v5 : StableHlo.after hostOps0 W (Proc.devRef .tc main_v5) = KAgg.src (eOf W) := by
  after_results
  rfl
theorem s0_v6 : StableHlo.after hostOps0 W (Proc.devRef .tc main_v6) = KAgg.dst (eOf W) := by
  after_results
  rfl
theorem s0_v10 : StableHlo.after hostOps0 W (Proc.devRef .tc main_v10) = KAgg.deg (eOf W) := by
  after_results
  rfl
theorem s0_v12 : StableHlo.after hostOps0 W (Proc.devRef .tc main_v12) = cmpf (F := Ideal) .ogt (KAgg.deg (eOf W)) (broadcastInDim S50000 ![] bcast_S_S50000 (constant (F := Ideal) S_ .f32 0x00000000#32)) := by
  after_results
  rfl
theorem s0_v13 : StableHlo.after hostOps0 W (Proc.devRef .tc main_v13) = Host.rsqrt (F := Ideal) (KAgg.deg (eOf W)) := by
  after_results
  rfl
theorem s0_v14 : StableHlo.after hostOps0 W (Proc.devRef .tc main_v14) = broadcastInDim S50000 ![] bcast_S_S50000 (constant (F := Ideal) S_ .f32 0x00000000#32) := by
  after_results
/-- no operation of the first stretch writes an argument -/
theorem keep0 (b : Ref sig .tc) (hb : b ∈ [main_arg0, main_arg1, main_arg2, main_arg4, main_arg5, main_arg6, main_arg7, main_arg8, main_arg9, main_arg10, main_arg11]) :
    StableHlo.after hostOps0 W (Proc.devRef .tc b) = W (Proc.devRef .tc b) := by
  simp only [List.mem_cons, List.not_mem_nil, or_false] at hb
  rcases hb with rfl | rfl | rfl | rfl | rfl | rfl | rfl | rfl | rfl | rfl | rfl <;> after_results

theorem s01_v15 : StableHlo.after hostOps0_1 W (Proc.devRef .tc main_v15) = select (W (Proc.devRef .tc main_v12)) (W (Proc.devRef .tc main_v13)) (W (Proc.devRef .tc main_v14)) := by
  after_results
  rfl
theorem keep01 (b : Ref sig .tc) (hb : b ∈ [main_v5, main_v6, main_arg0, main_arg1, main_arg4, main_arg5, main_arg6, main_arg7, main_arg8, main_arg9, main_arg10, main_arg11]) :
    StableHlo.after hostOps0_1 W (Proc.devRef .tc b) = W (Proc.devRef .tc b) := by
  simp only [List.mem_cons, List.not_mem_nil, or_false] at hb
  rcases hb with rfl | rfl | rfl | rfl | rfl | rfl | rfl | rfl | rfl | rfl | rfl | rfl <;> after_results

set_option maxHeartbeats 4000000 in
theorem s02_v30 : StableHlo.after hostOps0_2 W (Proc.devRef .tc main_v30) = KAgg.normOf (W (Proc.devRef .tc main_v15)) (W (Proc.devRef .tc main_v5)) (W (Proc.devRef .tc main_v6)) := by
  after_results
  rfl
theorem s02_v31 : @Eq (FVec Ideal S128x256 .bf16) (StableHlo.after hostOps0_2 W (Proc.devRef .tc main_v31)) (truncf .bf16 (W (Proc.devRef .tc main_arg4) : FVec Ideal S128x256 .f32) bitsLt_bf16_f32) := by
  after_results
theorem s02_v32 : @Eq (FVec Ideal S1x256 .f32) (StableHlo.after hostOps0_2 W (Proc.devRef .tc main_v32)) (shapeCast S1x256 (W (Proc.devRef .tc main_arg5) : FVec Ideal S256 .f32) shapeCasts_S256_S1x256) := by
  after_results
  rfl
set_option maxHeartbeats 4000000 in
theorem keep02 (b : Ref sig .tc) (hb : b ∈ [main_v5, main_v6, main_arg0, main_arg1, main_arg6, main_arg7, main_arg8, main_arg9, main_arg10, main_arg11]) :
    StableHlo.after hostOps0_2 W (Proc.devRef .tc b) = W (Proc.devRef .tc b) := by
  simp only [List.mem_cons, List.not_mem_nil, or_false] at hb
  rcases hb with rfl | rfl | rfl | rfl | rfl | rfl | rfl | rfl | rfl | rfl <;> after_results

theorem s1_v34 : @Eq (FVec Ideal S256x256 .bf16) (StableHlo.after hostOps1 W (Proc.devRef .tc main_v34)) (truncf .bf16 (W (Proc.devRef .tc main_arg6) : FVec Ideal S256x256 .f32) bitsLt_bf16_f32) := by
  after_results
theorem keep1 (b : Ref sig .tc) (hb : b ∈ [main_v5, main_v6, main_v30, main_v33_0, main_v33_1, main_arg7, main_arg8, main_arg9, main_arg10, main_arg11]) :
    StableHlo.after hostOps1 W (Proc.devRef .tc b) = W (Proc.devRef .tc b) := by
  simp only [List.mem_cons, List.not_mem_nil, or_false] at hb
  rcases hb with rfl | rfl | rfl | rfl | rfl | rfl | rfl | rfl | rfl | rfl <;> after_results

set_option maxHeartbeats 4000000 in
theorem s2_v48 : StableHlo.after hostOps2 W (Proc.devRef .tc main_v48) = KAgg.aggOf (W (Proc.devRef .tc main_v5)) (W (Proc.devRef .tc main_v6)) (W (Proc.devRef .tc main_v30)) (W (Proc.devRef .tc main_v35)) := by
  after_results
  rfl
theorem s2_v49 : @Eq (FVec Ideal S1x256 .f32) (StableHlo.after hostOps2 W (Proc.devRef .tc main_v49)) (shapeCast S1x256 (W (Proc.devRef .tc main_arg7) : FVec Ideal S256 .f32) shapeCasts_S256_S1x256) := by
  after_results
  rfl
theorem s2_v50 : @Eq (FVec Ideal S256x256 .bf16) (StableHlo.after hostOps2 W (Proc.devRef .tc main_v50)) (truncf .bf16 (W (Proc.devRef .tc main_arg8) : FVec Ideal S256x256 .f32) bitsLt_bf16_f32) := by
  after_results
set_option maxHeartbeats 4000000 in
theorem keep2 (b : Ref sig .tc) (hb : b ∈ [main_v5, main_v6, main_v30, main_v33_1, main_arg9, main_arg10, main_arg11]) :
    StableHlo.after hostOps2 W (Proc.devRef .tc b) = W (Proc.devRef .tc b) := by
  simp only [List.mem_cons, List.not_mem_nil, or_false] at hb
  rcases hb with rfl | rfl | rfl | rfl | rfl | rfl | rfl <;> after_results

set_option maxHeartbeats 4000000 in
theorem s3_v64 : StableHlo.after hostOps3 W (Proc.devRef .tc main_v64) = KAgg.aggOf (W (Proc.devRef .tc main_v5)) (W (Proc.devRef .tc main_v6)) (W (Proc.devRef .tc main_v30)) (W (Proc.devRef .tc main_v51)) := by
  after_results
  rfl
theorem s3_v65 : @Eq (FVec Ideal S1x256 .f32) (StableHlo.after hostOps3 W (Proc.devRef .tc main_v65)) (shapeCast S1x256 (W (Proc.devRef .tc main_arg9) : FVec Ideal S256 .f32) shapeCasts_S256_S1x256) := by
  after_results
  rfl
theorem s3_v66 : @Eq (FVec Ideal S256x2 .bf16) (StableHlo.after hostOps3 W (Proc.devRef .tc main_v66)) (truncf .bf16 (W (Proc.devRef .tc main_arg10) : FVec Ideal S256x2 .f32) bitsLt_bf16_f32) := by
  after_results
theorem s3_v67 : @Eq (FVec Ideal S1x2 .f32) (StableHlo.after hostOps3 W (Proc.devRef .tc main_v67)) (shapeCast S1x2 (W (Proc.devRef .tc main_arg11) : FVec Ideal S2 .f32) shapeCasts_S2_S1x2) := by
  after_results
  rfl
set_option maxHeartbeats 4000000 in
theorem keep3 (b : Ref sig .tc) (hb : b ∈ [main_v33_1]) :
    StableHlo.after hostOps3 W (Proc.devRef .tc b) = W (Proc.devRef .tc b) := by
  simp only [List.mem_cons, List.not_mem_nil, or_false] at hb
  rcases hb with rfl <;> after_results

end Stretches

/-! ## The contents each region is entered with, from the launch memory `m` -/

section Chain

variable (m : (ℓ : Loc nD τ sig) → Buf (Elt Ideal) ℓ) (ρ : Dev nD → PrngReg) (c : Dev nD)

/-- the edge list as launched -/
abbrev E : IVec S2x800000 32 := m ((c : Thread nD τ).loc main_arg2)

theorem w1_v12 : W1 m ρ c (Proc.devRef .tc main_v12) = cmpf (F := Ideal) .ogt (KAgg.deg (E m c)) (broadcastInDim S50000 ![] bcast_S_S50000 (constant (F := Ideal) S_ .f32 0x00000000#32)) := s0_v12 (W0 m ρ c)
theorem w1_v13 : W1 m ρ c (Proc.devRef .tc main_v13) = Host.rsqrt (F := Ideal) (KAgg.deg (E m c)) := s0_v13 (W0 m ρ c)
theorem w1_v14 : W1 m ρ c (Proc.devRef .tc main_v14) = broadcastInDim S50000 ![] bcast_S_S50000 (constant (F := Ideal) S_ .f32 0x00000000#32) := s0_v14 (W0 m ρ c)

theorem w2_v15 : W2 m ρ c (Proc.devRef .tc main_v15) = KAgg.dis (E m c) :=
  (s01_v15 (W1 m ρ c)).trans (by rw [w1_v12 m ρ c, w1_v13 m ρ c, w1_v14 m ρ c]; rfl)
theorem w2_v5 : W2 m ρ c (Proc.devRef .tc main_v5) = KAgg.src (E m c) := (keep01 (W1 m ρ c) main_v5 (by decide)).trans (s0_v5 (W0 m ρ c))
theorem w2_v6 : W2 m ρ c (Proc.devRef .tc main_v6) = KAgg.dst (E m c) := (keep01 (W1 m ρ c) main_v6 (by decide)).trans (s0_v6 (W0 m ρ c))
/-- an argument the first two stretches do not write, still as launched -/
theorem w2_arg (b : Ref sig .tc) (hb : b ∈ [main_arg0, main_arg1, main_arg4, main_arg5, main_arg6, main_arg7, main_arg8, main_arg9, main_arg10, main_arg11]) :
    W2 m ρ c (Proc.devRef .tc b) = m ((c : Thread nD τ).loc b) := by
  simp only [List.mem_cons, List.not_mem_nil, or_false] at hb
  rcases hb with rfl | rfl | rfl | rfl | rfl | rfl | rfl | rfl | rfl | rfl <;>
    exact (keep01 (W1 m ρ c) _ (by decide)).trans (keep0 (W0 m ρ c) _ (by decide))

theorem w3_v5 : W3 m ρ c (Proc.devRef .tc main_v5) = KAgg.src (E m c) := (keep02 (W2 m ρ c) main_v5 (by decide)).trans (w2_v5 m ρ c)
theorem w3_v6 : W3 m ρ c (Proc.devRef .tc main_v6) = KAgg.dst (E m c) := (keep02 (W2 m ρ c) main_v6 (by decide)).trans (w2_v6 m ρ c)
theorem w3_v30 : W3 m ρ c (Proc.devRef .tc main_v30) = KAgg.norm (E m c) :=
  (s02_v30 (W2 m ρ c)).trans (by rw [w2_v15 m ρ c, w2_v5 m ρ c, w2_v6 m ρ c]; rfl)
theorem w3_arg (b : Ref sig .tc) (hb : b ∈ [main_arg0, main_arg1, main_arg6, main_arg7, main_arg8, main_arg9, main_arg10, main_arg11]) :
    W3 m ρ c (Proc.devRef .tc b) = m ((c : Thread nD τ).loc b) := by
  simp only [List.mem_cons, List.not_mem_nil, or_false] at hb
  rcases hb with rfl | rfl | rfl | rfl | rfl | rfl | rfl | rfl <;>
    exact (keep02 (W2 m ρ c) _ (by decide)).trans (w2_arg m ρ c _ (by decide))
theorem w3_v31 : @Eq (FVec Ideal S128x256 .bf16) (W3 m ρ c (Proc.devRef .tc main_v31)) (truncf .bf16 (m ((c : Thread nD τ).loc main_arg4) : FVec Ideal S128x256 .f32) bitsLt_bf16_f32) :=
  (s02_v31 (W2 m ρ c)).trans (by rw [w2_arg m ρ c main_arg4 (by decide)])
theorem w3_v32 : @Eq (FVec Ideal S1x256 .f32) (W3 m ρ c (Proc.devRef .tc main_v32)) (shapeCast S1x256 (m ((c : Thread nD τ).loc main_arg5) : FVec Ideal S256 .f32) shapeCasts_S256_S1x256) :=
  (s02_v32 (W2 m ρ c)).trans (by rw [w2_arg m ρ c main_arg5 (by decide)])

/-- what region 0 does not touch keeps its contents across it -/
theorem w4_keep (b : Ref sig .tc) (hb : b ∈ [main_v5, main_v6, main_v30, main_arg6, main_arg7, main_arg8, main_arg9, main_arg10, main_arg11]) :
    W4 m ρ c (Proc.devRef .tc b) = W3 m ρ c (Proc.devRef .tc b) := by
  simp only [List.mem_cons, List.not_mem_nil, or_false] at hb
  rcases hb with rfl | rfl | rfl | rfl | rfl | rfl | rfl | rfl | rfl <;> exact W4_of_ne m ρ c _ (by decide)
theorem w4_v33_0 : W4 m ρ c (Proc.devRef .tc main_v33_0) = (dat0 (V3 m ρ) c).arrAt 4 cfg0.N := W4_arr m ρ c 4
theorem w4_v33_1 : W4 m ρ c (Proc.devRef .tc main_v33_1) = (dat0 (V3 m ρ) c).arrAt 5 cfg0.N := W4_arr m ρ c 5

theorem w5_keep (b : Ref sig .tc) (hb : b ∈ [main_v5, main_v6, main_v30, main_v33_0, main_v33_1, main_arg7, main_arg8, main_arg9, main_arg10, main_arg11]) :
    W5 m ρ c (Proc.devRef .tc b) = W4 m ρ c (Proc.devRef .tc b) := keep1 (W4 m ρ c) b hb
theorem w5_v34 : @Eq (FVec Ideal S256x256 .bf16) (W5 m ρ c (Proc.devRef .tc main_v34)) (truncf .bf16 (m ((c : Thread nD τ).loc main_arg6) : FVec Ideal S256x256 .f32) bitsLt_bf16_f32) :=
  (s1_v34 (W4 m ρ c)).trans (by rw [w4_keep m ρ c main_arg6 (by decide), w3_arg m ρ c main_arg6 (by decide)])
theorem w5_v33_0 : W5 m ρ c (Proc.devRef .tc main_v33_0) = (dat0 (V3 m ρ) c).arrAt 4 cfg0.N :=
  (w5_keep m ρ c main_v33_0 (by decide)).trans (w4_v33_0 m ρ c)

theorem w6_keep (b : Ref sig .tc) (hb : b ∈ [main_v5, main_v6, main_v30, main_v33_1, main_arg7, main_arg8, main_arg9, main_arg10, main_arg11]) :
    W6 m ρ c (Proc.devRef .tc b) = W5 m ρ c (Proc.devRef .tc b) := by
  simp only [List.mem_cons, List.not_mem_nil, or_false] at hb
  rcases hb with rfl | rfl | rfl | rfl | rfl | rfl | rfl | rfl | rfl <;> exact W6_of_ne m ρ c _ (by decide)
theorem w6_v35 : W6 m ρ c (Proc.devRef .tc main_v35) = (dat1 (V5 m ρ) c).arrAt 2 cfg1.N := W6_arr m ρ c 2
/-- from region 1's exit back to region 0's entry, for what neither region nor the stretch between them writes -/
theorem w6_back (b : Ref sig .tc) (hb : b ∈ [main_v5, main_v6, main_v30, main_arg7, main_arg8, main_arg9, main_arg10, main_arg11]) :
    W6 m ρ c (Proc.devRef .tc b) = W3 m ρ c (Proc.devRef .tc b) := by
  simp only [List.mem_cons, List.not_mem_nil, or_false] at hb
  rcases hb with rfl | rfl | rfl | rfl | rfl | rfl | rfl | rfl <;>
    exact (w6_keep m ρ c _ (by decide)).trans ((w5_keep m ρ c _ (by decide)).trans (w4_keep m ρ c _ (by decide)))
theorem w6_v33_1 : W6 m ρ c (Proc.devRef .tc main_v33_1) = (dat0 (V3 m ρ) c).arrAt 5 cfg0.N :=
  (w6_keep m ρ c main_v33_1 (by decide)).trans ((w5_keep m ρ c main_v33_1 (by decide)).trans (w4_v33_1 m ρ c))

theorem w7_v48 : W7 m ρ c (Proc.devRef .tc main_v48) = KAgg.agg (E m c) ((dat1 (V5 m ρ) c).arrAt 2 cfg1.N) :=
  (s2_v48 (W6 m ρ c)).trans (by
    rw [w6_back m ρ c main_v5 (by decide), w6_back m ρ c main_v6 (by decide), w6_back m ρ c main_v30 (by decide),
      w3_v5 m ρ c, w3_v6 m ρ c, w3_v30 m ρ c, w6_v35 m ρ c]
    rfl)
theorem w7_v49 : @Eq (FVec Ideal S1x256 .f32) (W7 m ρ c (Proc.devRef .tc main_v49)) (shapeCast S1x256 (m ((c : Thread nD τ).loc main_arg7) : FVec Ideal S256 .f32) shapeCasts_S256_S1x256) :=
  (s2_v49 (W6 m ρ c)).trans (by rw [w6_back m ρ c main_arg7 (by decide), w3_arg m ρ c main_arg7 (by decide)])
theorem w7_v50 : @Eq (FVec Ideal S256x256 .bf16) (W7 m ρ c (Proc.devRef .tc main_v50)) (truncf .bf16 (m ((c : Thread nD τ).loc main_arg8) : FVec Ideal S256x256 .f32) bitsLt_bf16_f32) :=
  (s2_v50 (W6 m ρ c)).trans (by rw [w6_back m ρ c main_arg8 (by decide), w3_arg m ρ c main_arg8 (by decide)])
theorem w7_keep (b : Ref sig .tc) (hb : b ∈ [main_v5, main_v6, main_v30, main_v33_1, main_arg9, main_arg10, main_arg11]) :
    W7 m ρ c (Proc.devRef .tc b) = W6 m ρ c (Proc.devRef .tc b) := keep2 (W6 m ρ c) b hb

theorem w8_keep (b : Ref sig .tc) (hb : b ∈ [main_v5, main_v6, main_v30, main_v33_1, main_arg9, main_arg10, main_arg11]) :
    W8 m ρ c (Proc.devRef .tc b) = W7 m ρ c (Proc.devRef .tc b) := by
  simp only [List.mem_cons, List.not_mem_nil, or_false] at hb
  rcases hb with rfl | rfl | rfl | rfl | rfl | rfl | rfl <;> exact W8_of_ne m ρ c _ (by decide)
theorem w8_v51 : W8 m ρ c (Proc.devRef .tc main_v51) = (dat2 (V7 m ρ) c).arrAt 3 cfg2.N := W8_arr m ρ c 3
theorem w8_back (b : Ref sig .tc) (hb : b ∈ [main_v5, main_v6, main_v30, main_arg9, main_arg10, main_arg11]) :
    W8 m ρ c (Proc.devRef .tc b) = W3 m ρ c (Proc.devRef .tc b) := by
  simp only [List.mem_cons, List.not_mem_nil, or_false] at hb
  rcases hb with rfl | rfl | rfl | rfl | rfl | rfl <;>
    exact (w8_keep m ρ c _ (by decide)).trans ((w7_keep m ρ c _ (by decide)).trans (w6_back m ρ c _ (by decide)))

theorem w9_v64 : W9 m ρ c (Proc.devRef .tc main_v64) = KAgg.agg (E m c) ((dat2 (V7 m ρ) c).arrAt 3 cfg2.N) :=
  (s3_v64 (W8 m ρ c)).trans (by
    rw [w8_back m ρ c main_v5 (by decide), w8_back m ρ c main_v6 (by decide), w8_back m ρ c main_v30 (by decide),
      w3_v5 m ρ c, w3_v6 m ρ c, w3_v30 m ρ c, w8_v51 m ρ c]
    rfl)
theorem w9_v65 : @Eq (FVec Ideal S1x256 .f32) (W9 m ρ c (Proc.devRef .tc main_v65)) (shapeCast S1x256 (m ((c : Thread nD τ).loc main_arg9) : FVec Ideal S256 .f32) shapeCasts_S256_S1x256) :=
  (s3_v65 (W8 m ρ c)).trans (by rw [w8_back m ρ c main_arg9 (by decide), w3_arg m ρ c main_arg9 (by decide)])
theorem w9_v66 : @Eq (FVec Ideal S256x2 .bf16) (W9 m ρ c (Proc.devRef .tc main_v66)) (truncf .bf16 (m ((c : Thread nD τ).loc main_arg10) : FVec Ideal S256x2 .f32) bitsLt_bf16_f32) :=
  (s3_v66 (W8 m ρ c)).trans (by rw [w8_back m ρ c main_arg10 (by decide), w3_arg m ρ c main_arg10 (by decide)])
theorem w9_v67 : @Eq (FVec Ideal S1x2 .f32) (W9 m ρ c (Proc.devRef .tc main_v67)) (shapeCast S1x2 (m ((c : Thread nD τ).loc main_arg11) : FVec Ideal S2 .f32) shapeCasts_S2_S1x2) :=
  (s3_v67 (W8 m ρ c)).trans (by rw [w8_back m ρ c main_arg11 (by decide), w3_arg m ρ c main_arg11 (by decide)])
theorem w9_v33_1 : W9 m ρ c (Proc.devRef .tc main_v33_1) = (dat0 (V3 m ρ) c).arrAt 5 cfg0.N :=
  (keep3 (W8 m ρ c) main_v33_1 (by decide)).trans ((w8_keep m ρ c main_v33_1 (by decide)).trans ((w7_keep m ρ c main_v33_1 (by decide)).trans (w6_v33_1 m ρ c)))

end Chain

end Cert.KernelIdeal.KHost
end
-- ==== Proof.Spec.lean ====
/-
  The mathematics both programs compute, stated once over literal extents and with no program imported.
  With N = 50000 nodes and E = 850000 edges (the 800000 given ones and one self-loop per node):

    x0  = lrelu (mf · W_in + b_in)                      m0 = lrelu ((feat − mf) · W_in + b_in)
    h1  = x0 · Wg1                                      raw1 = A h1
    h2  = (raw1 + bg1) · Wg2                            raw2 = A h2
    out = ((raw2 + bg2) · W_out + b_out) ∗ (m0 · W_out + b_out)

  where `·` is the matrix product (a plain sum over the contracted axis on the extended reals), `+ b` adds a
  row vector to every row, `∗` is the entrywise product, `lrelu x = x` where `x ≥ 0` and `0.01f · x` elsewhere, and
  `A` is the graph aggregation (gather rows by source node, scale each by the edge's normalisation, add into
  the rows of the target nodes). `A` is the same chain of operations in both programs, so it enters here as a
  parameter: nothing below looks inside it.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals with literal extents. -/
abbrev Mat (n0 n1 : Nat) : Type := (⟨2, ![n0, n1]⟩ : Shape).Idx → EReal
/-- A rank-1 array of extended reals. -/
abbrev Row (n : Nat) : Type := (⟨1, ![n]⟩ : Shape).Idx → EReal

/-- The matrix product: entry (r, q) is the sum over l of x (r, l) · w (l, q). -/
def mm {n k p : Nat} (x : Mat n k) (w : Mat k p) : Mat n p :=
  fun i => ∑ l : Fin k, x (ix2 (i 0) l) * w (ix2 l (i 1))

/-- A row vector added to every row of a matrix. -/
def addRow {n p : Nat} (x : Mat n p) (b : Row p) : Mat n p := fun i => x i + b (ix1 (i 1))

/-- The same with the row vector given as a one-row matrix (a bias reshaped to [1, p]). -/
def addRow1 {n p : Nat} (x : Mat n p) (b : Mat 1 p) : Mat n p := fun i => x i + b (ix2 0 (i 1))

/-- Entrywise difference. -/
def sub {n p : Nat} (x y : Mat n p) : Mat n p := fun i => x i - y i

/-- Entrywise product. -/
def mul {n p : Nat} (x y : Mat n p) : Mat n p := fun i => x i * y i

/-- The leaky rectifier with slope the f32 nearest to 0.01: the entry itself where it is at least zero, the
    slope times the entry elsewhere. The comparison and the choice are the instance's own scalar operations. -/
def lrelu {n p : Nat} (x : Mat n p) : Mat n p := fun i =>
  Scalar.select (FloatOps.cmpf (F := Ideal) (φ := .f32) .oge (x i) (Ideal.ofBits .f32 0x00000000#32)) (x i)
    (Ideal.ofBits .f32 0x3C23D70A#32 * x i)

/-- The first layer of either branch: lrelu (x · W_in + b_in). -/
def layerIn (x : Mat 50000 128) (Win : Mat 128 256) (bin : Row 256) : Mat 50000 256 := lrelu (addRow (mm x Win) bin)

/-- The whole network over an aggregation `A`. -/
def out (A : Mat 50000 256 → Mat 50000 256) (mf feat : Mat 50000 128) (Win : Mat 128 256) (bin : Row 256)
    (Wg1 : Mat 256 256) (bg1 : Row 256) (Wg2 : Mat 256 256) (bg2 : Row 256) (Wout : Mat 256 2) (bout : Row 2) : Mat 50000 2 :=
  mul (addRow (mm (addRow (A (mm (addRow (A (mm (layerIn mf Win bin) Wg1)) bg1) Wg2)) bg2) Wout) bout)
    (addRow (mm (layerIn (sub feat mf) Win bin) Wout) bout)

end Cert.Spec

end
-- ==== Proof.Region0.lean ====
/-
  The first grid region of the program (x0 = lrelu (mf · W_in + b_in), m0 = lrelu ((feat − mf) · W_in + b_in)): a grid of 50 points,
  point t holding rows 1000 t … 1000 t + 999 of mf and of feat, all of W_in and the one-row matrix b_in, and storing one
  block of each of the two outputs. Entry (p, q) of the first stored block is the rectifier of
  (the sum over l of mf (1000 t + p, l) · W_in (l, q)) + b_in (0, q), and of the second the same with
  feat (1000 t + p, l) − mf (1000 t + p, l) in place of mf (1000 t + p, l) (the rounding of the left operand to bf16 is
  the identity on the extended reals); these are the entries (1000 t + p, q) of the two whole-array expressions, and the
  50 blocks tile each output array, so after the region each output array IS its whole-array expression of the arrays
  as the region found them.
-/
import proofs.«180160_j43533788512795_1_alg».proof.Proof.Gen.KernelIdeal.Frame
import proofs.«180160_j43533788512795_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

abbrev D := dot_S1000x128_S128x256_S1000x256_1_0_0_1_n_n

theorem lhs0 (j : S1000x256.Idx) (k : D.contr.Idx) : (D.lhsIdx j k 0 : ℕ) = (j 0 : ℕ) := by
  simp [DotDims.lhsIdx, D, dot_S1000x128_S128x256_S1000x256_1_0_0_1_n_n]; rfl
theorem lhs1 (j : S1000x256.Idx) (k : D.contr.Idx) : (D.lhsIdx j k 1 : ℕ) = (k ⟨0, by decide⟩ : ℕ) := by
  simp [DotDims.lhsIdx, D, dot_S1000x128_S128x256_S1000x256_1_0_0_1_n_n]; rfl
theorem rhs0 (j : S1000x256.Idx) (k : D.contr.Idx) : (D.rhsIdx j k 0 : ℕ) = (k ⟨0, by decide⟩ : ℕ) := by
  simp [DotDims.rhsIdx, D, dot_S1000x128_S128x256_S1000x256_1_0_0_1_n_n]; rfl
theorem rhs1 (j : S1000x256.Idx) (k : D.contr.Idx) : (D.rhsIdx j k 1 : ℕ) = (j 1 : ℕ) := by
  simp [DotDims.rhsIdx, D, dot_S1000x128_S128x256_S1000x256_1_0_0_1_n_n]; rfl

/-- a product of a [1000,128] block and the [128,256] matrix, accumulated from zero, at an entry: the sum over
    the 128 contracted positions -/
theorem mm_blk (x : FVec Ideal S1000x128 .bf16) (w : FVec Ideal S128x256 .bf16) (p : Fin 1000) (q : Fin 256) :
    matmul (F := Ideal) D none x w (constant S1000x256 .f32 0x00000000#32) (ix2 p q)
      = ∑ l : Fin 128, x (ix2 p l) * w (ix2 l q) := by
  refine (Ideal.matmul_constant_zero_apply D none x w (ix2 p q)).trans ?_
  rw [← Equiv.sum_comp (contrEquiv1 D 128 rfl rfl).symm]
  refine Finset.sum_congr rfl fun l _ => ?_
  have hl := contrEquiv1_symm_val D 128 rfl rfl l
  congr 1
  · congr 1; funext a; apply Fin.ext
    match a with
    | ⟨0, _⟩ => exact lhs0 _ _
    | ⟨1, _⟩ => exact (lhs1 _ _).trans hl
  · congr 1; funext a; apply Fin.ext
    match a with
    | ⟨0, _⟩ => exact (rhs0 _ _).trans hl
    | ⟨1, _⟩ => exact rhs1 _ _

/-- the one-row matrix repeated over the 1000 rows, at an entry: the row's entry in that column -/
theorem bc_at (b : FVec Ideal S1x256 .f32) (p : Fin 1000) (q : Fin 256) :
    broadcastTo S1000x256 b broadcasts_S1x256_S1000x256 (ix2 p q) = b (ix2 (0 : Fin 1) q) := by
  refine broadcastTo_apply b broadcasts_S1x256_S1000x256 (ix2 p q) (ix2 (0 : Fin 1) q) fun a => ?_
  match a with
  | ⟨0, _⟩ => rfl
  | ⟨1, _⟩ => rfl

/-- the leaky rectifier on one extended real -/
def lr (y : EReal) : EReal :=
  Scalar.select (FloatOps.cmpf (F := Ideal) (φ := .f32) .oge y (Ideal.ofBits .f32 0x00000000#32)) y
    (Ideal.ofBits .f32 0x3C23D70A#32 * y)

theorem lrelu_at {n p : Nat} (x : Cert.Spec.Mat n p) (i) : Cert.Spec.lrelu x i = lr (x i) := rfl

/-- the first stored value at an entry: the rectifier of (row p of the block) · (column q of the matrix) + bias q -/
theorem pay3_at (x0 : Vec Ideal S1000x128 .f32) (w : Vec Ideal S128x256 .bf16) (b : Vec Ideal S1x256 .f32)
    (p : Fin 1000) (q : Fin 256) :
    k0_pay3 x0 w b (ix2 p q) = lr ((∑ l : Fin 128, x0 (ix2 p l) * w (ix2 l q)) + b (ix2 (0 : Fin 1) q)) := by
  unfold k0_pay3 k0_pay1 k0_pay2
  simp only [shapeCast_self, select_apply, cmpf_apply, mulf_apply, addf_apply, broadcast_apply]
  rw [mm_blk, bc_at]
  rfl

/-- the second stored value at an entry: the same of the difference of the two blocks -/
theorem pay4_at (x0 x1 : Vec Ideal S1000x128 .f32) (w : Vec Ideal S128x256 .bf16) (b : Vec Ideal S1x256 .f32)
    (p : Fin 1000) (q : Fin 256) :
    k0_pay4 x0 x1 w b (ix2 p q)
      = lr ((∑ l : Fin 128, (x1 (ix2 p l) - x0 (ix2 p l)) * w (ix2 l q)) + b (ix2 (0 : Fin 1) q)) := by
  unfold k0_pay4 k0_pay1 k0_pay2
  simp only [shapeCast_self, select_apply, cmpf_apply, mulf_apply, addf_apply, broadcast_apply]
  rw [mm_blk, bc_at]
  rfl

variable (V : (c : Dev nD) → (b : Ref sig .tc) → Buf (Elt Ideal) ((c : Thread nD τ).loc b))

theorem hz : (![0, 0] : Fin 2 → Nat) = fun _ => 0 := funext fun a => by fin_cases a <;> rfl

/-- the printed index maps, decided once over the 50 grid points: both row blocks and both output blocks sit at
    block row t, block column 0; the matrix and the bias row are whole (block (0,0)) -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem mem_blk4 (t : Fin cfg0.N) (i : S50000x256.Idx) :
    i ∈ ((cfg0.win 4).blk t).view.set ↔ ∀ a : Fin 2, win0_4.index t a * S1000x256.size a ≤ (i a).val ∧ (i a).val < win0_4.index t a * S1000x256.size a + S1000x256.size a := by
  show i ∈ ((View.whole main_v33_0).slice (win0_4.rect t)).set ↔ _
  rw [View.set_slice_whole, Rect.mem_set_unit]
  exact Iff.rfl

theorem mem_blk5 (t : Fin cfg0.N) (i : S50000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_v33_1).slice (win0_5.rect t)).set ↔ _
  rw [View.set_slice_whole, Rect.mem_set_unit]
  exact Iff.rfl

/-- window 0's block at (p, l) is the array's entry (1000 t + p, l) -/
theorem blk0_at (c : Dev nD) (t : Fin cfg0.N) (p : Fin 1000) (l : Fin 128) (r : Fin 50000) (hr : (r : ℕ) = t.val * 1000 + 1 * (p : ℕ)) :
    iblk0 V c 0 t (ix2 p l) = V c main_arg0 (ix2 r l) := by
  obtain ⟨⟨e00, e01⟩, -⟩ := idx_facts t
  show V c main_arg0 (((cfg0.win 0).blk t).view.emb (ix2 p l)) = _
  congr 1; funext a; apply Fin.ext
  match a with
  | ⟨0, _⟩ => show win0_0.index t (0 : Fin 2) * 1000 + 1 * (p : ℕ) = (r : ℕ); omega
  | ⟨1, _⟩ => show win0_0.index t (1 : Fin 2) * 128 + 1 * (l : ℕ) = (l : ℕ); omega

/-- window 1's block at (p, l) is the array's entry (1000 t + p, l) -/
theorem blk1_at (c : Dev nD) (t : Fin cfg0.N) (p : Fin 1000) (l : Fin 128) (r : Fin 50000) (hr : (r : ℕ) = t.val * 1000 + 1 * (p : ℕ)) :
    iblk0 V c 1 t (ix2 p l) = V c main_arg1 (ix2 r l) := by
  obtain ⟨-, ⟨e10, e11⟩, -⟩ := idx_facts t
  show V c main_arg1 (((cfg0.win 1).blk t).view.emb (ix2 p l)) = _
  congr 1; funext a; apply Fin.ext
  match a with
  | ⟨0, _⟩ => show win0_1.index t (0 : Fin 2) * 1000 + 1 * (p : ℕ) = (r : ℕ); omega
  | ⟨1, _⟩ => show win0_1.index t (1 : Fin 2) * 128 + 1 * (l : ℕ) = (l : ℕ); omega

/-- window 2's block is the whole matrix -/
theorem blk2_at (c : Dev nD) (t : Fin cfg0.N) (l : Fin 128) (q : Fin 256) :
    iblk0 V c 2 t (ix2 l q) = V c main_v31 (ix2 l q) := by
  obtain ⟨-, -, ⟨e20, e21⟩, -⟩ := idx_facts t
  show V c main_v31 (((cfg0.win 2).blk t).view.emb (ix2 l q)) = _
  congr 1; funext a; apply Fin.ext
  match a with
  | ⟨0, _⟩ => show win0_2.index t (0 : Fin 2) * 128 + 1 * (l : ℕ) = (l : ℕ); omega
  | ⟨1, _⟩ => show win0_2.index t (1 : Fin 2) * 256 + 1 * (q : ℕ) = (q : ℕ); omega

/-- window 3's block is the whole bias row -/
theorem blk3_at (c : Dev nD) (t : Fin cfg0.N) (q : Fin 256) :
    iblk0 V c 3 t (ix2 (0 : Fin 1) q) = V c main_v32 (ix2 (0 : Fin 1) q) := by
  obtain ⟨-, -, -, ⟨e30, e31⟩, -⟩ := idx_facts t
  show V c main_v32 (((cfg0.win 3).blk t).view.emb (ix2 (0 : Fin 1) q)) = _
  congr 1; funext a; apply Fin.ext
  match a with
  | ⟨0, _⟩ => show win0_3.index t (0 : Fin 2) * 1 + 1 * ((0 : Fin 1) : ℕ) = ((0 : Fin 1) : ℕ); omega
  | ⟨1, _⟩ => show win0_3.index t (1 : Fin 2) * 256 + 1 * (q : ℕ) = (q : ℕ); omega

theorem arr4 (c : Dev nD) : (dat0 (F := Ideal) V c).arrAt 4 cfg0.N = Cert.Spec.lrelu (Cert.Spec.addRow1 (Cert.Spec.mm (V c main_arg0) (V c main_v31)) (V c main_v32)) := by
  refine (dat0 (F := Ideal) V c).arrAt_eq_of_cover 4 _ (fun t _ => ?_) (fun i => ?_)
  · show (cfg0.win 4).cut (grid0.coords t) ((dat0 V c).after 4 t) = _
    rw [after0_4]
    unfold out0_4
    rw [View.canon_unit_zero hz]
    simp only [View.ld_unit_zero (S := S1000x128) hz, View.ld_unit_zero (S := S128x256) hz, View.ld_unit_zero (S := S1x256) hz]
    obtain ⟨-, -, -, -, ⟨e40, e41⟩, -⟩ := idx_facts t
    funext j
    obtain ⟨p, q, rfl⟩ : ∃ (p : Fin 1000) (q : Fin 256), j = ix2 p q := ⟨j 0, j 1, eq_ix2 j⟩
    show k0_pay3 (iblk0 V c 0 t) (iblk0 V c 2 t) (iblk0 V c 3 t) (ix2 p q) = Cert.Spec.lrelu (Cert.Spec.addRow1 (Cert.Spec.mm (V c main_arg0) (V c main_v31)) (V c main_v32)) (((cfg0.win 4).blk t).view.emb (ix2 p q))
    refine (pay3_at _ _ _ p q).trans ?_
    refine Eq.trans ?_ (lrelu_at _ _).symm
    refine congrArg lr ?_
    unfold Cert.Spec.addRow1 Cert.Spec.mm
    have hr : ((((cfg0.win 4).blk t).view.emb (ix2 p q) 0 : Fin 50000) : ℕ) = t.val * 1000 + 1 * (p : ℕ) := by
      show win0_4.index t (0 : Fin 2) * 1000 + 1 * (p : ℕ) = _; omega
    have hq : (((cfg0.win 4).blk t).view.emb (ix2 p q) 1 : Fin 256) = q := by
      apply Fin.ext
      show win0_4.index t (1 : Fin 2) * 256 + 1 * (q : ℕ) = (q : ℕ); omega
    rw [hq, blk3_at]
    refine congrArg₂ (· + ·) (Finset.sum_congr rfl fun l _ => ?_) rfl
    rw [blk0_at V c t p l _ hr, blk2_at]
  · have hi0 : (i 0).val < 50000 := (i 0).isLt
    have hi1 : (i 1).val < 256 := (i 1).isLt
    refine ⟨⟨(i 0).val / 1000, by show (i 0).val / 1000 < 50; omega⟩, flush0_4 _, ?_⟩
    rw [mem_blk4]
    obtain ⟨-, -, -, -, ⟨e40, e41⟩, -⟩ := idx_facts ⟨(i 0).val / 1000, by show (i 0).val / 1000 < 50; omega⟩
    intro a
    match a with
    | ⟨0, _⟩ => show win0_4.index _ (0 : Fin 2) * 1000 ≤ (i 0).val ∧ (i 0).val < win0_4.index _ (0 : Fin 2) * 1000 + 1000; rw [e40]; show (i 0).val / 1000 * 1000 ≤ (i 0).val ∧ (i 0).val < (i 0).val / 1000 * 1000 + 1000; omega
    | ⟨1, _⟩ => show win0_4.index _ (1 : Fin 2) * 256 ≤ (i 1).val ∧ (i 1).val < win0_4.index _ (1 : Fin 2) * 256 + 256; rw [e41]; omega

theorem arr5 (c : Dev nD) : (dat0 (F := Ideal) V c).arrAt 5 cfg0.N = Cert.Spec.lrelu (Cert.Spec.addRow1 (Cert.Spec.mm (Cert.Spec.sub (V c main_arg1) (V c main_arg0)) (V c main_v31)) (V c main_v32)) := by
  refine (dat0 (F := Ideal) V c).arrAt_eq_of_cover 5 _ (fun t _ => ?_) (fun i => ?_)
  · show (cfg0.win 5).cut (grid0.coords t) ((dat0 V c).after 5 t) = _
    rw [after0_5]
    unfold out0_5
    rw [View.canon_unit_zero hz]
    simp only [View.ld_unit_zero (S := S1000x128) hz, View.ld_unit_zero (S := S128x256) hz, View.ld_unit_zero (S := S1x256) hz]
    obtain ⟨-, -, -, -, -, ⟨e50, e51⟩⟩ := idx_facts t
    funext j
    obtain ⟨p, q, rfl⟩ : ∃ (p : Fin 1000) (q : Fin 256), j = ix2 p q := ⟨j 0, j 1, eq_ix2 j⟩
    show k0_pay4 (iblk0 V c 0 t) (iblk0 V c 1 t) (iblk0 V c 2 t) (iblk0 V c 3 t) (ix2 p q) = Cert.Spec.lrelu (Cert.Spec.addRow1 (Cert.Spec.mm (Cert.Spec.sub (V c main_arg1) (V c main_arg0)) (V c main_v31)) (V c main_v32)) (((cfg0.win 5).blk t).view.emb (ix2 p q))
    refine (pay4_at _ _ _ _ p q).trans ?_
    refine Eq.trans ?_ (lrelu_at _ _).symm
    refine congrArg lr ?_
    unfold Cert.Spec.addRow1 Cert.Spec.mm Cert.Spec.sub
    have hr : ((((cfg0.win 5).blk t).view.emb (ix2 p q) 0 : Fin 50000) : ℕ) = t.val * 1000 + 1 * (p : ℕ) := by
      show win0_5.index t (0 : Fin 2) * 1000 + 1 * (p : ℕ) = _; omega
    have hq : (((cfg0.win 5).blk t).view.emb (ix2 p q) 1 : Fin 256) = q := by
      apply Fin.ext
      show win0_5.index t (1 : Fin 2) * 256 + 1 * (q : ℕ) = (q : ℕ); omega
    rw [hq, blk3_at]
    refine congrArg₂ (· + ·) (Finset.sum_congr rfl fun l _ => ?_) rfl
    rw [blk0_at V c t p l _ hr, blk1_at V c t p l _ hr, blk2_at]
  · have hi0 : (i 0).val < 50000 := (i 0).isLt
    have hi1 : (i 1).val < 256 := (i 1).isLt
    refine ⟨⟨(i 0).val / 1000, by show (i 0).val / 1000 < 50; omega⟩, flush0_5 _, ?_⟩
    rw [mem_blk5]
    obtain ⟨-, -, -, -, -, ⟨e50, e51⟩⟩ := idx_facts ⟨(i 0).val / 1000, by show (i 0).val / 1000 < 50; omega⟩
    intro a
    match a with
    | ⟨0, _⟩ => show win0_5.index _ (0 : Fin 2) * 1000 ≤ (i 0).val ∧ (i 0).val < win0_5.index _ (0 : Fin 2) * 1000 + 1000; rw [e50]; show (i 0).val / 1000 * 1000 ≤ (i 0).val ∧ (i 0).val < (i 0).val / 1000 * 1000 + 1000; omega
    | ⟨1, _⟩ => show win0_5.index _ (1 : Fin 2) * 256 ≤ (i 1).val ∧ (i 1).val < win0_5.index _ (1 : Fin 2) * 256 + 256; rw [e51]; omega

end Cert.KernelIdeal.Region0
end
-- ==== Proof.Region1.lean ====
/-
  The second pallas_call (h1 = x0 · Wg1): a grid of 50 points, point t holding rows 1000 t … 1000 t + 999 of x0 and
  all of Wg1, and storing the product of the two blocks. Entry (p, q) of the stored block is the sum over l of
  x0 (1000 t + p, l) · Wg1 (l, q) (the rounding of the operands to bf16 is the identity on the extended reals),
  which is entry (1000 t + p, q) of the whole product; the 50 blocks tile the array, so after the region the
  output array IS the whole product of the two arrays as the region found them.
-/
import proofs.«180160_j43533788512795_1_alg».proof.Proof.Gen.KernelIdeal.Frame
import proofs.«180160_j43533788512795_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

abbrev D := dot_S1000x256_S256x256_S1000x256_1_0_0_1_n_n

theorem lhs0 (j : S1000x256.Idx) (k : D.contr.Idx) : (D.lhsIdx j k 0 : ℕ) = (j 0 : ℕ) := by
  simp [DotDims.lhsIdx, D, dot_S1000x256_S256x256_S1000x256_1_0_0_1_n_n]; rfl
theorem lhs1 (j : S1000x256.Idx) (k : D.contr.Idx) : (D.lhsIdx j k 1 : ℕ) = (k ⟨0, by decide⟩ : ℕ) := by
  simp [DotDims.lhsIdx, D, dot_S1000x256_S256x256_S1000x256_1_0_0_1_n_n]; rfl
theorem rhs0 (j : S1000x256.Idx) (k : D.contr.Idx) : (D.rhsIdx j k 0 : ℕ) = (k ⟨0, by decide⟩ : ℕ) := by
  simp [DotDims.rhsIdx, D, dot_S1000x256_S256x256_S1000x256_1_0_0_1_n_n]; rfl
theorem rhs1 (j : S1000x256.Idx) (k : D.contr.Idx) : (D.rhsIdx j k 1 : ℕ) = (j 1 : ℕ) := by
  simp [DotDims.rhsIdx, D, dot_S1000x256_S256x256_S1000x256_1_0_0_1_n_n]; rfl

theorem mm_blk (x : FVec Ideal S1000x256 .bf16) (w : FVec Ideal S256x256 .bf16) (p : Fin 1000) (q : Fin 256) :
    matmul (F := Ideal) D none x w (constant S1000x256 .f32 0x00000000#32) (ix2 p q)
      = ∑ l : Fin 256, x (ix2 p l) * w (ix2 l q) := by
  refine (Ideal.matmul_constant_zero_apply D none x w (ix2 p q)).trans ?_
  rw [← Equiv.sum_comp (contrEquiv1 D 256 rfl rfl).symm]
  refine Finset.sum_congr rfl fun l _ => ?_
  have hl := contrEquiv1_symm_val D 256 rfl rfl l
  congr 1
  · congr 1; funext a; apply Fin.ext
    match a with
    | ⟨0, _⟩ => exact lhs0 _ _
    | ⟨1, _⟩ => exact (lhs1 _ _).trans hl
  · congr 1; funext a; apply Fin.ext
    match a with
    | ⟨0, _⟩ => exact (rhs0 _ _).trans hl
    | ⟨1, _⟩ => exact rhs1 _ _

/-- the body's stored value at an entry -/
theorem pay_at (x0 : Vec Ideal S1000x256 .f32) (x1 : Vec Ideal S256x256 .bf16) (p : Fin 1000) (q : Fin 256) :
    k1_pay1 x0 x1 (ix2 p q) = ∑ l : Fin 256, x0 (ix2 p l) * x1 (ix2 l q) := by
  unfold k1_pay1
  refine (mm_blk _ _ p q).trans ?_
  simp only [shapeCast_self]
  rfl

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

theorem mem_blk (t : Fin cfg1.N) (i : S50000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v35).slice (win1_2.rect t)).set ↔ _
  rw [View.set_slice_whole, Rect.mem_set_unit]
  exact Iff.rfl

theorem arr (c : Dev nD) : (dat1 (F := Ideal) V c).arrAt 2 cfg1.N = Cert.Spec.mm (V c main_v33_0) (V c main_v34) := by
  refine (dat1 (F := Ideal) V c).arrAt_eq_of_cover 2 _ (fun t _ => ?_) (fun i => ?_)
  · show (cfg1.win 2).cut (grid1.coords t) ((dat1 V c).after 2 t) = _
    rw [after1_2]
    unfold out1_2
    rw [View.canon_unit_zero hz]
    simp only [View.ld_unit_zero (S := S1000x256) hz, View.ld_unit_zero (S := S256x256) hz]
    obtain ⟨e0, e1, e2, e3, e4, e5⟩ := idx_facts t
    funext j
    obtain ⟨p, q, rfl⟩ : ∃ (p : Fin 1000) (q : Fin 256), j = ix2 p q := ⟨j 0, j 1, eq_ix2 j⟩
    show k1_pay1 (iblk1 V c 0 t) (iblk1 V c 1 t) (ix2 p q) = Cert.Spec.mm (V c main_v33_0) (V c main_v34) (((cfg1.win 2).blk t).view.emb (ix2 p q))
    refine (pay_at _ _ p q).trans ?_
    unfold Cert.Spec.mm
    refine Finset.sum_congr rfl fun l _ => ?_
    have h0 : iblk1 V c 0 t (ix2 p l) = V c main_v33_0 (ix2 (((cfg1.win 2).blk t).view.emb (ix2 p q) 0) l) := by
      show V c main_v33_0 (((cfg1.win 0).blk t).view.emb (ix2 p l)) = _
      congr 1; funext a; apply Fin.ext
      match a with
      | ⟨0, _⟩ => show win1_0.index t (0 : Fin 2) * 1000 + 1 * (p : ℕ) = win1_2.index t (0 : Fin 2) * 1000 + 1 * (p : ℕ); omega
      | ⟨1, _⟩ => show win1_0.index t (1 : Fin 2) * 256 + 1 * (l : ℕ) = (l : ℕ); omega
    have h1 : iblk1 V c 1 t (ix2 l q) = V c main_v34 (ix2 l (((cfg1.win 2).blk t).view.emb (ix2 p q) 1)) := by
      show V c main_v34 (((cfg1.win 1).blk t).view.emb (ix2 l q)) = _
      congr 1; funext a; apply Fin.ext
      match a with
      | ⟨0, _⟩ => show win1_1.index t (0 : Fin 2) * 256 + 1 * (l : ℕ) = (l : ℕ); omega
      | ⟨1, _⟩ => show win1_1.index t (1 : Fin 2) * 256 + 1 * (q : ℕ) = win1_2.index t (1 : Fin 2) * 256 + 1 * (q : ℕ); omega
    rw [h0, h1]
  · have hi0 : (i 0).val < 50000 := (i 0).isLt
    have hi1 : (i 1).val < 256 := (i 1).isLt
    refine ⟨⟨(i 0).val / 1000, by show (i 0).val / 1000 < 50; omega⟩, flush1_2 _, ?_⟩
    rw [mem_blk]
    obtain ⟨e0, e1, e2, e3, e4, e5⟩ := idx_facts ⟨(i 0).val / 1000, by show (i 0).val / 1000 < 50; omega⟩
    intro a
    match a with
    | ⟨0, _⟩ => show win1_2.index _ (0 : Fin 2) * 1000 ≤ (i 0).val ∧ (i 0).val < win1_2.index _ (0 : Fin 2) * 1000 + 1000; rw [e5]; show (i 0).val / 1000 * 1000 ≤ (i 0).val ∧ (i 0).val < (i 0).val / 1000 * 1000 + 1000; omega
    | ⟨1, _⟩ => show win1_2.index _ (1 : Fin 2) * 256 ≤ (i 1).val ∧ (i 1).val < win1_2.index _ (1 : Fin 2) * 256 + 256; rw [e4]; omega

end Cert.KernelIdeal.Region1
end
-- ==== Proof.Region2.lean ====
/-
  The third pallas_call (h2 = (raw1 + bg1) · Wg2): a grid of 50 points, point t holding rows 1000 t … 1000 t + 999 of
  raw1, the whole one-row bias bg1 and all of Wg2, and storing the product of (the block with the bias added to every
  row) with Wg2. Entry (p, q) of the stored block is the sum over l of (raw1 (1000 t + p, l) + bg1 (0, l)) · Wg2 (l, q)
  (the rounding of the operands to bf16 is the identity on the extended reals), which is entry (1000 t + p, q) of the
  whole product; the 50 blocks tile the array, so after the region the output array IS the product of the biased array
  with the weights, all three as the region found them.
-/
import proofs.«180160_j43533788512795_1_alg».proof.Proof.Gen.KernelIdeal.Frame
import proofs.«180160_j43533788512795_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

abbrev D := dot_S1000x256_S256x256_S1000x256_1_0_0_1_n_n

theorem lhs0 (j : S1000x256.Idx) (k : D.contr.Idx) : (D.lhsIdx j k 0 : ℕ) = (j 0 : ℕ) := by
  simp [DotDims.lhsIdx, D, dot_S1000x256_S256x256_S1000x256_1_0_0_1_n_n]; rfl
theorem lhs1 (j : S1000x256.Idx) (k : D.contr.Idx) : (D.lhsIdx j k 1 : ℕ) = (k ⟨0, by decide⟩ : ℕ) := by
  simp [DotDims.lhsIdx, D, dot_S1000x256_S256x256_S1000x256_1_0_0_1_n_n]; rfl
theorem rhs0 (j : S1000x256.Idx) (k : D.contr.Idx) : (D.rhsIdx j k 0 : ℕ) = (k ⟨0, by decide⟩ : ℕ) := by
  simp [DotDims.rhsIdx, D, dot_S1000x256_S256x256_S1000x256_1_0_0_1_n_n]; rfl
theorem rhs1 (j : S1000x256.Idx) (k : D.contr.Idx) : (D.rhsIdx j k 1 : ℕ) = (j 1 : ℕ) := by
  simp [DotDims.rhsIdx, D, dot_S1000x256_S256x256_S1000x256_1_0_0_1_n_n]; rfl

/-- the product into a zero accumulator, at an entry: the sum over the contracted axis -/
theorem mm_blk (x : FVec Ideal S1000x256 .bf16) (w : FVec Ideal S256x256 .bf16) (p : Fin 1000) (q : Fin 256) :
    matmul (F := Ideal) D none x w (constant S1000x256 .f32 0x00000000#32) (ix2 p q)
      = ∑ l : Fin 256, x (ix2 p l) * w (ix2 l q) := by
  refine (Ideal.matmul_constant_zero_apply D none x w (ix2 p q)).trans ?_
  rw [← Equiv.sum_comp (contrEquiv1 D 256 rfl rfl).symm]
  refine Finset.sum_congr rfl fun l _ => ?_
  have hl := contrEquiv1_symm_val D 256 rfl rfl l
  congr 1
  · congr 1; funext a; apply Fin.ext
    match a with
    | ⟨0, _⟩ => exact lhs0 _ _
    | ⟨1, _⟩ => exact (lhs1 _ _).trans hl
  · congr 1; funext a; apply Fin.ext
    match a with
    | ⟨0, _⟩ => exact (rhs0 _ _).trans hl
    | ⟨1, _⟩ => exact rhs1 _ _

/-- a one-row array spread over 1000 rows holds, at (p, q), the row's entry q -/
theorem bc_at (b : FVec Ideal S1x256 .f32) (p : Fin 1000) (q : Fin 256) :
    broadcastTo S1000x256 b broadcasts_S1x256_S1000x256 (ix2 p q) = b (ix2 (0 : Fin 1) q) := by
  refine broadcastTo_apply b broadcasts_S1x256_S1000x256 (ix2 p q) (ix2 (0 : Fin 1) q) fun a => ?_
  match a with
  | ⟨0, _⟩ => rfl
  | ⟨1, _⟩ => rfl

/-- the body's stored value at an entry -/
theorem pay_at (x0 : Vec Ideal S1000x256 .f32) (x1 : Vec Ideal S1x256 .f32) (x2 : Vec Ideal S256x256 .bf16) (p : Fin 1000) (q : Fin 256) :
    k2_pay1 x0 x1 x2 (ix2 p q) = ∑ l : Fin 256, (x0 (ix2 p l) + x1 (ix2 (0 : Fin 1) l)) * x2 (ix2 l q) := by
  unfold k2_pay1
  refine (mm_blk _ _ p q).trans ?_
  simp only [shapeCast_self]
  refine Finset.sum_congr rfl fun l _ => ?_
  congr 1
  exact congrArg (fun z => x0 (ix2 p l) + z) (bc_at x1 p l)

variable (V : (c : Dev nD) → (b : Ref sig .tc) → Buf (Elt Ideal) ((c : Thread nD τ).loc b))

theorem hz : (![0, 0] : Fin 2 → Nat) = fun _ => 0 := funext fun a => by fin_cases a <;> rfl

/-- the windows' block indices over the grid: the row block of the input and of the output is the point, every other
    block index is 0 -/
theorem idx_facts : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) = t.val :=
  (by decide +kernel : ∀ t : Fin grid2.N, _)

theorem mem_blk (t : Fin cfg2.N) (i : S50000x256.Idx) :
    i ∈ ((cfg2.win 3).blk t).view.set ↔ ∀ a : Fin 2, win2_3.index t a * S1000x256.size a ≤ (i a).val ∧ (i a).val < win2_3.index t a * S1000x256.size a + S1000x256.size a := by
  show i ∈ ((View.whole main_v51).slice (win2_3.rect t)).set ↔ _
  rw [View.set_slice_whole, Rect.mem_set_unit]
  exact Iff.rfl

/-- the input block's entry (p, l) is the array's entry on the output block's row p, column l -/
theorem rd0 (c : Dev nD) (t : Fin cfg2.N) (p : Fin 1000) (q l : Fin 256) :
    iblk2 V c 0 t (ix2 p l) = V c main_v48 (ix2 (((cfg2.win 3).blk t).view.emb (ix2 p q) 0) l) := by
  obtain ⟨e0, e1, e2, e3, e4, e5, e6, e7⟩ := idx_facts t
  show V c main_v48 (((cfg2.win 0).blk t).view.emb (ix2 p l)) = _
  congr 1; funext a; apply Fin.ext
  match a with
  | ⟨0, _⟩ => show win2_0.index t (0 : Fin 2) * 1000 + 1 * (p : ℕ) = win2_3.index t (0 : Fin 2) * 1000 + 1 * (p : ℕ); omega
  | ⟨1, _⟩ => show win2_0.index t (1 : Fin 2) * 256 + 1 * (l : ℕ) = (l : ℕ); omega

/-- the bias block is the whole one-row array -/
theorem rdb (c : Dev nD) (t : Fin cfg2.N) (l : Fin 256) :
    iblk2 V c 1 t (ix2 (0 : Fin 1) l) = V c main_v49 (ix2 (0 : Fin 1) l) := by
  obtain ⟨e0, e1, e2, e3, e4, e5, e6, e7⟩ := idx_facts t
  show V c main_v49 (((cfg2.win 1).blk t).view.emb (ix2 (0 : Fin 1) l)) = _
  congr 1; funext a; apply Fin.ext
  match a with
  | ⟨0, _⟩ => show win2_1.index t (0 : Fin 2) * 1 + 1 * 0 = 0; omega
  | ⟨1, _⟩ => show win2_1.index t (1 : Fin 2) * 256 + 1 * (l : ℕ) = (l : ℕ); omega

/-- the weight block is the whole weight array: its entry (l, q) is the array's entry (l, the output block's column q) -/
theorem rd2 (c : Dev nD) (t : Fin cfg2.N) (p : Fin 1000) (q l : Fin 256) :
    iblk2 V c 2 t (ix2 l q) = V c main_v50 (ix2 l (((cfg2.win 3).blk t).view.emb (ix2 p q) 1)) := by
  obtain ⟨e0, e1, e2, e3, e4, e5, e6, e7⟩ := idx_facts t
  show V c main_v50 (((cfg2.win 2).blk t).view.emb (ix2 l q)) = _
  congr 1; funext a; apply Fin.ext
  match a with
  | ⟨0, _⟩ => show win2_2.index t (0 : Fin 2) * 256 + 1 * (l : ℕ) = (l : ℕ); omega
  | ⟨1, _⟩ => show win2_2.index t (1 : Fin 2) * 256 + 1 * (q : ℕ) = win2_3.index t (1 : Fin 2) * 256 + 1 * (q : ℕ); omega

/-- the stored block at an entry is the whole product at the entry under it -/
theorem blk_at (c : Dev nD) (t : Fin cfg2.N) (p : Fin 1000) (q : Fin 256) :
    k2_pay1 (iblk2 V c 0 t) (iblk2 V c 1 t) (iblk2 V c 2 t) (ix2 p q)
      = Cert.Spec.mm (Cert.Spec.addRow1 (V c main_v48) (V c main_v49)) (V c main_v50) (((cfg2.win 3).blk t).view.emb (ix2 p q)) := by
  refine (pay_at _ _ _ p q).trans ?_
  unfold Cert.Spec.mm Cert.Spec.addRow1
  refine Finset.sum_congr rfl fun l _ => ?_
  rw [rd0 V c t p q l, rdb V c t l, rd2 V c t p q l]

/-- every entry of the output array lies in the block of the point its row names -/
theorem cover (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  refine ⟨⟨(i 0).val / 1000, by show (i 0).val / 1000 < 50; omega⟩, flush2_3 _, ?_⟩
  rw [mem_blk]
  obtain ⟨e0, e1, e2, e3, e4, e5, e6, e7⟩ := idx_facts ⟨(i 0).val / 1000, by show (i 0).val / 1000 < 50; omega⟩
  intro a
  match a with
  | ⟨0, _⟩ => show win2_3.index _ (0 : Fin 2) * 1000 ≤ (i 0).val ∧ (i 0).val < win2_3.index _ (0 : Fin 2) * 1000 + 1000; rw [e7]; show (i 0).val / 1000 * 1000 ≤ (i 0).val ∧ (i 0).val < (i 0).val / 1000 * 1000 + 1000; omega
  | ⟨1, _⟩ => show win2_3.index _ (1 : Fin 2) * 256 ≤ (i 1).val ∧ (i 1).val < win2_3.index _ (1 : Fin 2) * 256 + 256; rw [e6]; omega

theorem arr (c : Dev nD) : (dat2 (F := Ideal) V c).arrAt 3 cfg2.N = Cert.Spec.mm (Cert.Spec.addRow1 (V c main_v48) (V c main_v49)) (V c main_v50) := by
  refine (dat2 (F := Ideal) V c).arrAt_eq_of_cover 3 _ (fun t _ => ?_) (fun i => cover i)
  show (cfg2.win 3).cut (grid2.coords t) ((dat2 V c).after 3 t) = _
  rw [after2_3]
  unfold out2_3
  rw [View.canon_unit_zero hz]
  simp only [View.ld_unit_zero (S := S1000x256) hz, View.ld_unit_zero (S := S1x256) hz, View.ld_unit_zero (S := S256x256) hz]
  funext j
  obtain ⟨p, q, rfl⟩ : ∃ (p : Fin 1000) (q : Fin 256), j = ix2 p q := ⟨j 0, j 1, eq_ix2 j⟩
  exact blk_at V c t p q

end Cert.KernelIdeal.Region2
end
-- ==== Proof.Region3.lean ====
/-
  The fourth pallas_call (out = ((raw2 + bg2) · W_out + b_out) ∗ (m0 · W_out + b_out)): a grid of 50 points, point t holding
  rows 1000 t … 1000 t + 999 of raw2 and of m0, the whole one-row bias bg2, all of W_out and the whole one-row bias
  b_out, and storing the entrywise product of the two biased products. Entry (p, q) of the stored block is
    (∑ l, (raw2 (1000 t + p, l) + bg2 (0, l)) · W_out (l, q) + b_out (0, q)) · (∑ l, m0 (1000 t + p, l) · W_out (l, q) + b_out (0, q))
  (the rounding of the operands to bf16 is the identity on the extended reals), which is entry (1000 t + p, q) of the
  whole expression; the 50 blocks tile the array, so after the region the output array IS that expression of the five
  arrays as the region found them.
-/
import proofs.«180160_j43533788512795_1_alg».proof.Proof.Gen.KernelIdeal.Frame
import proofs.«180160_j43533788512795_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

abbrev D := dot_S1000x256_S256x2_S1000x2_1_0_0_1_n_n

theorem lhs0 (j : S1000x2.Idx) (k : D.contr.Idx) : (D.lhsIdx j k 0 : ℕ) = (j 0 : ℕ) := by
  simp [DotDims.lhsIdx, D, dot_S1000x256_S256x2_S1000x2_1_0_0_1_n_n]; rfl
theorem lhs1 (j : S1000x2.Idx) (k : D.contr.Idx) : (D.lhsIdx j k 1 : ℕ) = (k ⟨0, by decide⟩ : ℕ) := by
  simp [DotDims.lhsIdx, D, dot_S1000x256_S256x2_S1000x2_1_0_0_1_n_n]; rfl
theorem rhs0 (j : S1000x2.Idx) (k : D.contr.Idx) : (D.rhsIdx j k 0 : ℕ) = (k ⟨0, by decide⟩ : ℕ) := by
  simp [DotDims.rhsIdx, D, dot_S1000x256_S256x2_S1000x2_1_0_0_1_n_n]; rfl
theorem rhs1 (j : S1000x2.Idx) (k : D.contr.Idx) : (D.rhsIdx j k 1 : ℕ) = (j 1 : ℕ) := by
  simp [DotDims.rhsIdx, D, dot_S1000x256_S256x2_S1000x2_1_0_0_1_n_n]; rfl

/-- the product into a zero accumulator, at an entry: the sum over the contracted axis -/
theorem mm_blk (x : FVec Ideal S1000x256 .bf16) (w : FVec Ideal S256x2 .bf16) (p : Fin 1000) (q : Fin 2) :
    matmul (F := Ideal) D none x w (constant S1000x2 .f32 0x00000000#32) (ix2 p q)
      = ∑ l : Fin 256, x (ix2 p l) * w (ix2 l q) := by
  refine (Ideal.matmul_constant_zero_apply D none x w (ix2 p q)).trans ?_
  rw [← Equiv.sum_comp (contrEquiv1 D 256 rfl rfl).symm]
  refine Finset.sum_congr rfl fun l _ => ?_
  have hl := contrEquiv1_symm_val D 256 rfl rfl l
  congr 1
  · congr 1; funext a; apply Fin.ext
    match a with
    | ⟨0, _⟩ => exact lhs0 _ _
    | ⟨1, _⟩ => exact (lhs1 _ _).trans hl
  · congr 1; funext a; apply Fin.ext
    match a with
    | ⟨0, _⟩ => exact (rhs0 _ _).trans hl
    | ⟨1, _⟩ => exact rhs1 _ _

/-- a one-row array of 256 entries spread over 1000 rows holds, at (p, l), the row's entry l -/
theorem bc_at (b : FVec Ideal S1x256 .f32) (p : Fin 1000) (l : Fin 256) :
    broadcastTo S1000x256 b broadcasts_S1x256_S1000x256 (ix2 p l) = b (ix2 (0 : Fin 1) l) := by
  refine broadcastTo_apply b broadcasts_S1x256_S1000x256 (ix2 p l) (ix2 (0 : Fin 1) l) fun a => ?_
  match a with
  | ⟨0, _⟩ => rfl
  | ⟨1, _⟩ => rfl

/-- a one-row array of 2 entries spread over 1000 rows holds, at (p, q), the row's entry q -/
theorem bc2_at (b : FVec Ideal S1x2 .f32) (p : Fin 1000) (q : Fin 2) :
    broadcastTo S1000x2 b broadcasts_S1x2_S1000x2 (ix2 p q) = b (ix2 (0 : Fin 1) q) := by
  refine broadcastTo_apply b broadcasts_S1x2_S1000x2 (ix2 p q) (ix2 (0 : Fin 1) q) fun a => ?_
  match a with
  | ⟨0, _⟩ => rfl
  | ⟨1, _⟩ => rfl

/-- the first factor's product at an entry: the biased block times the weights -/
theorem left_at (x0 : FVec Ideal S1000x256 .f32) (x1 : FVec Ideal S1x256 .f32) (x3 : FVec Ideal S256x2 .bf16) (p : Fin 1000) (q : Fin 2) :
    matmul (F := Ideal) D none (truncf .bf16 (addf x0 (broadcastTo S1000x256 x1 broadcasts_S1x256_S1000x256)) bitsLt_bf16_f32) x3
        (constant S1000x2 .f32 0x00000000#32) (ix2 p q)
      = ∑ l : Fin 256, (x0 (ix2 p l) + x1 (ix2 (0 : Fin 1) l)) * x3 (ix2 l q) := by
  refine (mm_blk _ _ p q).trans (Finset.sum_congr rfl fun l _ => ?_)
  congr 1
  exact congrArg (fun z => x0 (ix2 p l) + z) (bc_at x1 p l)

/-- the second factor's product at an entry: the block times the weights -/
theorem right_at (x2 : FVec Ideal S1000x256 .f32) (x3 : FVec Ideal S256x2 .bf16) (p : Fin 1000) (q : Fin 2) :
    matmul (F := Ideal) D none (truncf .bf16 x2 bitsLt_bf16_f32) x3 (constant S1000x2 .f32 0x00000000#32) (ix2 p q)
      = ∑ l : Fin 256, x2 (ix2 p l) * x3 (ix2 l q) :=
  mm_blk _ _ p q

/-- the body's stored value at an entry -/
theorem pay_at (x0 : Vec Ideal S1000x256 .f32) (x1 : Vec Ideal S1x256 .f32) (x2 : Vec Ideal S1000x256 .f32) (x3 : Vec Ideal S256x2 .bf16)
    (x4 : Vec Ideal S1x2 .f32) (p : Fin 1000) (q : Fin 2) :
    k3_pay1 x0 x1 x2 x3 x4 (ix2 p q)
      = (∑ l : Fin 256, (x0 (ix2 p l) + x1 (ix2 (0 : Fin 1) l)) * x3 (ix2 l q) + x4 (ix2 (0 : Fin 1) q))
        * (∑ l : Fin 256, x2 (ix2 p l) * x3 (ix2 l q) + x4 (ix2 (0 : Fin 1) q)) := by
  have e1 := left_at x0 x1 x3 p q
  have e2 := right_at x2 x3 p q
  have e3 := bc2_at x4 p q
  unfold k3_pay1
  simp only [shapeCast_self]
  exact congrArg₂ (· * ·) (congrArg₂ (· + ·) e1 e3) (congrArg₂ (· + ·) e2 e3)

/-- the stored value at an entry, when the five blocks read the five arrays at the entry's row and column: the whole
    expression at that entry -/
theorem pay_eq (x0 : Vec Ideal S1000x256 .f32) (x1 : Vec Ideal S1x256 .f32) (x2 : Vec Ideal S1000x256 .f32) (x3 : Vec Ideal S256x2 .bf16)
    (x4 : Vec Ideal S1x2 .f32) (A0 : Cert.Spec.Mat 50000 256) (B1 : Cert.Spec.Mat 1 256) (A2 : Cert.Spec.Mat 50000 256)
    (W : Cert.Spec.Mat 256 2) (B4 : Cert.Spec.Mat 1 2) (p : Fin 1000) (q : Fin 2) (i : S50000x2.Idx)
    (h0 : ∀ l : Fin 256, x0 (ix2 p l) = A0 (ix2 (i 0) l)) (h1 : ∀ l : Fin 256, x1 (ix2 (0 : Fin 1) l) = B1 (ix2 (0 : Fin 1) l))
    (h2 : ∀ l : Fin 256, x2 (ix2 p l) = A2 (ix2 (i 0) l)) (h3 : ∀ l : Fin 256, x3 (ix2 l q) = W (ix2 l (i 1)))
    (h4 : x4 (ix2 (0 : Fin 1) q) = B4 (ix2 (0 : Fin 1) (i 1))) :
    k3_pay1 x0 x1 x2 x3 x4 (ix2 p q)
      = Cert.Spec.mul (Cert.Spec.addRow1 (Cert.Spec.mm (Cert.Spec.addRow1 A0 B1) W) B4) (Cert.Spec.addRow1 (Cert.Spec.mm A2 W) B4) i := by
  refine (pay_at x0 x1 x2 x3 x4 p q).trans ?_
  have s1 : ∑ l : Fin 256, (x0 (ix2 p l) + x1 (ix2 (0 : Fin 1) l)) * x3 (ix2 l q)
      = ∑ l : Fin 256, (A0 (ix2 (i 0) l) + B1 (ix2 (0 : Fin 1) l)) * W (ix2 l (i 1)) :=
    Finset.sum_congr rfl fun l _ => by rw [h0 l, h1 l, h3 l]
  have s2 : ∑ l : Fin 256, x2 (ix2 p l) * x3 (ix2 l q) = ∑ l : Fin 256, A2 (ix2 (i 0) l) * W (ix2 l (i 1)) :=
    Finset.sum_congr rfl fun l _ => by rw [h2 l, h3 l]
  rw [s1, s2, h4]
  rfl

variable (V : (c : Dev nD) → (b : Ref sig .tc) → Buf (Elt Ideal) ((c : Thread nD τ).loc b))

theorem hz : (![0, 0] : Fin 2 → Nat) = fun _ => 0 := funext fun a => by fin_cases a <;> rfl

/-- the windows' block indices over the grid: the row block of the two big inputs and of the output is the point, every
    other block index is 0 -/
theorem idx_facts : ∀ t : Fin cfg3.N, win3_0.index t (0 : Fin 2) = win3_5.index t (0 : Fin 2)
    ∧ win3_0.index t (1 : Fin 2) = 0 ∧ win3_1.index t (0 : Fin 2) = 0 ∧ win3_1.index t (1 : Fin 2) = 0
    ∧ win3_2.index t (0 : Fin 2) = win3_5.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) = t.val :=
  (by decide +kernel : ∀ t : Fin grid3.N, _)

theorem mem_blk (t : Fin cfg3.N) (i : S50000x2.Idx) :
    i ∈ ((cfg3.win 5).blk t).view.set ↔ ∀ a : Fin 2, win3_5.index t a * S1000x2.size a ≤ (i a).val ∧ (i a).val < win3_5.index t a * S1000x2.size a + S1000x2.size a := by
  show i ∈ ((View.whole main_v68).slice (win3_5.rect t)).set ↔ _
  rw [View.set_slice_whole, Rect.mem_set_unit]
  exact Iff.rfl

/-- the first input block's entry (p, l) is the array's entry on the output block's row p, column l -/
theorem rd0 (c : Dev nD) (t : Fin cfg3.N) (p : Fin 1000) (q : Fin 2) (l : Fin 256) :
    iblk3 V c 0 t (ix2 p l) = V c main_v64 (ix2 (((cfg3.win 5).blk t).view.emb (ix2 p q) 0) l) := by
  obtain ⟨e0, e1, e2, e3, e4, e5, e6, e7, e8, e9, e10, e11⟩ := idx_facts t
  show V c main_v64 (((cfg3.win 0).blk t).view.emb (ix2 p l)) = _
  congr 1; funext a; apply Fin.ext
  match a with
  | ⟨0, _⟩ => show win3_0.index t (0 : Fin 2) * 1000 + 1 * (p : ℕ) = win3_5.index t (0 : Fin 2) * 1000 + 1 * (p : ℕ); omega
  | ⟨1, _⟩ => show win3_0.index t (1 : Fin 2) * 256 + 1 * (l : ℕ) = (l : ℕ); omega

/-- the first bias block is the whole one-row array -/
theorem rd1 (c : Dev nD) (t : Fin cfg3.N) (l : Fin 256) :
    iblk3 V c 1 t (ix2 (0 : Fin 1) l) = V c main_v65 (ix2 (0 : Fin 1) l) := by
  obtain ⟨e0, e1, e2, e3, e4, e5, e6, e7, e8, e9, e10, e11⟩ := idx_facts t
  show V c main_v65 (((cfg3.win 1).blk t).view.emb (ix2 (0 : Fin 1) l)) = _
  congr 1; funext a; apply Fin.ext
  match a with
  | ⟨0, _⟩ => show win3_1.index t (0 : Fin 2) * 1 + 1 * 0 = 0; omega
  | ⟨1, _⟩ => show win3_1.index t (1 : Fin 2) * 256 + 1 * (l : ℕ) = (l : ℕ); omega

/-- the second input block's entry (p, l) is the array's entry on the output block's row p, column l -/
theorem rd2 (c : Dev nD) (t : Fin cfg3.N) (p : Fin 1000) (q : Fin 2) (l : Fin 256) :
    iblk3 V c 2 t (ix2 p l) = V c main_v33_1 (ix2 (((cfg3.win 5).blk t).view.emb (ix2 p q) 0) l) := by
  obtain ⟨e0, e1, e2, e3, e4, e5, e6, e7, e8, e9, e10, e11⟩ := idx_facts t
  show V c main_v33_1 (((cfg3.win 2).blk t).view.emb (ix2 p l)) = _
  congr 1; funext a; apply Fin.ext
  match a with
  | ⟨0, _⟩ => show win3_2.index t (0 : Fin 2) * 1000 + 1 * (p : ℕ) = win3_5.index t (0 : Fin 2) * 1000 + 1 * (p : ℕ); omega
  | ⟨1, _⟩ => show win3_2.index t (1 : Fin 2) * 256 + 1 * (l : ℕ) = (l : ℕ); omega

/-- the weight block is the whole weight array: its entry (l, q) is the array's entry (l, the output block's column q) -/
theorem rd3 (c : Dev nD) (t : Fin cfg3.N) (p : Fin 1000) (q : Fin 2) (l : Fin 256) :
    iblk3 V c 3 t (ix2 l q) = V c main_v66 (ix2 l (((cfg3.win 5).blk t).view.emb (ix2 p q) 1)) := by
  obtain ⟨e0, e1, e2, e3, e4, e5, e6, e7, e8, e9, e10, e11⟩ := idx_facts t
  show V c main_v66 (((cfg3.win 3).blk t).view.emb (ix2 l q)) = _
  congr 1; funext a; apply Fin.ext
  match a with
  | ⟨0, _⟩ => show win3_3.index t (0 : Fin 2) * 256 + 1 * (l : ℕ) = (l : ℕ); omega
  | ⟨1, _⟩ => show win3_3.index t (1 : Fin 2) * 2 + 1 * (q : ℕ) = win3_5.index t (1 : Fin 2) * 2 + 1 * (q : ℕ); omega

/-- the second bias block is the whole one-row array: its entry (0, q) is the array's entry (0, the output block's column q) -/
theorem rd4 (c : Dev nD) (t : Fin cfg3.N) (p : Fin 1000) (q : Fin 2) :
    iblk3 V c 4 t (ix2 (0 : Fin 1) q) = V c main_v67 (ix2 (0 : Fin 1) (((cfg3.win 5).blk t).view.emb (ix2 p q) 1)) := by
  obtain ⟨e0, e1, e2, e3, e4, e5, e6, e7, e8, e9, e10, e11⟩ := idx_facts t
  show V c main_v67 (((cfg3.win 4).blk t).view.emb (ix2 (0 : Fin 1) q)) = _
  congr 1; funext a; apply Fin.ext
  match a with
  | ⟨0, _⟩ => show win3_4.index t (0 : Fin 2) * 1 + 1 * 0 = 0; omega
  | ⟨1, _⟩ => show win3_4.index t (1 : Fin 2) * 2 + 1 * (q : ℕ) = win3_5.index t (1 : Fin 2) * 2 + 1 * (q : ℕ); omega

/-- the stored block at an entry is the whole expression at the entry under it -/
theorem blk_at (c : Dev nD) (t : Fin cfg3.N) (p : Fin 1000) (q : Fin 2) :
    k3_pay1 (iblk3 V c 0 t) (iblk3 V c 1 t) (iblk3 V c 2 t) (iblk3 V c 3 t) (iblk3 V c 4 t) (ix2 p q)
      = Cert.Spec.mul (Cert.Spec.addRow1 (Cert.Spec.mm (Cert.Spec.addRow1 (V c main_v64) (V c main_v65)) (V c main_v66)) (V c main_v67))
          (Cert.Spec.addRow1 (Cert.Spec.mm (V c main_v33_1) (V c main_v66)) (V c main_v67)) (((cfg3.win 5).blk t).view.emb (ix2 p q)) := by
  exact pay_eq (iblk3 V c 0 t) (iblk3 V c 1 t) (iblk3 V c 2 t) (iblk3 V c 3 t) (iblk3 V c 4 t)
    (V c main_v64) (V c main_v65) (V c main_v33_1) (V c main_v66) (V c main_v67) p q (((cfg3.win 5).blk t).view.emb (ix2 p q))
    (fun l => rd0 V c t p q l) (fun l => rd1 V c t l) (fun l => rd2 V c t p q l) (fun l => rd3 V c t p q l) (rd4 V c t p q)

/-- every entry of the output array lies in the block of the point its row names -/
theorem cover (i : S50000x2.Idx) : ∃ t : Fin cfg3.N, (cfg3.win 5).flush t = true ∧ i ∈ ((cfg3.win 5).blk t).view.set := by
  have hi0 : (i 0).val < 50000 := (i 0).isLt
  have hi1 : (i 1).val < 2 := (i 1).isLt
  refine ⟨⟨(i 0).val / 1000, by show (i 0).val / 1000 < 50; omega⟩, flush3_5 _, ?_⟩
  rw [mem_blk]
  obtain ⟨e0, e1, e2, e3, e4, e5, e6, e7, e8, e9, e10, e11⟩ := idx_facts ⟨(i 0).val / 1000, by show (i 0).val / 1000 < 50; omega⟩
  intro a
  match a with
  | ⟨0, _⟩ => show win3_5.index _ (0 : Fin 2) * 1000 ≤ (i 0).val ∧ (i 0).val < win3_5.index _ (0 : Fin 2) * 1000 + 1000; rw [e11]; show (i 0).val / 1000 * 1000 ≤ (i 0).val ∧ (i 0).val < (i 0).val / 1000 * 1000 + 1000; omega
  | ⟨1, _⟩ => show win3_5.index _ (1 : Fin 2) * 2 ≤ (i 1).val ∧ (i 1).val < win3_5.index _ (1 : Fin 2) * 2 + 2; rw [e10]; omega

theorem arr (c : Dev nD) : (dat3 (F := Ideal) V c).arrAt 5 cfg3.N = Cert.Spec.mul (Cert.Spec.addRow1 (Cert.Spec.mm (Cert.Spec.addRow1 (V c main_v64) (V c main_v65)) (V c main_v66)) (V c main_v67)) (Cert.Spec.addRow1 (Cert.Spec.mm (V c main_v33_1) (V c main_v66)) (V c main_v67)) := by
  refine (dat3 (F := Ideal) V c).arrAt_eq_of_cover 5 _ (fun t _ => ?_) (fun i => cover i)
  show (cfg3.win 5).cut (grid3.coords t) ((dat3 V c).after 5 t) = _
  rw [after3_5]
  unfold out3_5
  rw [View.canon_unit_zero hz]
  simp only [View.ld_unit_zero (S := S1000x256) hz, View.ld_unit_zero (S := S1x256) hz, View.ld_unit_zero (S := S256x2) hz, View.ld_unit_zero (S := S1x2) hz]
  funext j
  obtain ⟨p, q, rfl⟩ : ∃ (p : Fin 1000) (q : Fin 2), j = ix2 p q := ⟨j 0, j 1, eq_ix2 j⟩
  exact blk_at V c t p q

end Cert.KernelIdeal.Region3
end
-- ==== Proof.KValue.lean ====
/-
  The kernel program's result as the specification's function of the launched arguments. The last region's output
  array is read through the four regions backwards: each region's output is the specification's expression of the
  arrays the region was entered with, and those are, by the host stretches, the launched weights (rounded to
  bf16: the identity on the extended reals), the launched biases as one-row matrices (adding such a row to every
  row of a matrix is adding the bias vector), the graph aggregation of the previous region's output, or an
  earlier region's output that nothing in between writes.
-/
import proofs.«180160_j43533788512795_1_alg».proof.Proof.KHost
import proofs.«180160_j43533788512795_1_alg».proof.Proof.Region0
import proofs.«180160_j43533788512795_1_alg».proof.Proof.Region1
import proofs.«180160_j43533788512795_1_alg».proof.Proof.Region2
import proofs.«180160_j43533788512795_1_alg».proof.Proof.Region3
import Idealize.ShloMosaic.Lib.Pipeline.Value
import Idealize.ShloMosaic.Lib.ValueIdx

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.KHost

/-- Rounding to bf16 is the identity on the extended reals. -/
theorem truncf_id {s : Shape} (x : FVec Ideal s .f32) (h : FTy.bf16.bits < FTy.f32.bits) :
    @Eq (s.Idx → EReal) (truncf .bf16 x h) x := rfl

/-- Adding a bias given as a one-row matrix (the bias vector reshaped) is adding the bias vector. -/
theorem addRow1_cast {n p : Nat} (x : Cert.Spec.Mat n p) (b : Cert.Spec.Row p)
    (h : (⟨1, ![p]⟩ : Shape).ShapeCasts ⟨2, ![1, p]⟩) :
    Cert.Spec.addRow1 x (shapeCast ⟨2, ![1, p]⟩ b h) = Cert.Spec.addRow x b := by
  funext i
  unfold Cert.Spec.addRow1 Cert.Spec.addRow
  congr 1
  refine (shapeCast_addUnit_apply ![p] b h _).trans ?_
  congr 1
  funext a
  match a with
  | ⟨0, _⟩ => rfl

variable (m : (ℓ : Loc nD τ sig) → Buf (Elt Ideal) ℓ) (ρ : Dev nD → PrngReg) (c : Dev nD)

/-- the launched arguments, at their literal types -/
abbrev aMf : Cert.Spec.Mat 50000 128 := m ((c : Thread nD τ).loc main_arg0)
abbrev aFeat : Cert.Spec.Mat 50000 128 := m ((c : Thread nD τ).loc main_arg1)
abbrev aWin : Cert.Spec.Mat 128 256 := m ((c : Thread nD τ).loc main_arg4)
abbrev aBin : Cert.Spec.Row 256 := m ((c : Thread nD τ).loc main_arg5)
abbrev aWg1 : Cert.Spec.Mat 256 256 := m ((c : Thread nD τ).loc main_arg6)
abbrev aBg1 : Cert.Spec.Row 256 := m ((c : Thread nD τ).loc main_arg7)
abbrev aWg2 : Cert.Spec.Mat 256 256 := m ((c : Thread nD τ).loc main_arg8)
abbrev aBg2 : Cert.Spec.Row 256 := m ((c : Thread nD τ).loc main_arg9)
abbrev aWout : Cert.Spec.Mat 256 2 := m ((c : Thread nD τ).loc main_arg10)
abbrev aBout : Cert.Spec.Row 2 := m ((c : Thread nD τ).loc main_arg11)

/-- the first region's first output: the main branch's first layer -/
theorem x0_eq : (dat0 (V3 m ρ) c).arrAt 4 cfg0.N = Cert.Spec.layerIn (aMf m c) (aWin m c) (aBin m c) := by
  rw [Region0.arr4 (V3 m ρ) c,
    show V3 m ρ c main_arg0 = aMf m c from w3_arg m ρ c main_arg0 (by decide),
    show V3 m ρ c main_v31 = _ from w3_v31 m ρ c,
    show V3 m ρ c main_v32 = _ from w3_v32 m ρ c,
    truncf_id, addRow1_cast]
  rfl

/-- its second output: the mask branch's first layer, on feature − mask_feature -/
theorem m0_eq : (dat0 (V3 m ρ) c).arrAt 5 cfg0.N = Cert.Spec.layerIn (Cert.Spec.sub (aFeat m c) (aMf m c)) (aWin m c) (aBin m c) := by
  rw [Region0.arr5 (V3 m ρ) c,
    show V3 m ρ c main_arg0 = aMf m c from w3_arg m ρ c main_arg0 (by decide),
    show V3 m ρ c main_arg1 = aFeat m c from w3_arg m ρ c main_arg1 (by decide),
    show V3 m ρ c main_v31 = _ from w3_v31 m ρ c,
    show V3 m ρ c main_v32 = _ from w3_v32 m ρ c,
    truncf_id, addRow1_cast]
  rfl

/-- the second region's output: the first graph layer's matrix product -/
theorem h1_eq : (dat1 (V5 m ρ) c).arrAt 2 cfg1.N = Cert.Spec.mm (Cert.Spec.layerIn (aMf m c) (aWin m c) (aBin m c)) (aWg1 m c) := by
  rw [Region1.arr (V5 m ρ) c,
    show V5 m ρ c main_v33_0 = _ from w5_v33_0 m ρ c,
    show V5 m ρ c main_v34 = _ from w5_v34 m ρ c,
    x0_eq, truncf_id]

/-- the third region's output: the second graph layer's matrix product, on the first aggregation plus its bias -/
theorem h2_eq : (dat2 (V7 m ρ) c).arrAt 3 cfg2.N
    = Cert.Spec.mm (Cert.Spec.addRow (KAgg.agg (E m c) (Cert.Spec.mm (Cert.Spec.layerIn (aMf m c) (aWin m c) (aBin m c)) (aWg1 m c))) (aBg1 m c)) (aWg2 m c) := by
  rw [Region2.arr (V7 m ρ) c,
    show V7 m ρ c main_v48 = _ from w7_v48 m ρ c,
    show V7 m ρ c main_v49 = _ from w7_v49 m ρ c,
    show V7 m ρ c main_v50 = _ from w7_v50 m ρ c,
    h1_eq, truncf_id, addRow1_cast]

/-- the result buffer is the last region's output array -/
theorem w10_v68 : W10 m ρ c (Proc.devRef .tc main_v68) = (dat3 (V9 m ρ) c).arrAt 5 cfg3.N := W10_arr m ρ c 5

/-- THE RESULT: the program's result buffer ends at the whole network of the launched arguments. -/
theorem result : W10 m ρ c (Proc.devRef .tc main_v68)
    = Cert.Spec.out (KAgg.agg (E m c)) (aMf m c) (aFeat m c) (aWin m c) (aBin m c) (aWg1 m c) (aBg1 m c) (aWg2 m c) (aBg2 m c) (aWout m c) (aBout m c) := by
  rw [w10_v68 m ρ c]
  rw [Region3.arr (V9 m ρ) c]
  rw [show V9 m ρ c main_v64 = _ from w9_v64 m ρ c]
  rw [show V9 m ρ c main_v65 = _ from w9_v65 m ρ c]
  rw [show V9 m ρ c main_v33_1 = _ from w9_v33_1 m ρ c]
  rw [show V9 m ρ c main_v66 = _ from w9_v66 m ρ c]
  rw [show V9 m ρ c main_v67 = _ from w9_v67 m ρ c]
  rw [h2_eq, m0_eq]
  rw [truncf_id, addRow1_cast, addRow1_cast, addRow1_cast]
  rfl

end Cert.KernelIdeal.KValue

end
-- ==== Proof.RefOps.lean ====
/- The reference program's @main as lists of its StableHLO operations, in order: one list per printed part of
   @main, and their concatenation. Each operation is the one its statement prints, with its types; a call of a
   module-local function is that function's operations, in order, over the call's own buffers (the callee's
   arguments the caller's buffers at the callee's types, its values the fields of the call's record). -/
import proofs.«180160_j43533788512795_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The 66 operations of `main_part0`, in order (each call replaced by the callee's operations). -/
abbrev ops0 : List (HloOp τ sig (Elt F)) :=
  [ StableHlo.unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg4 main_v4 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg5 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S50000x256 ![0, 1] bcast_S1x256_S50000x256_0_1 : (⟨S1x256, .f32⟩ : BufTy).Contents (Elt F) → (⟨S50000x256, .f32⟩ : BufTy).Contents (Elt F)),
    StableHlo.binary main_v4 main_v6 main_v7 (addf : (⟨S50000x256, .f32⟩ : BufTy).Contents (Elt F) → (⟨S50000x256, .f32⟩ : BufTy).Contents (Elt F) → (⟨S50000x256, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S50000x256 ![] bcast_S_S50000x256),
    StableHlo.TRef.binary (.of main_v7 : StableHlo.TRef sig ⟨S50000x256, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S50000x256 ![] bcast_S_S50000x256),
    StableHlo.TRef.binary main_call0.v3 (.of main_v7 : StableHlo.TRef sig ⟨S50000x256, .f32⟩) main_call0.v4 mulf,
    StableHlo.TRef.ternary main_call0.v1 (.of main_v7 : StableHlo.TRef sig ⟨S50000x256, .f32⟩) main_call0.v4 main_call0.call0.v0 select,
    StableHlo.binary main_v8 main_arg6 main_v9 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_v10 (iotaInDim S50000 32 0),
    StableHlo.binary main_v1 main_v10 main_v11 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v10 main_v12 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_0 (constant S_ .f32 0x3F800000#32),
    StableHlo.unary main_cst_0 main_v13 (broadcastInDim S850000 ![] bcast_S_S850000 : (⟨S_, .f32⟩ : BufTy).Contents (Elt F) → (⟨S850000, .f32⟩ : BufTy).Contents (Elt F)),
    StableHlo.nullary main_cst_1 (constant S_ .f32 0x00000000#32),
    StableHlo.unary main_cst_1 main_v14 (broadcastInDim S50000 ![] bcast_S_S50000 : (⟨S_, .f32⟩ : BufTy).Contents (Elt F) → (⟨S50000, .f32⟩ : BufTy).Contents (Elt F)),
    StableHlo.unary main_v12 main_v15 (broadcastInDim S850000x1 ![0] bcast_S850000_S850000x1_0 : (⟨S850000, .i32⟩ : BufTy).Contents (Elt F) → (⟨S850000x1, .i32⟩ : BufTy).Contents (Elt F)),
    StableHlo.ternary main_v14 main_v15 main_v13 main_v16 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_2 (constant S_ .f32 0x00000000#32),
    StableHlo.unary main_cst_2 main_v17 (broadcastInDim S50000 ![] bcast_S_S50000 : (⟨S_, .f32⟩ : BufTy).Contents (Elt F) → (⟨S50000, .f32⟩ : BufTy).Contents (Elt F)),
    StableHlo.binary main_v16 main_v17 main_v18 (cmpf .ogt : (⟨S50000, .f32⟩ : BufTy).Contents (Elt F) → (⟨S50000, .f32⟩ : BufTy).Contents (Elt F) → (⟨S50000, .i1⟩ : BufTy).Contents (Elt F)),
    StableHlo.unary main_v16 main_v19 (Host.rsqrt : (⟨S50000, .f32⟩ : BufTy).Contents (Elt F) → (⟨S50000, .f32⟩ : BufTy).Contents (Elt F)),
    StableHlo.nullary main_cst_3 (constant S_ .f32 0x00000000#32),
    StableHlo.unary main_cst_3 main_v20 (broadcastInDim S50000 ![] bcast_S_S50000 : (⟨S_, .f32⟩ : BufTy).Contents (Elt F) → (⟨S50000, .f32⟩ : BufTy).Contents (Elt F)),
    StableHlo.TRef.ternary (.of main_v18 : StableHlo.TRef sig ⟨S50000, .i1⟩) (.of main_v19 : StableHlo.TRef sig ⟨S50000, .f32⟩) (.of main_v20 : StableHlo.TRef sig ⟨S50000, .f32⟩) main_call1.v0 select,
    StableHlo.nullary main_c (constantI S_ 32 0#32),
    StableHlo.unary main_c main_v22 (broadcastInDim S850000 ![] bcast_S_S850000 : (⟨S_, .i32⟩ : BufTy).Contents (Elt F) → (⟨S850000, .i32⟩ : BufTy).Contents (Elt F)),
    StableHlo.binary main_v11 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v24 (broadcastInDim S850000 ![] bcast_S_S850000 : (⟨S_, .i32⟩ : BufTy).Contents (Elt F) → (⟨S850000, .i32⟩ : BufTy).Contents (Elt F)),
    StableHlo.binary main_v11 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v11 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v21 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v29 (broadcastInDim S850000 ![] bcast_S_S850000 : (⟨S_, .i32⟩ : BufTy).Contents (Elt F) → (⟨S850000, .i32⟩ : BufTy).Contents (Elt F)),
    StableHlo.binary main_v12 main_v29 main_v30 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v31 (broadcastInDim S850000 ![] bcast_S_S850000 : (⟨S_, .i32⟩ : BufTy).Contents (Elt F) → (⟨S850000, .i32⟩ : BufTy).Contents (Elt F)),
    StableHlo.binary main_v12 main_v31 main_v32 (addi : (⟨S850000, .i32⟩ : BufTy).Contents (Elt F) → (⟨S850000, .i32⟩ : BufTy).Contents (Elt F) → (⟨S850000, .i32⟩ : BufTy).Contents (Elt F)),
    StableHlo.ternary main_v30 main_v32 main_v12 main_v33 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v33 main_v34 (broadcastInDim S850000x1 ![0] bcast_S850000_S850000x1_0 : (⟨S850000, .i32⟩ : BufTy).Contents (Elt F) → (⟨S850000x1, .i32⟩ : BufTy).Contents (Elt F)),
    StableHlo.binary main_v21 main_v34 main_v35 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v28 main_v35 main_v36 (mulf : (⟨S850000, .f32⟩ : BufTy).Contents (Elt F) → (⟨S850000, .f32⟩ : BufTy).Contents (Elt F) → (⟨S850000, .f32⟩ : BufTy).Contents (Elt F)),
    StableHlo.nullary main_c_7 (constantI S_ 32 0#32),
    StableHlo.unary main_c_7 main_v37 (broadcastInDim S850000 ![] bcast_S_S850000 : (⟨S_, .i32⟩ : BufTy).Contents (Elt F) → (⟨S850000, .i32⟩ : BufTy).Contents (Elt F)),
    StableHlo.binary main_v11 main_v37 main_v38 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v39 (broadcastInDim S850000 ![] bcast_S_S850000 : (⟨S_, .i32⟩ : BufTy).Contents (Elt F) → (⟨S850000, .i32⟩ : BufTy).Contents (Elt F)),
    StableHlo.binary main_v11 main_v39 main_v40 (addi : (⟨S850000, .i32⟩ : BufTy).Contents (Elt F) → (⟨S850000, .i32⟩ : BufTy).Contents (Elt F) → (⟨S850000, .i32⟩ : BufTy).Contents (Elt F)),
    StableHlo.ternary main_v38 main_v40 main_v11 main_v41 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v41 main_v42 (broadcastInDim S850000x1 ![0] bcast_S850000_S850000x1_0 : (⟨S850000, .i32⟩ : BufTy).Contents (Elt F) → (⟨S850000x1, .i32⟩ : BufTy).Contents (Elt F)),
    StableHlo.binary main_v9 main_v42 main_v43 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v36 main_v44 (broadcastInDim S850000x1 ![0] bcast_S850000_S850000x1_0 : (⟨S850000, .f32⟩ : BufTy).Contents (Elt F) → (⟨S850000x1, .f32⟩ : BufTy).Contents (Elt F)),
    StableHlo.unary main_v44 main_v45 (broadcastInDim S850000x256 ![0, 1] bcast_S850000x1_S850000x256_0_1 : (⟨S850000x1, .f32⟩ : BufTy).Contents (Elt F) → (⟨S850000x256, .f32⟩ : BufTy).Contents (Elt F)),
    StableHlo.binary main_v43 main_v45 main_v46 (mulf : (⟨S850000x256, .f32⟩ : BufTy).Contents (Elt F) → (⟨S850000x256, .f32⟩ : BufTy).Contents (Elt F) → (⟨S850000x256, .f32⟩ : BufTy).Contents (Elt F)),
    StableHlo.nullary main_cst_9 (constant S_ .f32 0x00000000#32),
    StableHlo.unary main_cst_9 main_v47 (broadcastInDim S50000x256 ![] bcast_S_S50000x256 : (⟨S_, .f32⟩ : BufTy).Contents (Elt F) → (⟨S50000x256, .f32⟩ : BufTy).Contents (Elt F)) ]

/-- The 60 operations of `main_part1`, in order (each call replaced by the callee's operations). -/
abbrev ops1 : List (HloOp τ sig (Elt F)) :=
  [ StableHlo.unary main_v12 main_v48 (broadcastInDim S850000x1 ![0] bcast_S850000_S850000x1_0 : (⟨S850000, .i32⟩ : BufTy).Contents (Elt F) → (⟨S850000x1, .i32⟩ : BufTy).Contents (Elt F)),
    StableHlo.ternary main_v47 main_v48 main_v46 main_v49 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S50000x256 ![0, 1] bcast_S1x256_S50000x256_0_1 : (⟨S1x256, .f32⟩ : BufTy).Contents (Elt F) → (⟨S50000x256, .f32⟩ : BufTy).Contents (Elt F)),
    StableHlo.binary main_v49 main_v51 main_v52 (addf : (⟨S50000x256, .f32⟩ : BufTy).Contents (Elt F) → (⟨S50000x256, .f32⟩ : BufTy).Contents (Elt F) → (⟨S50000x256, .f32⟩ : BufTy).Contents (Elt F)),
    StableHlo.binary main_v52 main_arg8 main_v53 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_v54 (iotaInDim S50000 32 0),
    StableHlo.binary main_v1 main_v54 main_v55 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v54 main_v56 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_10 (constant S_ .f32 0x3F800000#32),
    StableHlo.unary main_cst_10 main_v57 (broadcastInDim S850000 ![] bcast_S_S850000 : (⟨S_, .f32⟩ : BufTy).Contents (Elt F) → (⟨S850000, .f32⟩ : BufTy).Contents (Elt F)),
    StableHlo.nullary main_cst_11 (constant S_ .f32 0x00000000#32),
    StableHlo.unary main_cst_11 main_v58 (broadcastInDim S50000 ![] bcast_S_S50000 : (⟨S_, .f32⟩ : BufTy).Contents (Elt F) → (⟨S50000, .f32⟩ : BufTy).Contents (Elt F)),
    StableHlo.unary main_v56 main_v59 (broadcastInDim S850000x1 ![0] bcast_S850000_S850000x1_0 : (⟨S850000, .i32⟩ : BufTy).Contents (Elt F) → (⟨S850000x1, .i32⟩ : BufTy).Contents (Elt F)),
    StableHlo.ternary main_v58 main_v59 main_v57 main_v60 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_12 (constant S_ .f32 0x00000000#32),
    StableHlo.unary main_cst_12 main_v61 (broadcastInDim S50000 ![] bcast_S_S50000 : (⟨S_, .f32⟩ : BufTy).Contents (Elt F) → (⟨S50000, .f32⟩ : BufTy).Contents (Elt F)),
    StableHlo.binary main_v60 main_v61 main_v62 (cmpf .ogt : (⟨S50000, .f32⟩ : BufTy).Contents (Elt F) → (⟨S50000, .f32⟩ : BufTy).Contents (Elt F) → (⟨S50000, .i1⟩ : BufTy).Contents (Elt F)),
    StableHlo.unary main_v60 main_v63 (Host.rsqrt : (⟨S50000, .f32⟩ : BufTy).Contents (Elt F) → (⟨S50000, .f32⟩ : BufTy).Contents (Elt F)),
    StableHlo.nullary main_cst_13 (constant S_ .f32 0x00000000#32),
    StableHlo.unary main_cst_13 main_v64 (broadcastInDim S50000 ![] bcast_S_S50000 : (⟨S_, .f32⟩ : BufTy).Contents (Elt F) → (⟨S50000, .f32⟩ : BufTy).Contents (Elt F)),
    StableHlo.TRef.ternary (.of main_v62 : StableHlo.TRef sig ⟨S50000, .i1⟩) (.of main_v63 : StableHlo.TRef sig ⟨S50000, .f32⟩) (.of main_v64 : StableHlo.TRef sig ⟨S50000, .f32⟩) main_call2.v0 select,
    StableHlo.nullary main_c_14 (constantI S_ 32 0#32),
    StableHlo.unary main_c_14 main_v66 (broadcastInDim S850000 ![] bcast_S_S850000 : (⟨S_, .i32⟩ : BufTy).Contents (Elt F) → (⟨S850000, .i32⟩ : BufTy).Contents (Elt F)),
    StableHlo.binary main_v55 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v68 (broadcastInDim S850000 ![] bcast_S_S850000 : (⟨S_, .i32⟩ : BufTy).Contents (Elt F) → (⟨S850000, .i32⟩ : BufTy).Contents (Elt F)),
    StableHlo.binary main_v55 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v55 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v65 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_16 (constantI S_ 32 0#32),
    StableHlo.unary main_c_16 main_v73 (broadcastInDim S850000 ![] bcast_S_S850000 : (⟨S_, .i32⟩ : BufTy).Contents (Elt F) → (⟨S850000, .i32⟩ : BufTy).Contents (Elt F)),
    StableHlo.binary main_v56 main_v73 main_v74 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v75 (broadcastInDim S850000 ![] bcast_S_S850000 : (⟨S_, .i32⟩ : BufTy).Contents (Elt F) → (⟨S850000, .i32⟩ : BufTy).Contents (Elt F)),
    StableHlo.binary main_v56 main_v75 main_v76 (addi : (⟨S850000, .i32⟩ : BufTy).Contents (Elt F) → (⟨S850000, .i32⟩ : BufTy).Contents (Elt F) → (⟨S850000, .i32⟩ : BufTy).Contents (Elt F)),
    StableHlo.ternary main_v74 main_v76 main_v56 main_v77 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v77 main_v78 (broadcastInDim S850000x1 ![0] bcast_S850000_S850000x1_0 : (⟨S850000, .i32⟩ : BufTy).Contents (Elt F) → (⟨S850000x1, .i32⟩ : BufTy).Contents (Elt F)),
    StableHlo.binary main_v65 main_v78 main_v79 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v72 main_v79 main_v80 (mulf : (⟨S850000, .f32⟩ : BufTy).Contents (Elt F) → (⟨S850000, .f32⟩ : BufTy).Contents (Elt F) → (⟨S850000, .f32⟩ : BufTy).Contents (Elt F)),
    StableHlo.nullary main_c_18 (constantI S_ 32 0#32),
    StableHlo.unary main_c_18 main_v81 (broadcastInDim S850000 ![] bcast_S_S850000 : (⟨S_, .i32⟩ : BufTy).Contents (Elt F) → (⟨S850000, .i32⟩ : BufTy).Contents (Elt F)),
    StableHlo.binary main_v55 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v83 (broadcastInDim S850000 ![] bcast_S_S850000 : (⟨S_, .i32⟩ : BufTy).Contents (Elt F) → (⟨S850000, .i32⟩ : BufTy).Contents (Elt F)),
    StableHlo.binary main_v55 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v55 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v53 main_v86 main_v87 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v80 main_v88 (broadcastInDim S850000x1 ![0] bcast_S850000_S850000x1_0 : (⟨S850000, .f32⟩ : BufTy).Contents (Elt F) → (⟨S850000x1, .f32⟩ : BufTy).Contents (Elt F)),
    StableHlo.unary main_v88 main_v89 (broadcastInDim S850000x256 ![0, 1] bcast_S850000x1_S850000x256_0_1 : (⟨S850000x1, .f32⟩ : BufTy).Contents (Elt F) → (⟨S850000x256, .f32⟩ : BufTy).Contents (Elt F)),
    StableHlo.binary main_v87 main_v89 main_v90 (mulf : (⟨S850000x256, .f32⟩ : BufTy).Contents (Elt F) → (⟨S850000x256, .f32⟩ : BufTy).Contents (Elt F) → (⟨S850000x256, .f32⟩ : BufTy).Contents (Elt F)),
    StableHlo.nullary main_cst_20 (constant S_ .f32 0x00000000#32),
    StableHlo.unary main_cst_20 main_v91 (broadcastInDim S50000x256 ![] bcast_S_S50000x256 : (⟨S_, .f32⟩ : BufTy).Contents (Elt F) → (⟨S50000x256, .f32⟩ : BufTy).Contents (Elt F)),
    StableHlo.unary main_v56 main_v92 (broadcastInDim S850000x1 ![0] bcast_S850000_S850000x1_0 : (⟨S850000, .i32⟩ : BufTy).Contents (Elt F) → (⟨S850000x1, .i32⟩ : BufTy).Contents (Elt F)),
    StableHlo.ternary main_v91 main_v92 main_v90 main_v93 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg9 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S50000x256 ![0, 1] bcast_S1x256_S50000x256_0_1 : (⟨S1x256, .f32⟩ : BufTy).Contents (Elt F) → (⟨S50000x256, .f32⟩ : BufTy).Contents (Elt F)),
    StableHlo.binary main_v93 main_v95 main_v96 (addf : (⟨S50000x256, .f32⟩ : BufTy).Contents (Elt F) → (⟨S50000x256, .f32⟩ : BufTy).Contents (Elt F) → (⟨S50000x256, .f32⟩ : BufTy).Contents (Elt F)) ]

/-- The 22 operations of `main_part2`, in order (each call replaced by the callee's operations). -/
abbrev ops2 : List (HloOp τ sig (Elt F)) :=
  [ StableHlo.binary main_v96 main_arg10 main_v97 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg11 main_v98 (broadcastInDim S1x2 ![1] bcast_S2_S1x2_1 : (⟨S2, .f32⟩ : BufTy).Contents (Elt F) → (⟨S1x2, .f32⟩ : BufTy).Contents (Elt F)),
    StableHlo.unary main_v98 main_v99 (broadcastInDim S50000x2 ![0, 1] bcast_S1x2_S50000x2_0_1 : (⟨S1x2, .f32⟩ : BufTy).Contents (Elt F) → (⟨S50000x2, .f32⟩ : BufTy).Contents (Elt F)),
    StableHlo.binary main_v97 main_v99 main_v100 (addf : (⟨S50000x2, .f32⟩ : BufTy).Contents (Elt F) → (⟨S50000x2, .f32⟩ : BufTy).Contents (Elt F) → (⟨S50000x2, .f32⟩ : BufTy).Contents (Elt F)),
    StableHlo.binary main_arg1 main_arg0 main_v101 (subf : (⟨S50000x128, .f32⟩ : BufTy).Contents (Elt F) → (⟨S50000x128, .f32⟩ : BufTy).Contents (Elt F) → (⟨S50000x128, .f32⟩ : BufTy).Contents (Elt F)),
    StableHlo.binary main_v101 main_arg4 main_v102 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg5 main_v103 (broadcastInDim S1x256 ![1] bcast_S256_S1x256_1 : (⟨S256, .f32⟩ : BufTy).Contents (Elt F) → (⟨S1x256, .f32⟩ : BufTy).Contents (Elt F)),
    StableHlo.unary main_v103 main_v104 (broadcastInDim S50000x256 ![0, 1] bcast_S1x256_S50000x256_0_1 : (⟨S1x256, .f32⟩ : BufTy).Contents (Elt F) → (⟨S50000x256, .f32⟩ : BufTy).Contents (Elt F)),
    StableHlo.binary main_v102 main_v104 main_v105 (addf : (⟨S50000x256, .f32⟩ : BufTy).Contents (Elt F) → (⟨S50000x256, .f32⟩ : BufTy).Contents (Elt F) → (⟨S50000x256, .f32⟩ : BufTy).Contents (Elt F)),
    StableHlo.nullary main_cst_21 (constant S_ .f32 0x3C23D70A#32),
    StableHlo.TRef.nullary main_call3.cst (constant S_ .f32 0x00000000#32),
    StableHlo.TRef.unary main_call3.cst main_call3.v0 (broadcastInDim S50000x256 ![] bcast_S_S50000x256),
    StableHlo.TRef.binary (.of main_v105 : StableHlo.TRef sig ⟨S50000x256, .f32⟩) main_call3.v0 main_call3.v1 (cmpf .oge),
    StableHlo.TRef.unary (.of main_cst_21 : StableHlo.TRef sig ⟨S_, .f32⟩) main_call3.v2 id,
    StableHlo.TRef.unary main_call3.v2 main_call3.v3 (broadcastInDim S50000x256 ![] bcast_S_S50000x256),
    StableHlo.TRef.binary main_call3.v3 (.of main_v105 : StableHlo.TRef sig ⟨S50000x256, .f32⟩) main_call3.v4 mulf,
    StableHlo.TRef.ternary main_call3.v1 (.of main_v105 : StableHlo.TRef sig ⟨S50000x256, .f32⟩) main_call3.v4 main_call3.call0.v0 select,
    StableHlo.binary main_v106 main_arg10 main_v107 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg11 main_v108 (broadcastInDim S1x2 ![1] bcast_S2_S1x2_1 : (⟨S2, .f32⟩ : BufTy).Contents (Elt F) → (⟨S1x2, .f32⟩ : BufTy).Contents (Elt F)),
    StableHlo.unary main_v108 main_v109 (broadcastInDim S50000x2 ![0, 1] bcast_S1x2_S50000x2_0_1 : (⟨S1x2, .f32⟩ : BufTy).Contents (Elt F) → (⟨S50000x2, .f32⟩ : BufTy).Contents (Elt F)),
    StableHlo.binary main_v107 main_v109 main_v110 (addf : (⟨S50000x2, .f32⟩ : BufTy).Contents (Elt F) → (⟨S50000x2, .f32⟩ : BufTy).Contents (Elt F) → (⟨S50000x2, .f32⟩ : BufTy).Contents (Elt F)),
    StableHlo.binary main_v100 main_v110 main_v111 (mulf : (⟨S50000x2, .f32⟩ : BufTy).Contents (Elt F) → (⟨S50000x2, .f32⟩ : BufTy).Contents (Elt F) → (⟨S50000x2, .f32⟩ : BufTy).Contents (Elt F)) ]

/-- @main's 148 operations, in order. -/
abbrev ops : List (HloOp τ sig (Elt F)) := ops0 ++ ops1 ++ ops2

/-! ## The same operations in shorter consecutive lists

Each of the two long lists is the concatenation of four consecutive segments of it. -/

/-- The operations 1 … 16 of `ops0`. -/
abbrev ops0a : List (HloOp τ sig (Elt F)) :=
  [ StableHlo.unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg4 main_v4 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg5 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S50000x256 ![0, 1] bcast_S1x256_S50000x256_0_1 : (⟨S1x256, .f32⟩ : BufTy).Contents (Elt F) → (⟨S50000x256, .f32⟩ : BufTy).Contents (Elt F)),
    StableHlo.binary main_v4 main_v6 main_v7 (addf : (⟨S50000x256, .f32⟩ : BufTy).Contents (Elt F) → (⟨S50000x256, .f32⟩ : BufTy).Contents (Elt F) → (⟨S50000x256, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S50000x256 ![] bcast_S_S50000x256),
    StableHlo.TRef.binary (.of main_v7 : StableHlo.TRef sig ⟨S50000x256, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S50000x256 ![] bcast_S_S50000x256),
    StableHlo.TRef.binary main_call0.v3 (.of main_v7 : StableHlo.TRef sig ⟨S50000x256, .f32⟩) main_call0.v4 mulf,
    StableHlo.TRef.ternary main_call0.v1 (.of main_v7 : StableHlo.TRef sig ⟨S50000x256, .f32⟩) main_call0.v4 main_call0.call0.v0 select ]

/-- The operations 17 … 33 of `ops0`. -/
abbrev ops0b : List (HloOp τ sig (Elt F)) :=
  [ StableHlo.binary main_v8 main_arg6 main_v9 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_v10 (iotaInDim S50000 32 0),
    StableHlo.binary main_v1 main_v10 main_v11 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v10 main_v12 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_0 (constant S_ .f32 0x3F800000#32),
    StableHlo.unary main_cst_0 main_v13 (broadcastInDim S850000 ![] bcast_S_S850000 : (⟨S_, .f32⟩ : BufTy).Contents (Elt F) → (⟨S850000, .f32⟩ : BufTy).Contents (Elt F)),
    StableHlo.nullary main_cst_1 (constant S_ .f32 0x00000000#32),
    StableHlo.unary main_cst_1 main_v14 (broadcastInDim S50000 ![] bcast_S_S50000 : (⟨S_, .f32⟩ : BufTy).Contents (Elt F) → (⟨S50000, .f32⟩ : BufTy).Contents (Elt F)),
    StableHlo.unary main_v12 main_v15 (broadcastInDim S850000x1 ![0] bcast_S850000_S850000x1_0 : (⟨S850000, .i32⟩ : BufTy).Contents (Elt F) → (⟨S850000x1, .i32⟩ : BufTy).Contents (Elt F)),
    StableHlo.ternary main_v14 main_v15 main_v13 main_v16 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_2 (constant S_ .f32 0x00000000#32),
    StableHlo.unary main_cst_2 main_v17 (broadcastInDim S50000 ![] bcast_S_S50000 : (⟨S_, .f32⟩ : BufTy).Contents (Elt F) → (⟨S50000, .f32⟩ : BufTy).Contents (Elt F)),
    StableHlo.binary main_v16 main_v17 main_v18 (cmpf .ogt : (⟨S50000, .f32⟩ : BufTy).Contents (Elt F) → (⟨S50000, .f32⟩ : BufTy).Contents (Elt F) → (⟨S50000, .i1⟩ : BufTy).Contents (Elt F)),
    StableHlo.unary main_v16 main_v19 (Host.rsqrt : (⟨S50000, .f32⟩ : BufTy).Contents (Elt F) → (⟨S50000, .f32⟩ : BufTy).Contents (Elt F)),
    StableHlo.nullary main_cst_3 (constant S_ .f32 0x00000000#32),
    StableHlo.unary main_cst_3 main_v20 (broadcastInDim S50000 ![] bcast_S_S50000 : (⟨S_, .f32⟩ : BufTy).Contents (Elt F) → (⟨S50000, .f32⟩ : BufTy).Contents (Elt F)),
    StableHlo.TRef.ternary (.of main_v18 : StableHlo.TRef sig ⟨S50000, .i1⟩) (.of main_v19 : StableHlo.TRef sig ⟨S50000, .f32⟩) (.of main_v20 : StableHlo.TRef sig ⟨S50000, .f32⟩) main_call1.v0 select ]

/-- The operations 34 … 52 of `ops0`. -/
abbrev ops0c : List (HloOp τ sig (Elt F)) :=
  [ StableHlo.nullary main_c (constantI S_ 32 0#32),
    StableHlo.unary main_c main_v22 (broadcastInDim S850000 ![] bcast_S_S850000 : (⟨S_, .i32⟩ : BufTy).Contents (Elt F) → (⟨S850000, .i32⟩ : BufTy).Contents (Elt F)),
    StableHlo.binary main_v11 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v24 (broadcastInDim S850000 ![] bcast_S_S850000 : (⟨S_, .i32⟩ : BufTy).Contents (Elt F) → (⟨S850000, .i32⟩ : BufTy).Contents (Elt F)),
    StableHlo.binary main_v11 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v11 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v21 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v29 (broadcastInDim S850000 ![] bcast_S_S850000 : (⟨S_, .i32⟩ : BufTy).Contents (Elt F) → (⟨S850000, .i32⟩ : BufTy).Contents (Elt F)),
    StableHlo.binary main_v12 main_v29 main_v30 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v31 (broadcastInDim S850000 ![] bcast_S_S850000 : (⟨S_, .i32⟩ : BufTy).Contents (Elt F) → (⟨S850000, .i32⟩ : BufTy).Contents (Elt F)),
    StableHlo.binary main_v12 main_v31 main_v32 (addi : (⟨S850000, .i32⟩ : BufTy).Contents (Elt F) → (⟨S850000, .i32⟩ : BufTy).Contents (Elt F) → (⟨S850000, .i32⟩ : BufTy).Contents (Elt F)),
    StableHlo.ternary main_v30 main_v32 main_v12 main_v33 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v33 main_v34 (broadcastInDim S850000x1 ![0] bcast_S850000_S850000x1_0 : (⟨S850000, .i32⟩ : BufTy).Contents (Elt F) → (⟨S850000x1, .i32⟩ : BufTy).Contents (Elt F)),
    StableHlo.binary main_v21 main_v34 main_v35 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v28 main_v35 main_v36 (mulf : (⟨S850000, .f32⟩ : BufTy).Contents (Elt F) → (⟨S850000, .f32⟩ : BufTy).Contents (Elt F) → (⟨S850000, .f32⟩ : BufTy).Contents (Elt F)) ]

/-- The operations 53 … 66 of `ops0`. -/
abbrev ops0d : List (HloOp τ sig (Elt F)) :=
  [ StableHlo.nullary main_c_7 (constantI S_ 32 0#32),
    StableHlo.unary main_c_7 main_v37 (broadcastInDim S850000 ![] bcast_S_S850000 : (⟨S_, .i32⟩ : BufTy).Contents (Elt F) → (⟨S850000, .i32⟩ : BufTy).Contents (Elt F)),
    StableHlo.binary main_v11 main_v37 main_v38 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v39 (broadcastInDim S850000 ![] bcast_S_S850000 : (⟨S_, .i32⟩ : BufTy).Contents (Elt F) → (⟨S850000, .i32⟩ : BufTy).Contents (Elt F)),
    StableHlo.binary main_v11 main_v39 main_v40 (addi : (⟨S850000, .i32⟩ : BufTy).Contents (Elt F) → (⟨S850000, .i32⟩ : BufTy).Contents (Elt F) → (⟨S850000, .i32⟩ : BufTy).Contents (Elt F)),
    StableHlo.ternary main_v38 main_v40 main_v11 main_v41 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v41 main_v42 (broadcastInDim S850000x1 ![0] bcast_S850000_S850000x1_0 : (⟨S850000, .i32⟩ : BufTy).Contents (Elt F) → (⟨S850000x1, .i32⟩ : BufTy).Contents (Elt F)),
    StableHlo.binary main_v9 main_v42 main_v43 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v36 main_v44 (broadcastInDim S850000x1 ![0] bcast_S850000_S850000x1_0 : (⟨S850000, .f32⟩ : BufTy).Contents (Elt F) → (⟨S850000x1, .f32⟩ : BufTy).Contents (Elt F)),
    StableHlo.unary main_v44 main_v45 (broadcastInDim S850000x256 ![0, 1] bcast_S850000x1_S850000x256_0_1 : (⟨S850000x1, .f32⟩ : BufTy).Contents (Elt F) → (⟨S850000x256, .f32⟩ : BufTy).Contents (Elt F)),
    StableHlo.binary main_v43 main_v45 main_v46 (mulf : (⟨S850000x256, .f32⟩ : BufTy).Contents (Elt F) → (⟨S850000x256, .f32⟩ : BufTy).Contents (Elt F) → (⟨S850000x256, .f32⟩ : BufTy).Contents (Elt F)),
    StableHlo.nullary main_cst_9 (constant S_ .f32 0x00000000#32),
    StableHlo.unary main_cst_9 main_v47 (broadcastInDim S50000x256 ![] bcast_S_S50000x256 : (⟨S_, .f32⟩ : BufTy).Contents (Elt F) → (⟨S50000x256, .f32⟩ : BufTy).Contents (Elt F)) ]

/-- The operations 1 … 6 of `ops1`. -/
abbrev ops1a : List (HloOp τ sig (Elt F)) :=
  [ StableHlo.unary main_v12 main_v48 (broadcastInDim S850000x1 ![0] bcast_S850000_S850000x1_0 : (⟨S850000, .i32⟩ : BufTy).Contents (Elt F) → (⟨S850000x1, .i32⟩ : BufTy).Contents (Elt F)),
    StableHlo.ternary main_v47 main_v48 main_v46 main_v49 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S50000x256 ![0, 1] bcast_S1x256_S50000x256_0_1 : (⟨S1x256, .f32⟩ : BufTy).Contents (Elt F) → (⟨S50000x256, .f32⟩ : BufTy).Contents (Elt F)),
    StableHlo.binary main_v49 main_v51 main_v52 (addf : (⟨S50000x256, .f32⟩ : BufTy).Contents (Elt F) → (⟨S50000x256, .f32⟩ : BufTy).Contents (Elt F) → (⟨S50000x256, .f32⟩ : BufTy).Contents (Elt F)),
    StableHlo.binary main_v52 main_arg8 main_v53 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- The operations 7 … 22 of `ops1`. -/
abbrev ops1b : List (HloOp τ sig (Elt F)) :=
  [ StableHlo.nullary main_v54 (iotaInDim S50000 32 0),
    StableHlo.binary main_v1 main_v54 main_v55 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v54 main_v56 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_10 (constant S_ .f32 0x3F800000#32),
    StableHlo.unary main_cst_10 main_v57 (broadcastInDim S850000 ![] bcast_S_S850000 : (⟨S_, .f32⟩ : BufTy).Contents (Elt F) → (⟨S850000, .f32⟩ : BufTy).Contents (Elt F)),
    StableHlo.nullary main_cst_11 (constant S_ .f32 0x00000000#32),
    StableHlo.unary main_cst_11 main_v58 (broadcastInDim S50000 ![] bcast_S_S50000 : (⟨S_, .f32⟩ : BufTy).Contents (Elt F) → (⟨S50000, .f32⟩ : BufTy).Contents (Elt F)),
    StableHlo.unary main_v56 main_v59 (broadcastInDim S850000x1 ![0] bcast_S850000_S850000x1_0 : (⟨S850000, .i32⟩ : BufTy).Contents (Elt F) → (⟨S850000x1, .i32⟩ : BufTy).Contents (Elt F)),
    StableHlo.ternary main_v58 main_v59 main_v57 main_v60 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_12 (constant S_ .f32 0x00000000#32),
    StableHlo.unary main_cst_12 main_v61 (broadcastInDim S50000 ![] bcast_S_S50000 : (⟨S_, .f32⟩ : BufTy).Contents (Elt F) → (⟨S50000, .f32⟩ : BufTy).Contents (Elt F)),
    StableHlo.binary main_v60 main_v61 main_v62 (cmpf .ogt : (⟨S50000, .f32⟩ : BufTy).Contents (Elt F) → (⟨S50000, .f32⟩ : BufTy).Contents (Elt F) → (⟨S50000, .i1⟩ : BufTy).Contents (Elt F)),
    StableHlo.unary main_v60 main_v63 (Host.rsqrt : (⟨S50000, .f32⟩ : BufTy).Contents (Elt F) → (⟨S50000, .f32⟩ : BufTy).Contents (Elt F)),
    StableHlo.nullary main_cst_13 (constant S_ .f32 0x00000000#32),
    StableHlo.unary main_cst_13 main_v64 (broadcastInDim S50000 ![] bcast_S_S50000 : (⟨S_, .f32⟩ : BufTy).Contents (Elt F) → (⟨S50000, .f32⟩ : BufTy).Contents (Elt F)),
    StableHlo.TRef.ternary (.of main_v62 : StableHlo.TRef sig ⟨S50000, .i1⟩) (.of main_v63 : StableHlo.TRef sig ⟨S50000, .f32⟩) (.of main_v64 : StableHlo.TRef sig ⟨S50000, .f32⟩) main_call2.v0 select ]

/-- The operations 23 … 41 of `ops1`. -/
abbrev ops1c : List (HloOp τ sig (Elt F)) :=
  [ StableHlo.nullary main_c_14 (constantI S_ 32 0#32),
    StableHlo.unary main_c_14 main_v66 (broadcastInDim S850000 ![] bcast_S_S850000 : (⟨S_, .i32⟩ : BufTy).Contents (Elt F) → (⟨S850000, .i32⟩ : BufTy).Contents (Elt F)),
    StableHlo.binary main_v55 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v68 (broadcastInDim S850000 ![] bcast_S_S850000 : (⟨S_, .i32⟩ : BufTy).Contents (Elt F) → (⟨S850000, .i32⟩ : BufTy).Contents (Elt F)),
    StableHlo.binary main_v55 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v55 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v65 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_16 (constantI S_ 32 0#32),
    StableHlo.unary main_c_16 main_v73 (broadcastInDim S850000 ![] bcast_S_S850000 : (⟨S_, .i32⟩ : BufTy).Contents (Elt F) → (⟨S850000, .i32⟩ : BufTy).Contents (Elt F)),
    StableHlo.binary main_v56 main_v73 main_v74 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v75 (broadcastInDim S850000 ![] bcast_S_S850000 : (⟨S_, .i32⟩ : BufTy).Contents (Elt F) → (⟨S850000, .i32⟩ : BufTy).Contents (Elt F)),
    StableHlo.binary main_v56 main_v75 main_v76 (addi : (⟨S850000, .i32⟩ : BufTy).Contents (Elt F) → (⟨S850000, .i32⟩ : BufTy).Contents (Elt F) → (⟨S850000, .i32⟩ : BufTy).Contents (Elt F)),
    StableHlo.ternary main_v74 main_v76 main_v56 main_v77 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v77 main_v78 (broadcastInDim S850000x1 ![0] bcast_S850000_S850000x1_0 : (⟨S850000, .i32⟩ : BufTy).Contents (Elt F) → (⟨S850000x1, .i32⟩ : BufTy).Contents (Elt F)),
    StableHlo.binary main_v65 main_v78 main_v79 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v72 main_v79 main_v80 (mulf : (⟨S850000, .f32⟩ : BufTy).Contents (Elt F) → (⟨S850000, .f32⟩ : BufTy).Contents (Elt F) → (⟨S850000, .f32⟩ : BufTy).Contents (Elt F)) ]

/-- The operations 42 … 60 of `ops1`. -/
abbrev ops1d : List (HloOp τ sig (Elt F)) :=
  [ StableHlo.nullary main_c_18 (constantI S_ 32 0#32),
    StableHlo.unary main_c_18 main_v81 (broadcastInDim S850000 ![] bcast_S_S850000 : (⟨S_, .i32⟩ : BufTy).Contents (Elt F) → (⟨S850000, .i32⟩ : BufTy).Contents (Elt F)),
    StableHlo.binary main_v55 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v83 (broadcastInDim S850000 ![] bcast_S_S850000 : (⟨S_, .i32⟩ : BufTy).Contents (Elt F) → (⟨S850000, .i32⟩ : BufTy).Contents (Elt F)),
    StableHlo.binary main_v55 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v55 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v53 main_v86 main_v87 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v80 main_v88 (broadcastInDim S850000x1 ![0] bcast_S850000_S850000x1_0 : (⟨S850000, .f32⟩ : BufTy).Contents (Elt F) → (⟨S850000x1, .f32⟩ : BufTy).Contents (Elt F)),
    StableHlo.unary main_v88 main_v89 (broadcastInDim S850000x256 ![0, 1] bcast_S850000x1_S850000x256_0_1 : (⟨S850000x1, .f32⟩ : BufTy).Contents (Elt F) → (⟨S850000x256, .f32⟩ : BufTy).Contents (Elt F)),
    StableHlo.binary main_v87 main_v89 main_v90 (mulf : (⟨S850000x256, .f32⟩ : BufTy).Contents (Elt F) → (⟨S850000x256, .f32⟩ : BufTy).Contents (Elt F) → (⟨S850000x256, .f32⟩ : BufTy).Contents (Elt F)),
    StableHlo.nullary main_cst_20 (constant S_ .f32 0x00000000#32),
    StableHlo.unary main_cst_20 main_v91 (broadcastInDim S50000x256 ![] bcast_S_S50000x256 : (⟨S_, .f32⟩ : BufTy).Contents (Elt F) → (⟨S50000x256, .f32⟩ : BufTy).Contents (Elt F)),
    StableHlo.unary main_v56 main_v92 (broadcastInDim S850000x1 ![0] bcast_S850000_S850000x1_0 : (⟨S850000, .i32⟩ : BufTy).Contents (Elt F) → (⟨S850000x1, .i32⟩ : BufTy).Contents (Elt F)),
    StableHlo.ternary main_v91 main_v92 main_v90 main_v93 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg9 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S50000x256 ![0, 1] bcast_S1x256_S50000x256_0_1 : (⟨S1x256, .f32⟩ : BufTy).Contents (Elt F) → (⟨S50000x256, .f32⟩ : BufTy).Contents (Elt F)),
    StableHlo.binary main_v93 main_v95 main_v96 (addf : (⟨S50000x256, .f32⟩ : BufTy).Contents (Elt F) → (⟨S50000x256, .f32⟩ : BufTy).Contents (Elt F) → (⟨S50000x256, .f32⟩ : BufTy).Contents (Elt F)) ]

theorem ops0_cut : (ops0 : List (HloOp τ sig (Elt F))) = ops0a ++ ops0b ++ ops0c ++ ops0d := rfl
theorem ops1_cut : (ops1 : List (HloOp τ sig (Elt F))) = ops1a ++ ops1b ++ ops1c ++ ops1d := rfl

end Cert.ReferenceIdeal.RefOps

end
-- ==== Proof.RefRun.lean ====
/- The reference program's run, read back through its list of operations (RefOps): @main is the straight line of
   those operations, so every weakly fair execution from a memory with zero counters terminates with each buffer
   at the operations' fold over the launch contents; and no operation writes one of the twelve arguments' buffers,
   which therefore end as they began. -/
import proofs.«180160_j43533788512795_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line of its operations

Each printed part of @main is the straight line of its own list: a called function's body is its operations in
order over the call's record, and sequencing is associative with the return its unit. The three parts run one after
the other are then the concatenation run as one. -/

set_option maxRecDepth 4096 in
theorem part0_eq (c : Dev nD) : main_part0 (F := F) c = seq RefOps.ops0 := by
  simp only [main_part0, fn_leaky_relu.body, fn_where.body, fn_where_0.body, seq, bind_assoc, pure_bind]
  rfl

set_option maxRecDepth 4096 in
theorem part1_eq (c : Dev nD) : main_part1 (F := F) c = seq RefOps.ops1 := by
  simp only [main_part1, fn_where_0.body, seq, bind_assoc, pure_bind]
  rfl

set_option maxRecDepth 4096 in
theorem part2_eq (c : Dev nD) : main_part2 (F := F) c = seq RefOps.ops2 := by
  simp only [main_part2, fn_leaky_relu.body, fn_where.body, seq, bind_assoc, pure_bind]

theorem main_eq (c : Dev nD) : main (F := F) c = seq RefOps.ops :=
  calc main (F := F) c
      = (main_part0 c >>= fun _ => main_part1 c >>= fun _ => main_part2 c) := rfl
    _ = (seq RefOps.ops0 >>= fun _ => seq RefOps.ops1 >>= fun _ => seq RefOps.ops2) := by
          rw [part0_eq, part1_eq, part2_eq]
    _ = (seq (RefOps.ops0 ++ RefOps.ops1) >>= fun _ => seq RefOps.ops2) := by
          rw [seq_append RefOps.ops0 RefOps.ops1, bind_assoc]
    _ = seq RefOps.ops := (seq_append (RefOps.ops0 ++ RefOps.ops1) RefOps.ops2).symm

/-! ## The run's side conditions

The signature scopes no buffer and no semaphore; every operation touches TensorCore references only; every
operation determines the contents of what it writes. -/

theorem scopedRefs_eq : (Finset.univ.filter fun b : Ref sig .tc => b.isScoped) = ∅ := by decide
theorem scopedSems_eq : (Finset.univ.filter fun sm : SemLoc sig => sm.isScoped .tc) = ∅ := by decide

theorem ops0_sub : (RefOps.ops0 : List (HloOp τ sig (Elt F))).Forall fun op => op.bufs ⊆ tcRefs τ sig := by
  repeat' apply And.intro
  all_goals simp only [List.Forall, nullary_bufs_sub, unary_bufs_sub, binary_bufs_sub, ternary_bufs_sub, reshape_bufs_sub]

theorem ops1_sub : (RefOps.ops1 : List (HloOp τ sig (Elt F))).Forall fun op => op.bufs ⊆ tcRefs τ sig := by
  repeat' apply And.intro
  all_goals simp only [List.Forall, nullary_bufs_sub, unary_bufs_sub, binary_bufs_sub, ternary_bufs_sub, reshape_bufs_sub]

theorem ops2_sub : (RefOps.ops2 : List (HloOp τ sig (Elt F))).Forall fun op => op.bufs ⊆ tcRefs τ sig := by
  repeat' apply And.intro
  all_goals simp only [List.Forall, nullary_bufs_sub, unary_bufs_sub, binary_bufs_sub, ternary_bufs_sub, reshape_bufs_sub]

theorem ops_sub : (RefOps.ops : List (HloOp τ sig (Elt F))).Forall fun op => op.bufs ⊆ tcRefs τ sig :=
  List.forall_append.mpr ⟨List.forall_append.mpr ⟨ops0_sub, ops1_sub⟩, ops2_sub⟩

theorem ops0_fresh : (RefOps.ops0 : List (HloOp τ sig (Elt F))).Forall fun op => op.fresh = ∅ := by
  repeat' apply And.intro
  all_goals rfl

theorem ops1_fresh : (RefOps.ops1 : List (HloOp τ sig (Elt F))).Forall fun op => op.fresh = ∅ := by
  repeat' apply And.intro
  all_goals rfl

theorem ops2_fresh : (RefOps.ops2 : List (HloOp τ sig (Elt F))).Forall fun op => op.fresh = ∅ := by
  repeat' apply And.intro
  all_goals rfl

theorem ops_fresh : ∀ op ∈ (RefOps.ops : List (HloOp τ sig (Elt F))), op.fresh = ∅ :=
  List.forall_iff_forall_mem.mp (List.forall_append.mpr ⟨List.forall_append.mpr ⟨ops0_fresh, ops1_fresh⟩, ops2_fresh⟩)

/-! ## The run -/

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after RefOps.ops (launchContents m c) (b : DevRef τ sig) :=
  run_seq scopedRefs_eq scopedSems_eq defs main (fun _ => RefOps.ops) main_eq (fun _ => ops_sub) m ρ (fun _ => ops_fresh)

/-! ## The arguments are kept

The twelve arguments' buffers are the references of index 0 … 11; each operation writes exactly one buffer, a
value's, of index twelve or more. So no operation writes an argument's buffer, and the fold leaves it as it was. -/

/-- An operation whose one written buffer has index twelve or more writes no buffer of smaller index. -/
theorem idx_ge_of_writes {op : HloOp τ sig (Elt F)} {y : Ref sig .tc} (hw : op.writes = {Proc.devRef .tc y})
    (hy : 12 ≤ y.idx.val) : ∀ r : Ref sig .tc, Proc.devRef (τ := τ) .tc r ∈ op.writes → 12 ≤ r.idx.val := by
  intro r h
  rw [hw, Finset.mem_singleton] at h
  exact (Proc.devRef_injective _ h) ▸ hy

theorem ops0_writes : (RefOps.ops0 : List (HloOp τ sig (Elt F))).Forall fun op =>
    ∀ r : Ref sig .tc, Proc.devRef (τ := τ) .tc r ∈ op.writes → 12 ≤ r.idx.val := by
  repeat' apply And.intro
  all_goals exact idx_ge_of_writes rfl (by decide)

theorem ops1_writes : (RefOps.ops1 : List (HloOp τ sig (Elt F))).Forall fun op =>
    ∀ r : Ref sig .tc, Proc.devRef (τ := τ) .tc r ∈ op.writes → 12 ≤ r.idx.val := by
  repeat' apply And.intro
  all_goals exact idx_ge_of_writes rfl (by decide)

theorem ops2_writes : (RefOps.ops2 : List (HloOp τ sig (Elt F))).Forall fun op =>
    ∀ r : Ref sig .tc, Proc.devRef (τ := τ) .tc r ∈ op.writes → 12 ≤ r.idx.val := by
  repeat' apply And.intro
  all_goals exact idx_ge_of_writes rfl (by decide)

theorem ops_writes : ∀ op ∈ (RefOps.ops : List (HloOp τ sig (Elt F))),
    ∀ r : Ref sig .tc, Proc.devRef (τ := τ) .tc r ∈ op.writes → 12 ≤ r.idx.val :=
  List.forall_iff_forall_mem.mp (List.forall_append.mpr ⟨List.forall_append.mpr ⟨ops0_writes, ops1_writes⟩, ops2_writes⟩)

/-- A buffer of index below twelve is written by no operation: after the whole line it holds what it held. -/
theorem kept (r : Ref sig .tc) (hr : r.idx.val < 12) (V : Valuation τ sig (Elt F)) :
    after RefOps.ops V (r : DevRef τ sig) = V (r : DevRef τ sig) :=
  after_of_forall_not_mem _ V fun op hop hb => absurd (ops_writes op hop r hb) (Nat.not_le.mpr hr)

theorem kept_arg0 (V : Valuation τ sig (Elt F)) :
    after RefOps.ops V (main_arg0 : DevRef τ sig) = V (main_arg0 : DevRef τ sig) := kept main_arg0 (by decide) V
theorem kept_arg1 (V : Valuation τ sig (Elt F)) :
    after RefOps.ops V (main_arg1 : DevRef τ sig) = V (main_arg1 : DevRef τ sig) := kept main_arg1 (by decide) V
theorem kept_arg2 (V : Valuation τ sig (Elt F)) :
    after RefOps.ops V (main_arg2 : DevRef τ sig) = V (main_arg2 : DevRef τ sig) := kept main_arg2 (by decide) V
theorem kept_arg3 (V : Valuation τ sig (Elt F)) :
    after RefOps.ops V (main_arg3 : DevRef τ sig) = V (main_arg3 : DevRef τ sig) := kept main_arg3 (by decide) V
theorem kept_arg4 (V : Valuation τ sig (Elt F)) :
    after RefOps.ops V (main_arg4 : DevRef τ sig) = V (main_arg4 : DevRef τ sig) := kept main_arg4 (by decide) V
theorem kept_arg5 (V : Valuation τ sig (Elt F)) :
    after RefOps.ops V (main_arg5 : DevRef τ sig) = V (main_arg5 : DevRef τ sig) := kept main_arg5 (by decide) V
theorem kept_arg6 (V : Valuation τ sig (Elt F)) :
    after RefOps.ops V (main_arg6 : DevRef τ sig) = V (main_arg6 : DevRef τ sig) := kept main_arg6 (by decide) V
theorem kept_arg7 (V : Valuation τ sig (Elt F)) :
    after RefOps.ops V (main_arg7 : DevRef τ sig) = V (main_arg7 : DevRef τ sig) := kept main_arg7 (by decide) V
theorem kept_arg8 (V : Valuation τ sig (Elt F)) :
    after RefOps.ops V (main_arg8 : DevRef τ sig) = V (main_arg8 : DevRef τ sig) := kept main_arg8 (by decide) V
theorem kept_arg9 (V : Valuation τ sig (Elt F)) :
    after RefOps.ops V (main_arg9 : DevRef τ sig) = V (main_arg9 : DevRef τ sig) := kept main_arg9 (by decide) V
theorem kept_arg10 (V : Valuation τ sig (Elt F)) :
    after RefOps.ops V (main_arg10 : DevRef τ sig) = V (main_arg10 : DevRef τ sig) := kept main_arg10 (by decide) V
theorem kept_arg11 (V : Valuation τ sig (Elt F)) :
    after RefOps.ops V (main_arg11 : DevRef τ sig) = V (main_arg11 : DevRef τ sig) := kept main_arg11 (by decide) V

end Cert.ReferenceIdeal.RefRun

end
-- ==== Proof.RAgg.lean ====
/-
  The graph aggregation, in this program's own vocabulary. From the edge list e : i32[2, 800000]: the source and
  target node of each of the 850000 edges (the given ones followed by one self-loop per node), the degree of each
  node (a scatter-add of ones at the targets), its inverse square root where the degree is positive and zero
  elsewhere, the edge weight (the product of that at the edge's two ends, each index first wrapped: a negative
  index has 50000 added), and the aggregation of a node-feature matrix h: gather the source rows, scale each by
  the edge's weight, scatter-add into the target rows.
-/
import proofs.«180160_j43533788512795_1_alg».proof.Proof.Gen.ReferenceIdeal
import Idealize.ShloMosaic.PureOps.Ideal

noncomputable section

namespace Cert.ReferenceIdeal.RAgg

open Idealize.ShloMosaic Cert.ReferenceIdeal
open Cert.ReferenceIdeal.Facts₀

/-- Row `r` of the edge list with the node numbers 0 … 49999 appended. -/
def ends (r : Fin 2 → Nat) (hr : S2x800000.Slices r S1x800000) (e : IVec S2x800000 32) : IVec S850000 32 :=
  concatenate S850000 0 [⟨S800000, shapeCast S800000 (extractStridedSlice S1x800000 r e hr) shapeCasts_S1x800000_S800000⟩, ⟨S50000, iotaInDim S50000 32 0⟩] concatenates_S800000_S50000_S850000_d0

/-- The edges' source nodes. -/
def src (e : IVec S2x800000 32) : IVec S850000 32 := ends ![0, 0] slices_S2x800000_S1x800000_0_0 e
/-- The edges' target nodes. -/
def dst (e : IVec S2x800000 32) : IVec S850000 32 := ends ![1, 0] slices_S2x800000_S1x800000_1_0 e

/-- An index vector wrapped (a negative entry has 50000 added) and given a trailing unit axis. -/
def wrap (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- Each node's degree: ones added at the edges' targets. -/
def deg (e : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 (dst e))
    (broadcastInDim S850000 ![] bcast_S_S850000 (constant (F := Ideal) S_ .f32 0x3F800000#32))

/-- The inverse square root of the degree where it is positive, zero elsewhere. -/
def dis (e : IVec S2x800000 32) : FVec Ideal S50000 .f32 :=
  select (cmpf (F := Ideal) .ogt (deg e) (broadcastInDim S50000 ![] bcast_S_S50000 (constant (F := Ideal) S_ .f32 0x00000000#32)))
    (Host.rsqrt (F := Ideal) (deg e)) (broadcastInDim S50000 ![] bcast_S_S50000 (constant (F := Ideal) S_ .f32 0x00000000#32))

/-- An edge weight vector from the nodes' factors `ds` and the edges' two ends. -/
def normOf (ds : FVec Ideal S50000 .f32) (s d : IVec S850000 32) : FVec Ideal S850000 .f32 :=
  mulf (F := Ideal) (Host.gather gather_S50000_S850000x1_S850000_n_0_n_n_0_1_1 ds (wrap s))
    (Host.gather gather_S50000_S850000x1_S850000_n_0_n_n_0_1_1 ds (wrap d))

/-- Each edge's weight. -/
def norm (e : IVec S2x800000 32) : FVec Ideal S850000 .f32 := normOf (dis e) (src e) (dst e)

/-- The aggregation over given sources `s`, targets `d` and edge weights `n`: gather the source rows of `h`, scale
    each by its edge's weight, add into the target rows. -/
def aggOf (s d : IVec S850000 32) (n : FVec Ideal S850000 .f32) (h : FVec Ideal S50000x256 .f32) : FVec Ideal S50000x256 .f32 :=
  Host.scatterAdd (F := Ideal) scatter_S50000x256_S850000x1_S850000x256_1_0_0_1
    (broadcastInDim S50000x256 ![] bcast_S_S50000x256 (constant (F := Ideal) S_ .f32 0x00000000#32))
    (broadcastInDim S850000x1 ![0] bcast_S850000_S850000x1_0 d)
    (mulf (F := Ideal) (Host.gather gather_S50000x256_S850000x1_S850000x256_1_0_n_n_0_1_1256 h (wrap s))
      (broadcastInDim S850000x256 ![0, 1] bcast_S850000x1_S850000x256_0_1 (broadcastInDim S850000x1 ![0] bcast_S850000_S850000x1_0 n)))

/-- The aggregation of a node-feature matrix over the graph. -/
def agg (e : IVec S2x800000 32) (h : FVec Ideal S50000x256 .f32) : FVec Ideal S50000x256 .f32 :=
  aggOf (src e) (dst e) (norm e) h

end Cert.ReferenceIdeal.RAgg

end
-- ==== Proof.RefAlg.lean ====
/-
  The reference program's result as one term of its eleven arrays, and that term as the specification's function.
  The pieces: each of the three host matrix products is the plain matrix product (entry (p, q) the sum over l of
  x (p, l) · w (l, q)); a bias reshaped to one row and repeated down the rows, then added, adds b q to entry (p, q);
  the rectifier's compare / multiply / select against two broadcast scalars is, entry by entry, the specification's
  choice between the entry and the slope times the entry; the entrywise difference and product are the
  specification's. The aggregation enters as one function of the edge list and a node-feature matrix and is never
  opened.
-/
import proofs.«180160_j43533788512795_1_alg».proof.Proof.Gen.ReferenceIdeal
import proofs.«180160_j43533788512795_1_alg».proof.Proof.Spec
import proofs.«180160_j43533788512795_1_alg».proof.Proof.RAgg
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

open scoped BigOperators

namespace Cert.ReferenceIdeal.RefAlg

open Idealize.ShloMosaic Idealize.ShloMosaic.ValueIdx Idealize.SL.Sem
open Cert.ReferenceIdeal
open Cert.ReferenceIdeal.Facts₀

/-! ## The three matrix products

For each product: the left operand is read at (row of the result index, contracted coordinate), the right operand at
(contracted coordinate, column of the result index); the contraction runs over one axis, so its sum is a sum over
that axis's coordinate. -/

abbrev D1 := dot_S50000x128_S128x256_S50000x256_1_0_0_1_n_n
abbrev D2 := dot_S50000x256_S256x256_S50000x256_1_0_0_1_n_n
abbrev D3 := dot_S50000x256_S256x2_S50000x2_1_0_0_1_n_n

theorem d1_lhs0 (j : S50000x256.Idx) (k : D1.contr.Idx) : (D1.lhsIdx j k 0 : ℕ) = (j 0 : ℕ) := by
  simp [DotDims.lhsIdx, D1, dot_S50000x128_S128x256_S50000x256_1_0_0_1_n_n]; rfl
theorem d1_lhs1 (j : S50000x256.Idx) (k : D1.contr.Idx) : (D1.lhsIdx j k 1 : ℕ) = (k ⟨0, by decide⟩ : ℕ) := by
  simp [DotDims.lhsIdx, D1, dot_S50000x128_S128x256_S50000x256_1_0_0_1_n_n]; rfl
theorem d1_rhs0 (j : S50000x256.Idx) (k : D1.contr.Idx) : (D1.rhsIdx j k 0 : ℕ) = (k ⟨0, by decide⟩ : ℕ) := by
  simp [DotDims.rhsIdx, D1, dot_S50000x128_S128x256_S50000x256_1_0_0_1_n_n]; rfl
theorem d1_rhs1 (j : S50000x256.Idx) (k : D1.contr.Idx) : (D1.rhsIdx j k 1 : ℕ) = (j 1 : ℕ) := by
  simp [DotDims.rhsIdx, D1, dot_S50000x128_S128x256_S50000x256_1_0_0_1_n_n]; rfl

/-- The host product over these axes is the plain matrix product: entry (p, q) sums x (p, l) · w (l, q) over the 128 values of l. -/
theorem mm1 (x : FVec Ideal S50000x128 .f32) (w : FVec Ideal S128x256 .f32) :
    Host.dotGeneral D1 none x w = Cert.Spec.mm x w := by
  funext i
  obtain ⟨p, q, rfl⟩ : ∃ (p : Fin 50000) (q : Fin 256), i = ix2 p q := ⟨i 0, i 1, eq_ix2 i⟩
  show FloatOps.dotGeneral D1 none .single x w (ix2 p q) = ∑ l : Fin 128, x (ix2 p l) * w (ix2 l q)
  rw [Ideal.dotGeneral_apply, ← Equiv.sum_comp (contrEquiv1 D1 128 rfl rfl).symm]
  refine Finset.sum_congr rfl fun l _ => ?_
  have hl := contrEquiv1_symm_val D1 128 rfl rfl l
  congr 1
  · congr 1; funext a; apply Fin.ext
    match a with
    | ⟨0, _⟩ => exact d1_lhs0 _ _
    | ⟨1, _⟩ => exact (d1_lhs1 _ _).trans hl
  · congr 1; funext a; apply Fin.ext
    match a with
    | ⟨0, _⟩ => exact (d1_rhs0 _ _).trans hl
    | ⟨1, _⟩ => exact d1_rhs1 _ _

theorem d2_lhs0 (j : S50000x256.Idx) (k : D2.contr.Idx) : (D2.lhsIdx j k 0 : ℕ) = (j 0 : ℕ) := by
  simp [DotDims.lhsIdx, D2, dot_S50000x256_S256x256_S50000x256_1_0_0_1_n_n]; rfl
theorem d2_lhs1 (j : S50000x256.Idx) (k : D2.contr.Idx) : (D2.lhsIdx j k 1 : ℕ) = (k ⟨0, by decide⟩ : ℕ) := by
  simp [DotDims.lhsIdx, D2, dot_S50000x256_S256x256_S50000x256_1_0_0_1_n_n]; rfl
theorem d2_rhs0 (j : S50000x256.Idx) (k : D2.contr.Idx) : (D2.rhsIdx j k 0 : ℕ) = (k ⟨0, by decide⟩ : ℕ) := by
  simp [DotDims.rhsIdx, D2, dot_S50000x256_S256x256_S50000x256_1_0_0_1_n_n]; rfl
theorem d2_rhs1 (j : S50000x256.Idx) (k : D2.contr.Idx) : (D2.rhsIdx j k 1 : ℕ) = (j 1 : ℕ) := by
  simp [DotDims.rhsIdx, D2, dot_S50000x256_S256x256_S50000x256_1_0_0_1_n_n]; rfl

/-- The host product over these axes is the plain matrix product: entry (p, q) sums x (p, l) · w (l, q) over the 256 values of l. -/
theorem mm2 (x : FVec Ideal S50000x256 .f32) (w : FVec Ideal S256x256 .f32) :
    Host.dotGeneral D2 none x w = Cert.Spec.mm x w := by
  funext i
  obtain ⟨p, q, rfl⟩ : ∃ (p : Fin 50000) (q : Fin 256), i = ix2 p q := ⟨i 0, i 1, eq_ix2 i⟩
  show FloatOps.dotGeneral D2 none .single x w (ix2 p q) = ∑ l : Fin 256, x (ix2 p l) * w (ix2 l q)
  rw [Ideal.dotGeneral_apply, ← Equiv.sum_comp (contrEquiv1 D2 256 rfl rfl).symm]
  refine Finset.sum_congr rfl fun l _ => ?_
  have hl := contrEquiv1_symm_val D2 256 rfl rfl l
  congr 1
  · congr 1; funext a; apply Fin.ext
    match a with
    | ⟨0, _⟩ => exact d2_lhs0 _ _
    | ⟨1, _⟩ => exact (d2_lhs1 _ _).trans hl
  · congr 1; funext a; apply Fin.ext
    match a with
    | ⟨0, _⟩ => exact (d2_rhs0 _ _).trans hl
    | ⟨1, _⟩ => exact d2_rhs1 _ _

theorem d3_lhs0 (j : S50000x2.Idx) (k : D3.contr.Idx) : (D3.lhsIdx j k 0 : ℕ) = (j 0 : ℕ) := by
  simp [DotDims.lhsIdx, D3, dot_S50000x256_S256x2_S50000x2_1_0_0_1_n_n]; rfl
theorem d3_lhs1 (j : S50000x2.Idx) (k : D3.contr.Idx) : (D3.lhsIdx j k 1 : ℕ) = (k ⟨0, by decide⟩ : ℕ) := by
  simp [DotDims.lhsIdx, D3, dot_S50000x256_S256x2_S50000x2_1_0_0_1_n_n]; rfl
theorem d3_rhs0 (j : S50000x2.Idx) (k : D3.contr.Idx) : (D3.rhsIdx j k 0 : ℕ) = (k ⟨0, by decide⟩ : ℕ) := by
  simp [DotDims.rhsIdx, D3, dot_S50000x256_S256x2_S50000x2_1_0_0_1_n_n]; rfl
theorem d3_rhs1 (j : S50000x2.Idx) (k : D3.contr.Idx) : (D3.rhsIdx j k 1 : ℕ) = (j 1 : ℕ) := by
  simp [DotDims.rhsIdx, D3, dot_S50000x256_S256x2_S50000x2_1_0_0_1_n_n]; rfl

/-- The host product over these axes is the plain matrix product: entry (p, q) sums x (p, l) · w (l, q) over the 256 values of l. -/
theorem mm3 (x : FVec Ideal S50000x256 .f32) (w : FVec Ideal S256x2 .f32) :
    Host.dotGeneral D3 none x w = Cert.Spec.mm x w := by
  funext i
  obtain ⟨p, q, rfl⟩ : ∃ (p : Fin 50000) (q : Fin 2), i = ix2 p q := ⟨i 0, i 1, eq_ix2 i⟩
  show FloatOps.dotGeneral D3 none .single x w (ix2 p q) = ∑ l : Fin 256, x (ix2 p l) * w (ix2 l q)
  rw [Ideal.dotGeneral_apply, ← Equiv.sum_comp (contrEquiv1 D3 256 rfl rfl).symm]
  refine Finset.sum_congr rfl fun l _ => ?_
  have hl := contrEquiv1_symm_val D3 256 rfl rfl l
  congr 1
  · congr 1; funext a; apply Fin.ext
    match a with
    | ⟨0, _⟩ => exact d3_lhs0 _ _
    | ⟨1, _⟩ => exact (d3_lhs1 _ _).trans hl
  · congr 1; funext a; apply Fin.ext
    match a with
    | ⟨0, _⟩ => exact (d3_rhs0 _ _).trans hl
    | ⟨1, _⟩ => exact d3_rhs1 _ _

/-! ## The bias, the rectifier, the entrywise difference and product -/

/-- A row vector reshaped to one row and repeated down 50000 rows. -/
abbrev rows256 (b : FVec Ideal S256 .f32) : FVec Ideal S50000x256 .f32 :=
  broadcastInDim S50000x256 ![0, 1] bcast_S1x256_S50000x256_0_1 (broadcastInDim S1x256 ![1] bcast_S256_S1x256_1 b)
/-- The same for a row of two entries. -/
abbrev rows2 (b : FVec Ideal S2 .f32) : FVec Ideal S50000x2 .f32 :=
  broadcastInDim S50000x2 ![0, 1] bcast_S1x2_S50000x2_0_1 (broadcastInDim S1x2 ![1] bcast_S2_S1x2_1 b)
/-- The rectifier as the program spells it: compare with the zero array, multiply by the slope array, select. -/
abbrev rect (x : FVec Ideal S50000x256 .f32) : FVec Ideal S50000x256 .f32 :=
  select (cmpf .oge x (broadcastInDim S50000x256 ![] bcast_S_S50000x256 (constant S_ .f32 0x00000000#32))) x
    (mulf (broadcastInDim S50000x256 ![] bcast_S_S50000x256 (id (constant S_ .f32 0x3C23D70A#32))) x)

/-- Entry (p, q) of the repeated row is b q: the first broadcast reads row 0 of the one-row matrix, the second
    reads the vector at the column. -/
theorem bias256 (x : FVec Ideal S50000x256 .f32) (b : FVec Ideal S256 .f32) :
    addf x (rows256 b) = Cert.Spec.addRow x b := by
  funext i
  obtain ⟨p, q, rfl⟩ : ∃ (p : Fin 50000) (q : Fin 256), i = ix2 p q := ⟨i 0, i 1, eq_ix2 i⟩
  show x (ix2 p q) + broadcastInDim S50000x256 ![0, 1] bcast_S1x256_S50000x256_0_1 (broadcastInDim S1x256 ![1] bcast_S256_S1x256_1 b) (ix2 p q)
    = x (ix2 p q) + b (ix1 q)
  rw [broadcastInDim_oneRow_apply,
    broadcastInDim_apply ![1] bcast_S256_S1x256_1 b (ix2 (0 : Fin 1) q) (ix1 q) (fun a => by
      match a with
      | ⟨0, _⟩ => rfl)]

theorem bias2 (x : FVec Ideal S50000x2 .f32) (b : FVec Ideal S2 .f32) :
    addf x (rows2 b) = Cert.Spec.addRow x b := by
  funext i
  obtain ⟨p, q, rfl⟩ : ∃ (p : Fin 50000) (q : Fin 2), i = ix2 p q := ⟨i 0, i 1, eq_ix2 i⟩
  show x (ix2 p q) + broadcastInDim S50000x2 ![0, 1] bcast_S1x2_S50000x2_0_1 (broadcastInDim S1x2 ![1] bcast_S2_S1x2_1 b) (ix2 p q)
    = x (ix2 p q) + b (ix1 q)
  rw [broadcastInDim_oneRow_apply,
    broadcastInDim_apply ![1] bcast_S2_S1x2_1 b (ix2 (0 : Fin 1) q) (ix1 q) (fun a => by
      match a with
      | ⟨0, _⟩ => rfl)]

/-- The rectifier: both broadcast scalars read their constant at every entry, so entry by entry the select is the
    specification's. -/
theorem rect_eq (x : FVec Ideal S50000x256 .f32) : rect x = Cert.Spec.lrelu x := by
  funext i
  rfl

theorem sub_eq (x y : FVec Ideal S50000x128 .f32) : subf x y = Cert.Spec.sub x y := rfl
theorem mul_eq (x y : FVec Ideal S50000x2 .f32) : mulf x y = Cert.Spec.mul x y := rfl

/-! ## The program's result as one term of its eleven arrays -/

/-- The first layer of either branch, in the program's operations. -/
def first (x : FVec Ideal S50000x128 .f32) (Win : FVec Ideal S128x256 .f32) (bin : FVec Ideal S256 .f32) :
    FVec Ideal S50000x256 .f32 :=
  rect (addf (Host.dotGeneral D1 none x Win) (rows256 bin))

/-- The last layer of either branch, in the program's operations. -/
def last (x : FVec Ideal S50000x256 .f32) (Wout : FVec Ideal S256x2 .f32) (bout : FVec Ideal S2 .f32) :
    FVec Ideal S50000x2 .f32 :=
  addf (Host.dotGeneral D3 none x Wout) (rows2 bout)

/-- One graph layer in the program's operations: the product with the layer's matrix, the aggregation, the bias. -/
def layer (e : IVec S2x800000 32) (x : FVec Ideal S50000x256 .f32) (W : FVec Ideal S256x256 .f32) (b : FVec Ideal S256 .f32) :
    FVec Ideal S50000x256 .f32 :=
  addf (RAgg.agg e (Host.dotGeneral D2 none x W)) (rows256 b)

/-- The whole program's result. -/
def refTerm (mf feat : FVec Ideal S50000x128 .f32) (e : IVec S2x800000 32) (Win : FVec Ideal S128x256 .f32)
    (bin : FVec Ideal S256 .f32) (Wg1 : FVec Ideal S256x256 .f32) (bg1 : FVec Ideal S256 .f32)
    (Wg2 : FVec Ideal S256x256 .f32) (bg2 : FVec Ideal S256 .f32) (Wout : FVec Ideal S256x2 .f32)
    (bout : FVec Ideal S2 .f32) : FVec Ideal S50000x2 .f32 :=
  mulf (last (layer e (layer e (first mf Win bin) Wg1 bg1) Wg2 bg2) Wout bout)
    (last (first (subf feat mf) Win bin) Wout bout)

theorem first_eq (x : FVec Ideal S50000x128 .f32) (Win : FVec Ideal S128x256 .f32) (bin : FVec Ideal S256 .f32) :
    first x Win bin = Cert.Spec.layerIn x Win bin := by
  unfold first Cert.Spec.layerIn
  rw [mm1, bias256, rect_eq]

theorem last_eq (x : FVec Ideal S50000x256 .f32) (Wout : FVec Ideal S256x2 .f32) (bout : FVec Ideal S2 .f32) :
    last x Wout bout = Cert.Spec.addRow (Cert.Spec.mm x Wout) bout := by
  unfold last
  rw [mm3, bias2]

theorem layer_eq (e : IVec S2x800000 32) (x : FVec Ideal S50000x256 .f32) (W : FVec Ideal S256x256 .f32) (b : FVec Ideal S256 .f32) :
    layer e x W b = Cert.Spec.addRow (RAgg.agg e (Cert.Spec.mm x W)) b := by
  unfold layer
  rw [mm2, bias256]

/-- The program's term is the specification's function of the arrays. -/
theorem refTerm_eq (mf feat : FVec Ideal S50000x128 .f32) (e : IVec S2x800000 32) (Win : FVec Ideal S128x256 .f32)
    (bin : FVec Ideal S256 .f32) (Wg1 : FVec Ideal S256x256 .f32) (bg1 : FVec Ideal S256 .f32)
    (Wg2 : FVec Ideal S256x256 .f32) (bg2 : FVec Ideal S256 .f32) (Wout : FVec Ideal S256x2 .f32)
    (bout : FVec Ideal S2 .f32) :
    refTerm mf feat e Win bin Wg1 bg1 Wg2 bg2 Wout bout
      = Cert.Spec.out (RAgg.agg e) mf feat Win bin Wg1 bg1 Wg2 bg2 Wout bout := by
  unfold refTerm Cert.Spec.out
  rw [last_eq, last_eq, layer_eq, layer_eq, first_eq, first_eq, sub_eq, mul_eq]

end Cert.ReferenceIdeal.RefAlg
end
-- ==== Proof.RefRead.lean ====
/-
  The reference program's result buffer, read through its operations. The operations are read a short consecutive
  list at a time, each from ARBITRARY contents W: which buffer the list writes with which operations of which
  buffers, and which buffers it leaves alone. Chained from the launch contents: the first list ends with the first
  layer of the main branch; the next three compute the edges' sources and targets, the node factors and the edge
  weights and gather and scale the first graph layer's product; the fifth adds the scattered sum and the bias and
  multiplies by the second layer's matrix; the next three do the same computation of the edge data over again
  (the same operations of the same edge list, hence the same values) and the second aggregation; the last list is
  the two output layers and their entrywise product.
-/
import proofs.«180160_j43533788512795_1_alg».proof.Proof.RefOps
import proofs.«180160_j43533788512795_1_alg».proof.Proof.RefAlg
import proofs.«180160_j43533788512795_1_alg».proof.Proof.RAgg
import Idealize.ShloMosaic.Lib.StableHlo.Run
import Idealize.ShloMosaic.Lib.Pipeline.Frame

set_option maxRecDepth 16384

noncomputable section

namespace Cert.ReferenceIdeal.RefRead

open Idealize.ShloMosaic Idealize.ShloMosaic.TcCoe Idealize.SL.Sem Idealize.ShloMosaic.StableHlo
open Cert.ReferenceIdeal Cert.ReferenceIdeal.RefOps
open Cert.ReferenceIdeal.Facts₀

/-! ## The pieces of the edge data, over given vectors -/

/-- Row `r` of the edge list as a vector of 800000 node numbers. -/
def row (r : Fin 2 → Nat) (hr : S2x800000.Slices r S1x800000) (e : IVec S2x800000 32) : IVec S800000 32 :=
  shapeCast S800000 (extractStridedSlice S1x800000 r e hr) shapeCasts_S1x800000_S800000
/-- A row of the edge list with the node numbers 0 … 49999 appended. -/
def cat (v : IVec S800000 32) : IVec S850000 32 :=
  concatenate S850000 0 [⟨S800000, v⟩, ⟨S50000, iotaInDim S50000 32 0⟩] concatenates_S800000_S50000_S850000_d0
/-- The zero vector over the nodes. -/
abbrev zeros : FVec Ideal S50000 .f32 := broadcastInDim S50000 ![] bcast_S_S50000 (constant (F := Ideal) S_ .f32 0x00000000#32)
/-- The degrees from the target vector: ones added at the targets. -/
def degOf (d : IVec S850000 32) : FVec Ideal S50000 .f32 :=
  Host.scatterAdd (F := Ideal) scatter_S50000_S850000x1_S850000_n_0_0_1 zeros
    (broadcastInDim S850000x1 ![0] bcast_S850000_S850000x1_0 d)
    (broadcastInDim S850000 ![] bcast_S_S850000 (constant (F := Ideal) S_ .f32 0x3F800000#32))
/-- The node factors from the target vector: the inverse square root of the degree where positive, zero elsewhere. -/
def disOf (d : IVec S850000 32) : FVec Ideal S50000 .f32 :=
  select (cmpf (F := Ideal) .ogt (degOf d) zeros) (Host.rsqrt (F := Ideal) (degOf d)) zeros
/-- The zero matrix over nodes and features. -/
abbrev zeros256 : FVec Ideal S50000x256 .f32 := broadcastInDim S50000x256 ![] bcast_S_S50000x256 (constant (F := Ideal) S_ .f32 0x00000000#32)
/-- The gathered source rows of `h`, each scaled by its edge's weight. -/
def msgOf (s : IVec S850000 32) (n : FVec Ideal S850000 .f32) (h : FVec Ideal S50000x256 .f32) : FVec Ideal S850000x256 .f32 :=
  mulf (F := Ideal) (Host.gather gather_S50000x256_S850000x1_S850000x256_1_0_n_n_0_1_1256 h (RAgg.wrap s))
    (broadcastInDim S850000x256 ![0, 1] bcast_S850000x1_S850000x256_0_1 (broadcastInDim S850000x1 ![0] bcast_S850000_S850000x1_0 n))

theorem src_eq (e : IVec S2x800000 32) : cat (row ![0, 0] slices_S2x800000_S1x800000_0_0 e) = RAgg.src e := rfl
theorem dst_eq (e : IVec S2x800000 32) : cat (row ![1, 0] slices_S2x800000_S1x800000_1_0 e) = RAgg.dst e := rfl
theorem dis_eq (e : IVec S2x800000 32) : disOf (RAgg.dst e) = RAgg.dis e := rfl
/-- Scattering the scaled gathered rows into the zero matrix at the targets is the aggregation. -/
theorem agg_eq (s d : IVec S850000 32) (n : FVec Ideal S850000 .f32) (h : FVec Ideal S50000x256 .f32) :
    Host.scatterAdd (F := Ideal) scatter_S50000x256_S850000x1_S850000x256_1_0_0_1 zeros256
      (broadcastInDim S850000x1 ![0] bcast_S850000_S850000x1_0 d) (msgOf s n h) = RAgg.aggOf s d n h := rfl

/-! ## Each short list, from any contents `W` -/

section Lists

variable (W : Valuation τ sig (Elt Ideal))

abbrev eOf : IVec S2x800000 32 := W (Proc.devRef .tc main_arg2)

/-- the typed references of the two `where` calls are the buffers themselves: the select read through them -/
theorem sel21 (c : IVec S50000 1) (a b : FVec Ideal S50000 .f32) :
    @Eq (FVec Ideal S50000 .f32)
      ((TRef.of main_v21 : TRef sig ⟨S50000, .f32⟩).toBuf (Val := Elt Ideal)
        (select ((TRef.of main_v18 : TRef sig ⟨S50000, .i1⟩).ofBuf (Val := Elt Ideal) c)
          ((TRef.of main_v19 : TRef sig ⟨S50000, .f32⟩).ofBuf (Val := Elt Ideal) a)
          ((TRef.of main_v20 : TRef sig ⟨S50000, .f32⟩).ofBuf (Val := Elt Ideal) b)))
      (select c a b) := rfl
theorem sel65 (c : IVec S50000 1) (a b : FVec Ideal S50000 .f32) :
    @Eq (FVec Ideal S50000 .f32)
      ((TRef.of main_v65 : TRef sig ⟨S50000, .f32⟩).toBuf (Val := Elt Ideal)
        (select ((TRef.of main_v62 : TRef sig ⟨S50000, .i1⟩).ofBuf (Val := Elt Ideal) c)
          ((TRef.of main_v63 : TRef sig ⟨S50000, .f32⟩).ofBuf (Val := Elt Ideal) a)
          ((TRef.of main_v64 : TRef sig ⟨S50000, .f32⟩).ofBuf (Val := Elt Ideal) b)))
      (select c a b) := rfl

theorem a_v1 : @Eq (IVec S800000 32) (after ops0a W (Proc.devRef .tc main_v1)) (row ![0, 0] slices_S2x800000_S1x800000_0_0 (eOf W)) := by
  after_results <;> rfl
theorem a_v3 : @Eq (IVec S800000 32) (after ops0a W (Proc.devRef .tc main_v3)) (row ![1, 0] slices_S2x800000_S1x800000_1_0 (eOf W)) := by
  after_results <;> rfl
set_option maxHeartbeats 4000000 in
theorem a_v8 : @Eq (FVec Ideal S50000x256 .f32) (after ops0a W (Proc.devRef .tc main_v8))
    (RefAlg.first (W (Proc.devRef .tc main_arg0)) (W (Proc.devRef .tc main_arg4)) (W (Proc.devRef .tc main_arg5))) := by
  after_results <;> rfl
set_option maxHeartbeats 8000000 in
theorem keepA (b : Ref sig .tc) (hb : b ∈ [main_arg0, main_arg1, main_arg4, main_arg5, main_arg6, main_arg7, main_arg8, main_arg9, main_arg10, main_arg11]) :
    after ops0a W (Proc.devRef .tc b) = W (Proc.devRef .tc b) := by
  simp only [List.mem_cons, List.not_mem_nil, or_false] at hb
  rcases hb with rfl | rfl | rfl | rfl | rfl | rfl | rfl | rfl | rfl | rfl <;> after_results

theorem b_v9 : @Eq (FVec Ideal S50000x256 .f32) (after ops0b W (Proc.devRef .tc main_v9))
    (Host.dotGeneral (F := Ideal) (φ₁ := .f32) (φ₂ := .f32) RefAlg.D2 none (W (Proc.devRef .tc main_v8) : FVec Ideal S50000x256 .f32) (W (Proc.devRef .tc main_arg6) : FVec Ideal S256x256 .f32)) := by
  after_results <;> rfl
theorem b_v11 : @Eq (IVec S850000 32) (after ops0b W (Proc.devRef .tc main_v11)) (cat (W (Proc.devRef .tc main_v1))) := by
  after_results <;> rfl
theorem b_v12 : @Eq (IVec S850000 32) (after ops0b W (Proc.devRef .tc main_v12)) (cat (W (Proc.devRef .tc main_v3))) := by
  after_results <;> rfl
set_option maxHeartbeats 4000000 in
theorem b_v21 : @Eq (FVec Ideal S50000 .f32) (after ops0b W (Proc.devRef .tc main_v21)) (disOf (cat (W (Proc.devRef .tc main_v3)))) := by
  after_results
  exact (sel21 _ _ _).trans rfl
set_option maxHeartbeats 8000000 in
theorem keepB (b : Ref sig .tc) (hb : b ∈ [main_v1, main_v3, main_arg0, main_arg1, main_arg4, main_arg5, main_arg7, main_arg8, main_arg9, main_arg10, main_arg11]) :
    after ops0b W (Proc.devRef .tc b) = W (Proc.devRef .tc b) := by
  simp only [List.mem_cons, List.not_mem_nil, or_false] at hb
  rcases hb with rfl | rfl | rfl | rfl | rfl | rfl | rfl | rfl | rfl | rfl | rfl <;> after_results

set_option maxHeartbeats 8000000 in
theorem c_v36 : @Eq (FVec Ideal S850000 .f32) (after ops0c W (Proc.devRef .tc main_v36))
    (RAgg.normOf (W (Proc.devRef .tc main_v21)) (W (Proc.devRef .tc main_v11)) (W (Proc.devRef .tc main_v12))) := by
  after_results <;> rfl
set_option maxHeartbeats 8000000 in
theorem keepC (b : Ref sig .tc) (hb : b ∈ [main_v9, main_v11, main_v12, main_v1, main_v3, main_arg0, main_arg1, main_arg4, main_arg5, main_arg7, main_arg8, main_arg9, main_arg10, main_arg11]) :
    after ops0c W (Proc.devRef .tc b) = W (Proc.devRef .tc b) := by
  simp only [List.mem_cons, List.not_mem_nil, or_false] at hb
  rcases hb with rfl | rfl | rfl | rfl | rfl | rfl | rfl | rfl | rfl | rfl | rfl | rfl | rfl | rfl <;> after_results

set_option maxHeartbeats 4000000 in
theorem d_v46 : @Eq (FVec Ideal S850000x256 .f32) (after ops0d W (Proc.devRef .tc main_v46))
    (msgOf (W (Proc.devRef .tc main_v11)) (W (Proc.devRef .tc main_v36)) (W (Proc.devRef .tc main_v9))) := by
  after_results <;> rfl
theorem d_v47 : @Eq (FVec Ideal S50000x256 .f32) (after ops0d W (Proc.devRef .tc main_v47)) zeros256 := by
  after_results
set_option maxHeartbeats 8000000 in
theorem keepD (b : Ref sig .tc) (hb : b ∈ [main_v12, main_v1, main_v3, main_arg0, main_arg1, main_arg4, main_arg5, main_arg7, main_arg8, main_arg9, main_arg10, main_arg11]) :
    after ops0d W (Proc.devRef .tc b) = W (Proc.devRef .tc b) := by
  simp only [List.mem_cons, List.not_mem_nil, or_false] at hb
  rcases hb with rfl | rfl | rfl | rfl | rfl | rfl | rfl | rfl | rfl | rfl | rfl | rfl <;> after_results

theorem e_v53 : @Eq (FVec Ideal S50000x256 .f32) (after ops1a W (Proc.devRef .tc main_v53))
    (Host.dotGeneral (F := Ideal) (φ₁ := .f32) (φ₂ := .f32) RefAlg.D2 none
      (addf (F := Ideal) (Host.scatterAdd (F := Ideal) scatter_S50000x256_S850000x1_S850000x256_1_0_0_1 (W (Proc.devRef .tc main_v47))
        (broadcastInDim S850000x1 ![0] bcast_S850000_S850000x1_0 (W (Proc.devRef .tc main_v12))) (W (Proc.devRef .tc main_v46)))
        (RefAlg.rows256 (W (Proc.devRef .tc main_arg7))))
      (W (Proc.devRef .tc main_arg8) : FVec Ideal S256x256 .f32)) := by
  after_results <;> rfl
set_option maxHeartbeats 8000000 in
theorem keepE (b : Ref sig .tc) (hb : b ∈ [main_v1, main_v3, main_arg0, main_arg1, main_arg4, main_arg5, main_arg9, main_arg10, main_arg11]) :
    after ops1a W (Proc.devRef .tc b) = W (Proc.devRef .tc b) := by
  simp only [List.mem_cons, List.not_mem_nil, or_false] at hb
  rcases hb with rfl | rfl | rfl | rfl | rfl | rfl | rfl | rfl | rfl <;> after_results

theorem f_v55 : @Eq (IVec S850000 32) (after ops1b W (Proc.devRef .tc main_v55)) (cat (W (Proc.devRef .tc main_v1))) := by
  after_results <;> rfl
theorem f_v56 : @Eq (IVec S850000 32) (after ops1b W (Proc.devRef .tc main_v56)) (cat (W (Proc.devRef .tc main_v3))) := by
  after_results <;> rfl
set_option maxHeartbeats 4000000 in
theorem f_v65 : @Eq (FVec Ideal S50000 .f32) (after ops1b W (Proc.devRef .tc main_v65)) (disOf (cat (W (Proc.devRef .tc main_v3)))) := by
  after_results
  exact (sel65 _ _ _).trans rfl
theorem keepF (b : Ref sig .tc) (hb : b ∈ [main_v53, main_arg0, main_arg1, main_arg4, main_arg5, main_arg9, main_arg10, main_arg11]) :
    after ops1b W (Proc.devRef .tc b) = W (Proc.devRef .tc b) := by
  simp only [List.mem_cons, List.not_mem_nil, or_false] at hb
  rcases hb with rfl | rfl | rfl | rfl | rfl | rfl | rfl | rfl <;> after_results

set_option maxHeartbeats 8000000 in
theorem g_v80 : @Eq (FVec Ideal S850000 .f32) (after ops1c W (Proc.devRef .tc main_v80))
    (RAgg.normOf (W (Proc.devRef .tc main_v65)) (W (Proc.devRef .tc main_v55)) (W (Proc.devRef .tc main_v56))) := by
  after_results <;> rfl
set_option maxHeartbeats 8000000 in
theorem keepG (b : Ref sig .tc) (hb : b ∈ [main_v53, main_v55, main_v56, main_arg0, main_arg1, main_arg4, main_arg5, main_arg9, main_arg10, main_arg11]) :
    after ops1c W (Proc.devRef .tc b) = W (Proc.devRef .tc b) := by
  simp only [List.mem_cons, List.not_mem_nil, or_false] at hb
  rcases hb with rfl | rfl | rfl | rfl | rfl | rfl | rfl | rfl | rfl | rfl <;> after_results

set_option maxHeartbeats 8000000 in
theorem h_v96 : @Eq (FVec Ideal S50000x256 .f32) (after ops1d W (Proc.devRef .tc main_v96))
    (addf (F := Ideal) (RAgg.aggOf (W (Proc.devRef .tc main_v55)) (W (Proc.devRef .tc main_v56)) (W (Proc.devRef .tc main_v80)) (W (Proc.devRef .tc main_v53)))
      (RefAlg.rows256 (W (Proc.devRef .tc main_arg9)))) := by
  after_results <;> rfl
theorem keepH (b : Ref sig .tc) (hb : b ∈ [main_arg0, main_arg1, main_arg4, main_arg5, main_arg10, main_arg11]) :
    after ops1d W (Proc.devRef .tc b) = W (Proc.devRef .tc b) := by
  simp only [List.mem_cons, List.not_mem_nil, or_false] at hb
  rcases hb with rfl | rfl | rfl | rfl | rfl | rfl <;> after_results

set_option maxHeartbeats 8000000 in
theorem i_v111 : @Eq (FVec Ideal S50000x2 .f32) (after ops2 W (Proc.devRef .tc main_v111))
    (mulf (F := Ideal) (RefAlg.last (W (Proc.devRef .tc main_v96)) (W (Proc.devRef .tc main_arg10)) (W (Proc.devRef .tc main_arg11)))
      (RefAlg.last (RefAlg.first (subf (F := Ideal) (W (Proc.devRef .tc main_arg1) : FVec Ideal S50000x128 .f32) (W (Proc.devRef .tc main_arg0)))
        (W (Proc.devRef .tc main_arg4)) (W (Proc.devRef .tc main_arg5))) (W (Proc.devRef .tc main_arg10)) (W (Proc.devRef .tc main_arg11)))) := by
  after_results <;> rfl

end Lists

/-! ## The contents after each short list, from the launch contents `V` -/

section Chain

variable (V : Valuation τ sig (Elt Ideal))

abbrev VA : Valuation τ sig (Elt Ideal) := after ops0a V
abbrev VB : Valuation τ sig (Elt Ideal) := after ops0b (VA V)
abbrev VC : Valuation τ sig (Elt Ideal) := after ops0c (VB V)
abbrev VD : Valuation τ sig (Elt Ideal) := after ops0d (VC V)
abbrev VE : Valuation τ sig (Elt Ideal) := after ops1a (VD V)
abbrev VF : Valuation τ sig (Elt Ideal) := after ops1b (VE V)
abbrev VG : Valuation τ sig (Elt Ideal) := after ops1c (VF V)
abbrev VH : Valuation τ sig (Elt Ideal) := after ops1d (VG V)

/-- the whole list is the nine short ones in order -/
theorem ops_after : after (RefOps.ops (F := Ideal)) V = after ops2 (VH V) := by
  show after (ops0 ++ ops1 ++ ops2) V = _
  rw [ops0_cut, ops1_cut]
  simp only [StableHlo.after_append]

/-- the launched arrays at their literal types -/
abbrev aE : IVec S2x800000 32 := V (Proc.devRef .tc main_arg2)
abbrev aMf : FVec Ideal S50000x128 .f32 := V (Proc.devRef .tc main_arg0)
abbrev aFeat : FVec Ideal S50000x128 .f32 := V (Proc.devRef .tc main_arg1)
abbrev aWin : FVec Ideal S128x256 .f32 := V (Proc.devRef .tc main_arg4)
abbrev aBin : FVec Ideal S256 .f32 := V (Proc.devRef .tc main_arg5)
abbrev aWg1 : FVec Ideal S256x256 .f32 := V (Proc.devRef .tc main_arg6)
abbrev aBg1 : FVec Ideal S256 .f32 := V (Proc.devRef .tc main_arg7)
abbrev aWg2 : FVec Ideal S256x256 .f32 := V (Proc.devRef .tc main_arg8)
abbrev aBg2 : FVec Ideal S256 .f32 := V (Proc.devRef .tc main_arg9)
abbrev aWout : FVec Ideal S256x2 .f32 := V (Proc.devRef .tc main_arg10)
abbrev aBout : FVec Ideal S2 .f32 := V (Proc.devRef .tc main_arg11)
/-- the main branch's first layer -/
abbrev X0 : FVec Ideal S50000x256 .f32 := RefAlg.first (aMf V) (aWin V) (aBin V)
/-- after the first graph layer -/
abbrev X1 : FVec Ideal S50000x256 .f32 := RefAlg.layer (aE V) (X0 V) (aWg1 V) (aBg1 V)

-- after the first list
theorem vA_v1 : @Eq (IVec S800000 32) (VA V (Proc.devRef .tc main_v1)) (row ![0, 0] slices_S2x800000_S1x800000_0_0 (aE V)) := a_v1 V
theorem vA_v3 : @Eq (IVec S800000 32) (VA V (Proc.devRef .tc main_v3)) (row ![1, 0] slices_S2x800000_S1x800000_1_0 (aE V)) := a_v3 V
theorem vA_v8 : @Eq (FVec Ideal S50000x256 .f32) (VA V (Proc.devRef .tc main_v8)) (X0 V) := a_v8 V
theorem vA_arg (b : Ref sig .tc) (hb : b ∈ [main_arg0, main_arg1, main_arg4, main_arg5, main_arg6, main_arg7, main_arg8, main_arg9, main_arg10, main_arg11]) :
    VA V (Proc.devRef .tc b) = V (Proc.devRef .tc b) := by
  simp only [List.mem_cons, List.not_mem_nil, or_false] at hb
  rcases hb with rfl | rfl | rfl | rfl | rfl | rfl | rfl | rfl | rfl | rfl <;>
    exact (keepA (V) _ (by decide))

-- after the second
theorem vB_v9 : @Eq (FVec Ideal S50000x256 .f32) (VB V (Proc.devRef .tc main_v9)) (Host.dotGeneral (F := Ideal) (φ₁ := .f32) (φ₂ := .f32) RefAlg.D2 none (X0 V) (aWg1 V)) :=
  (b_v9 (VA V)).trans (by rw [vA_v8 V, vA_arg V main_arg6 (by decide)])
theorem vB_v11 : @Eq (IVec S850000 32) (VB V (Proc.devRef .tc main_v11)) (RAgg.src (aE V)) :=
  (b_v11 (VA V)).trans (by rw [vA_v1 V]; exact src_eq _)
theorem vB_v12 : @Eq (IVec S850000 32) (VB V (Proc.devRef .tc main_v12)) (RAgg.dst (aE V)) :=
  (b_v12 (VA V)).trans (by rw [vA_v3 V]; exact dst_eq _)
theorem vB_v21 : @Eq (FVec Ideal S50000 .f32) (VB V (Proc.devRef .tc main_v21)) (RAgg.dis (aE V)) :=
  (b_v21 (VA V)).trans (by rw [vA_v3 V, dst_eq]; exact dis_eq _)
theorem vB_v1 : @Eq (IVec S800000 32) (VB V (Proc.devRef .tc main_v1)) (row ![0, 0] slices_S2x800000_S1x800000_0_0 (aE V)) :=
  (keepB (VA V) main_v1 (by decide)).trans (vA_v1 V)
theorem vB_v3 : @Eq (IVec S800000 32) (VB V (Proc.devRef .tc main_v3)) (row ![1, 0] slices_S2x800000_S1x800000_1_0 (aE V)) :=
  (keepB (VA V) main_v3 (by decide)).trans (vA_v3 V)
theorem vB_arg (b : Ref sig .tc) (hb : b ∈ [main_arg0, main_arg1, main_arg4, main_arg5, main_arg7, main_arg8, main_arg9, main_arg10, main_arg11]) :
    VB V (Proc.devRef .tc b) = V (Proc.devRef .tc b) := by
  simp only [List.mem_cons, List.not_mem_nil, or_false] at hb
  rcases hb with rfl | rfl | rfl | rfl | rfl | rfl | rfl | rfl | rfl <;>
    exact (keepB (VA V) _ (by decide)).trans (vA_arg V _ (by decide))

-- after the third
theorem vC_v36 : @Eq (FVec Ideal S850000 .f32) (VC V (Proc.devRef .tc main_v36)) (RAgg.norm (aE V)) :=
  (c_v36 (VB V)).trans (by rw [vB_v21 V, vB_v11 V, vB_v12 V]; rfl)
theorem vC_v9 : @Eq (FVec Ideal S50000x256 .f32) (VC V (Proc.devRef .tc main_v9)) (Host.dotGeneral (F := Ideal) (φ₁ := .f32) (φ₂ := .f32) RefAlg.D2 none (X0 V) (aWg1 V)) :=
  (keepC (VB V) main_v9 (by decide)).trans (vB_v9 V)
theorem vC_v11 : @Eq (IVec S850000 32) (VC V (Proc.devRef .tc main_v11)) (RAgg.src (aE V)) := (keepC (VB V) main_v11 (by decide)).trans (vB_v11 V)
theorem vC_v12 : @Eq (IVec S850000 32) (VC V (Proc.devRef .tc main_v12)) (RAgg.dst (aE V)) := (keepC (VB V) main_v12 (by decide)).trans (vB_v12 V)
theorem vC_v1 : @Eq (IVec S800000 32) (VC V (Proc.devRef .tc main_v1)) (row ![0, 0] slices_S2x800000_S1x800000_0_0 (aE V)) := (keepC (VB V) main_v1 (by decide)).trans (vB_v1 V)
theorem vC_v3 : @Eq (IVec S800000 32) (VC V (Proc.devRef .tc main_v3)) (row ![1, 0] slices_S2x800000_S1x800000_1_0 (aE V)) := (keepC (VB V) main_v3 (by decide)).trans (vB_v3 V)
theorem vC_arg (b : Ref sig .tc) (hb : b ∈ [main_arg0, main_arg1, main_arg4, main_arg5, main_arg7, main_arg8, main_arg9, main_arg10, main_arg11]) :
    VC V (Proc.devRef .tc b) = V (Proc.devRef .tc b) := by
  simp only [List.mem_cons, List.not_mem_nil, or_false] at hb
  rcases hb with rfl | rfl | rfl | rfl | rfl | rfl | rfl | rfl | rfl <;>
    exact (keepC (VB V) _ (by decide)).trans (vB_arg V _ (by decide))

-- after the fourth
theorem vD_v46 : @Eq (FVec Ideal S850000x256 .f32) (VD V (Proc.devRef .tc main_v46)) (msgOf (RAgg.src (aE V)) (RAgg.norm (aE V)) (Host.dotGeneral (F := Ideal) (φ₁ := .f32) (φ₂ := .f32) RefAlg.D2 none (X0 V) (aWg1 V))) :=
  (d_v46 (VC V)).trans (by rw [vC_v11 V, vC_v36 V, vC_v9 V])
theorem vD_v47 : @Eq (FVec Ideal S50000x256 .f32) (VD V (Proc.devRef .tc main_v47)) zeros256 := d_v47 (VC V)
theorem vD_v12 : @Eq (IVec S850000 32) (VD V (Proc.devRef .tc main_v12)) (RAgg.dst (aE V)) := (keepD (VC V) main_v12 (by decide)).trans (vC_v12 V)
theorem vD_v1 : @Eq (IVec S800000 32) (VD V (Proc.devRef .tc main_v1)) (row ![0, 0] slices_S2x800000_S1x800000_0_0 (aE V)) := (keepD (VC V) main_v1 (by decide)).trans (vC_v1 V)
theorem vD_v3 : @Eq (IVec S800000 32) (VD V (Proc.devRef .tc main_v3)) (row ![1, 0] slices_S2x800000_S1x800000_1_0 (aE V)) := (keepD (VC V) main_v3 (by decide)).trans (vC_v3 V)
theorem vD_arg (b : Ref sig .tc) (hb : b ∈ [main_arg0, main_arg1, main_arg4, main_arg5, main_arg7, main_arg8, main_arg9, main_arg10, main_arg11]) :
    VD V (Proc.devRef .tc b) = V (Proc.devRef .tc b) := by
  simp only [List.mem_cons, List.not_mem_nil, or_false] at hb
  rcases hb with rfl | rfl | rfl | rfl | rfl | rfl | rfl | rfl | rfl <;>
    exact (keepD (VC V) _ (by decide)).trans (vC_arg V _ (by decide))

-- after the fifth: the first graph layer is complete and multiplied by the second layer's matrix
theorem vE_v53 : @Eq (FVec Ideal S50000x256 .f32) (VE V (Proc.devRef .tc main_v53)) (Host.dotGeneral (F := Ideal) (φ₁ := .f32) (φ₂ := .f32) RefAlg.D2 none (X1 V) (aWg2 V)) :=
  (e_v53 (VD V)).trans (by
    rw [vD_v47 V, vD_v12 V, vD_v46 V, vD_arg V main_arg7 (by decide), vD_arg V main_arg8 (by decide), agg_eq]
    rfl)
theorem vE_v1 : @Eq (IVec S800000 32) (VE V (Proc.devRef .tc main_v1)) (row ![0, 0] slices_S2x800000_S1x800000_0_0 (aE V)) := (keepE (VD V) main_v1 (by decide)).trans (vD_v1 V)
theorem vE_v3 : @Eq (IVec S800000 32) (VE V (Proc.devRef .tc main_v3)) (row ![1, 0] slices_S2x800000_S1x800000_1_0 (aE V)) := (keepE (VD V) main_v3 (by decide)).trans (vD_v3 V)
theorem vE_arg (b : Ref sig .tc) (hb : b ∈ [main_arg0, main_arg1, main_arg4, main_arg5, main_arg9, main_arg10, main_arg11]) :
    VE V (Proc.devRef .tc b) = V (Proc.devRef .tc b) := by
  simp only [List.mem_cons, List.not_mem_nil, or_false] at hb
  rcases hb with rfl | rfl | rfl | rfl | rfl | rfl | rfl <;>
    exact (keepE (VD V) _ (by decide)).trans (vD_arg V _ (by decide))

-- after the sixth: the edge data over again
theorem vF_v55 : @Eq (IVec S850000 32) (VF V (Proc.devRef .tc main_v55)) (RAgg.src (aE V)) :=
  (f_v55 (VE V)).trans (by rw [vE_v1 V]; exact src_eq _)
theorem vF_v56 : @Eq (IVec S850000 32) (VF V (Proc.devRef .tc main_v56)) (RAgg.dst (aE V)) :=
  (f_v56 (VE V)).trans (by rw [vE_v3 V]; exact dst_eq _)
theorem vF_v65 : @Eq (FVec Ideal S50000 .f32) (VF V (Proc.devRef .tc main_v65)) (RAgg.dis (aE V)) :=
  (f_v65 (VE V)).trans (by rw [vE_v3 V, dst_eq]; exact dis_eq _)
theorem vF_v53 : @Eq (FVec Ideal S50000x256 .f32) (VF V (Proc.devRef .tc main_v53)) (Host.dotGeneral (F := Ideal) (φ₁ := .f32) (φ₂ := .f32) RefAlg.D2 none (X1 V) (aWg2 V)) := (keepF (VE V) main_v53 (by decide)).trans (vE_v53 V)
theorem vF_arg (b : Ref sig .tc) (hb : b ∈ [main_arg0, main_arg1, main_arg4, main_arg5, main_arg9, main_arg10, main_arg11]) :
    VF V (Proc.devRef .tc b) = V (Proc.devRef .tc b) := by
  simp only [List.mem_cons, List.not_mem_nil, or_false] at hb
  rcases hb with rfl | rfl | rfl | rfl | rfl | rfl | rfl <;>
    exact (keepF (VE V) _ (by decide)).trans (vE_arg V _ (by decide))

-- after the seventh
theorem vG_v80 : @Eq (FVec Ideal S850000 .f32) (VG V (Proc.devRef .tc main_v80)) (RAgg.norm (aE V)) :=
  (g_v80 (VF V)).trans (by rw [vF_v65 V, vF_v55 V, vF_v56 V]; rfl)
theorem vG_v53 : @Eq (FVec Ideal S50000x256 .f32) (VG V (Proc.devRef .tc main_v53)) (Host.dotGeneral (F := Ideal) (φ₁ := .f32) (φ₂ := .f32) RefAlg.D2 none (X1 V) (aWg2 V)) := (keepG (VF V) main_v53 (by decide)).trans (vF_v53 V)
theorem vG_v55 : @Eq (IVec S850000 32) (VG V (Proc.devRef .tc main_v55)) (RAgg.src (aE V)) := (keepG (VF V) main_v55 (by decide)).trans (vF_v55 V)
theorem vG_v56 : @Eq (IVec S850000 32) (VG V (Proc.devRef .tc main_v56)) (RAgg.dst (aE V)) := (keepG (VF V) main_v56 (by decide)).trans (vF_v56 V)
theorem vG_arg (b : Ref sig .tc) (hb : b ∈ [main_arg0, main_arg1, main_arg4, main_arg5, main_arg9, main_arg10, main_arg11]) :
    VG V (Proc.devRef .tc b) = V (Proc.devRef .tc b) := by
  simp only [List.mem_cons, List.not_mem_nil, or_false] at hb
  rcases hb with rfl | rfl | rfl | rfl | rfl | rfl | rfl <;>
    exact (keepG (VF V) _ (by decide)).trans (vF_arg V _ (by decide))

-- after the eighth: the second graph layer is complete
theorem vH_v96 : @Eq (FVec Ideal S50000x256 .f32) (VH V (Proc.devRef .tc main_v96)) (RefAlg.layer (aE V) (X1 V) (aWg2 V) (aBg2 V)) :=
  (h_v96 (VG V)).trans (by
    rw [vG_v55 V, vG_v56 V, vG_v80 V, vG_v53 V, vG_arg V main_arg9 (by decide)]
    rfl)
theorem vH_arg (b : Ref sig .tc) (hb : b ∈ [main_arg0, main_arg1, main_arg4, main_arg5, main_arg10, main_arg11]) :
    VH V (Proc.devRef .tc b) = V (Proc.devRef .tc b) := by
  simp only [List.mem_cons, List.not_mem_nil, or_false] at hb
  rcases hb with rfl | rfl | rfl | rfl | rfl | rfl <;>
    exact (keepH (VG V) _ (by decide)).trans (vG_arg V _ (by decide))

/-- THE RESULT BUFFER after all the operations: the program's term of its eleven arrays. -/
theorem read : after (RefOps.ops (F := Ideal)) V (main_v111 : DevRef τ sig)
    = RefAlg.refTerm (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [ops_after V]
  refine (i_v111 (VH V)).trans ?_
  rw [vH_v96 V, vH_arg V main_arg0 (by decide), vH_arg V main_arg1 (by decide), vH_arg V main_arg4 (by decide), vH_arg V main_arg5 (by decide),
    vH_arg V main_arg10 (by decide), vH_arg V main_arg11 (by decide)]
  rfl

end Chain

end Cert.ReferenceIdeal.RefRead

end
-- ==== Proof.RefValue.lean ====
/-
  The reference program's result is the specification's function of its arguments: the result buffer after the
  program's operations holds the program's composed term of the eleven argument arrays, and that term is the
  specification's network over the graph aggregation at the edge list.
-/
import proofs.«180160_j43533788512795_1_alg».proof.Proof.RefRead
import proofs.«180160_j43533788512795_1_alg».proof.Proof.RefAlg

noncomputable section

namespace Cert.ReferenceIdeal.RefValue

open Idealize.ShloMosaic Idealize.ShloMosaic.TcCoe Idealize.ShloMosaic.StableHlo Idealize.SL.Sem
open Cert.ReferenceIdeal

/-- After the program's operations the result buffer holds the specification's output at the argument arrays, with
    the aggregation taken at the edge list. -/
theorem out_eq (V : Valuation τ sig (Elt Ideal)) :
    after (RefOps.ops (F := Ideal)) V (main_v111 : DevRef τ sig)
      = Cert.Spec.out (RAgg.agg (V (main_arg2 : DevRef τ sig))) (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) :=
  (RefRead.read V).trans (RefAlg.refTerm_eq _ _ _ _ _ _ _ _ _ _ _)

end Cert.ReferenceIdeal.RefValue

end
-- ==== Proof.lean ====
/- The five conjuncts of this certificate.

   Both programs compute, on the extended reals, the same function of the launched arguments:
     out = ((A ((A (lrelu (mf · W_in + b_in) · Wg1) + bg1) · Wg2) + bg2) · W_out + b_out) ∗ (lrelu ((feat − mf) · W_in + b_in) · W_out + b_out)
   with `A` the graph aggregation over the edge list. The kernel program computes the matrix products, biases and
   rectifiers block by block in four pallas_calls (its roundings to bf16 are the identity on the extended reals) and
   the aggregation on the host; the reference computes everything on the host. The aggregation is the same chain of
   operations in both, carried as one function that is never opened; a block-wise matrix product into a zero
   accumulator and the host's dot_general are the same sum over the contracted axis. No law of the extended reals
   beyond that is used, so the finiteness precondition is never opened.
   The three frames: the two kernel programs' are the generated frames; the reference's is its run with the result
   dropped. `preserves` has no entry. -/
import proofs.«180160_j43533788512795_1_alg».proof.Defs
import proofs.«180160_j43533788512795_1_alg».proof.Proof.Gen.Kernel
import proofs.«180160_j43533788512795_1_alg».proof.Proof.Gen.Kernel.Skeleton
import proofs.«180160_j43533788512795_1_alg».proof.Proof.Gen.Kernel.Launch
import proofs.«180160_j43533788512795_1_alg».proof.Proof.Gen.Kernel.Points
import proofs.«180160_j43533788512795_1_alg».proof.Proof.Gen.Kernel.Frame
import proofs.«180160_j43533788512795_1_alg».proof.Proof.Gen.KernelIdeal
import proofs.«180160_j43533788512795_1_alg».proof.Proof.Gen.KernelIdeal.Skeleton
import proofs.«180160_j43533788512795_1_alg».proof.Proof.Gen.KernelIdeal.Launch
import proofs.«180160_j43533788512795_1_alg».proof.Proof.Gen.KernelIdeal.Points
import proofs.«180160_j43533788512795_1_alg».proof.Proof.Gen.KernelIdeal.Frame
import proofs.«180160_j43533788512795_1_alg».proof.Proof.Gen.ReferenceIdeal
import proofs.«180160_j43533788512795_1_alg».proof.Proof.Gen.Pre_finite_inputs
import proofs.«180160_j43533788512795_1_alg».proof.Proof.KRun
import proofs.«180160_j43533788512795_1_alg».proof.Proof.KValue
import proofs.«180160_j43533788512795_1_alg».proof.Proof.RefRun
import proofs.«180160_j43533788512795_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo

/-- The two programs' graph aggregations are the same operations over the same dimension numbers. -/
theorem agg_eq : Cert.KernelIdeal.KAgg.agg = Cert.ReferenceIdeal.RAgg.agg := rfl

theorem frame_k : Cert.frame_Kernel := fun m ρ _ => Cert.Kernel.Gen.frame m ρ
theorem frame_ki : Cert.frame_KernelIdeal := fun m ρ _ => Cert.KernelIdeal.Gen.frame m ρ

/-- The reference's frame: its run, each argument read at the end of the operations' fold, which writes none. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.kept_arg0 _),
     (h c Cert.ReferenceIdeal.main_arg1).trans (Cert.ReferenceIdeal.RefRun.kept_arg1 _),
     (h c Cert.ReferenceIdeal.main_arg2).trans (Cert.ReferenceIdeal.RefRun.kept_arg2 _),
     (h c Cert.ReferenceIdeal.main_arg3).trans (Cert.ReferenceIdeal.RefRun.kept_arg3 _),
     (h c Cert.ReferenceIdeal.main_arg4).trans (Cert.ReferenceIdeal.RefRun.kept_arg4 _),
     (h c Cert.ReferenceIdeal.main_arg5).trans (Cert.ReferenceIdeal.RefRun.kept_arg5 _),
     (h c Cert.ReferenceIdeal.main_arg6).trans (Cert.ReferenceIdeal.RefRun.kept_arg6 _),
     (h c Cert.ReferenceIdeal.main_arg7).trans (Cert.ReferenceIdeal.RefRun.kept_arg7 _),
     (h c Cert.ReferenceIdeal.main_arg8).trans (Cert.ReferenceIdeal.RefRun.kept_arg8 _),
     (h c Cert.ReferenceIdeal.main_arg9).trans (Cert.ReferenceIdeal.RefRun.kept_arg9 _),
     (h c Cert.ReferenceIdeal.main_arg10).trans (Cert.ReferenceIdeal.RefRun.kept_arg10 _),
     (h c Cert.ReferenceIdeal.main_arg11).trans (Cert.ReferenceIdeal.RefRun.kept_arg11 _)⟩)
    (Cert.ReferenceIdeal.RefRun.run_main (F := Ideal) m ρ)

theorem preserves : Cert.preserves_Kernel_KernelIdeal := trivial

/-- From memories agreeing on the arguments both programs end with the whole network of those arguments in their
    result buffers: the kernel program by its regions and host stretches read as values, the reference by its
    operations' composed term; the two aggregations are one function. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.KValue.result m ρ c), (h c).2⟩)
    (Cert.KernelIdeal.KRun.run (F := Ideal) m ρ), ?_⟩
  refine (θ_run Cert.ReferenceIdeal.defs _ _).mono (fun r h c =>
    ⟨(h c Cert.ReferenceIdeal.main_v111).trans ((Cert.ReferenceIdeal.RefValue.out_eq _).trans ?_),
     (h c Cert.ReferenceIdeal.main_arg0).trans (Cert.ReferenceIdeal.RefRun.kept_arg0 _),
     (h c Cert.ReferenceIdeal.main_arg1).trans (Cert.ReferenceIdeal.RefRun.kept_arg1 _),
     (h c Cert.ReferenceIdeal.main_arg2).trans (Cert.ReferenceIdeal.RefRun.kept_arg2 _),
     (h c Cert.ReferenceIdeal.main_arg3).trans (Cert.ReferenceIdeal.RefRun.kept_arg3 _),
     (h c Cert.ReferenceIdeal.main_arg4).trans (Cert.ReferenceIdeal.RefRun.kept_arg4 _),
     (h c Cert.ReferenceIdeal.main_arg5).trans (Cert.ReferenceIdeal.RefRun.kept_arg5 _),
     (h c Cert.ReferenceIdeal.main_arg6).trans (Cert.ReferenceIdeal.RefRun.kept_arg6 _),
     (h c Cert.ReferenceIdeal.main_arg7).trans (Cert.ReferenceIdeal.RefRun.kept_arg7 _),
     (h c Cert.ReferenceIdeal.main_arg8).trans (Cert.ReferenceIdeal.RefRun.kept_arg8 _),
     (h c Cert.ReferenceIdeal.main_arg9).trans (Cert.ReferenceIdeal.RefRun.kept_arg9 _),
     (h c Cert.ReferenceIdeal.main_arg10).trans (Cert.ReferenceIdeal.RefRun.kept_arg10 _),
     (h c Cert.ReferenceIdeal.main_arg11).trans (Cert.ReferenceIdeal.RefRun.kept_arg11 _)⟩)
    (Cert.ReferenceIdeal.RefRun.run_main (F := Ideal) m' ρ')
  obtain ⟨e0, e1, e2, e3, e4, e5, e6, e7, e8, e9, e10, e11⟩ := hagree c
  have h0 : launchContents m' c (Cert.ReferenceIdeal.main_arg0 : DevRef Cert.ReferenceIdeal.τ Cert.ReferenceIdeal.sig) = Cert.KernelIdeal.KValue.aMf m c := e0
  have h1 : launchContents m' c (Cert.ReferenceIdeal.main_arg1 : DevRef Cert.ReferenceIdeal.τ Cert.ReferenceIdeal.sig) = Cert.KernelIdeal.KValue.aFeat m c := e1
  have h2 : launchContents m' c (Cert.ReferenceIdeal.main_arg2 : DevRef Cert.ReferenceIdeal.τ Cert.ReferenceIdeal.sig) = Cert.KernelIdeal.KHost.E m c := e2
  have h4 : launchContents m' c (Cert.ReferenceIdeal.main_arg4 : DevRef Cert.ReferenceIdeal.τ Cert.ReferenceIdeal.sig) = Cert.KernelIdeal.KValue.aWin m c := e4
  have h5 : launchContents m' c (Cert.ReferenceIdeal.main_arg5 : DevRef Cert.ReferenceIdeal.τ Cert.ReferenceIdeal.sig) = Cert.KernelIdeal.KValue.aBin m c := e5
  have h6 : launchContents m' c (Cert.ReferenceIdeal.main_arg6 : DevRef Cert.ReferenceIdeal.τ Cert.ReferenceIdeal.sig) = Cert.KernelIdeal.KValue.aWg1 m c := e6
  have h7 : launchContents m' c (Cert.ReferenceIdeal.main_arg7 : DevRef Cert.ReferenceIdeal.τ Cert.ReferenceIdeal.sig) = Cert.KernelIdeal.KValue.aBg1 m c := e7
  have h8 : launchContents m' c (Cert.ReferenceIdeal.main_arg8 : DevRef Cert.ReferenceIdeal.τ Cert.ReferenceIdeal.sig) = Cert.KernelIdeal.KValue.aWg2 m c := e8
  have h9 : launchContents m' c (Cert.ReferenceIdeal.main_arg9 : DevRef Cert.ReferenceIdeal.τ Cert.ReferenceIdeal.sig) = Cert.KernelIdeal.KValue.aBg2 m c := e9
  have h10 : launchContents m' c (Cert.ReferenceIdeal.main_arg10 : DevRef Cert.ReferenceIdeal.τ Cert.ReferenceIdeal.sig) = Cert.KernelIdeal.KValue.aWout m c := e10
  have h11 : launchContents m' c (Cert.ReferenceIdeal.main_arg11 : DevRef Cert.ReferenceIdeal.τ Cert.ReferenceIdeal.sig) = Cert.KernelIdeal.KValue.aBout m c := e11
  rw [h0, h1, h2, h4, h5, h6, h7, h8, h9, h10, h11, agg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
